-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S4x100 : Shape := ⟨2, ![4, 100]⟩
abbrev S100 : Shape := ⟨1, ![100]⟩
abbrev S100x16 : Shape := ⟨2, ![100, 16]⟩
abbrev S16 : Shape := ⟨1, ![16]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S4x100 : S_.BroadcastsInDim S4x100 (![] : Fin 0 → Fin S4x100.rank)
  reducesTo_S4x100_S_d0_1 : S4x100.ReducesTo [0, 1] S_
  bcast_S_S100 : S_.BroadcastsInDim S100 (![] : Fin 0 → Fin S100.rank)
  reducesTo_S100_S_d0 : S100.ReducesTo [0] S_
  bcast_S_S100x16 : S_.BroadcastsInDim S100x16 (![] : Fin 0 → Fin S100x16.rank)
  reducesTo_S100x16_S_d0_1 : S100x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S100x16 1) : IVec S_ 1 :=
  let main_c_5 : IVec S_ 1 := constantI S_ 1 1#1
  let main_v17 : IVec S_ 1 := (fun x v => Host.reduce IntOp.andi x v reducesTo_S100x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S128x8192 .f32) (main_arg1 : FVec F S4x100 .f32) (main_arg2 : FVec F S100 .f32) (main_arg3 : FVec F S100x16 .f32) (main_arg4 : FVec F S16 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S4x100 .f32 := Host.absf main_arg1
  let main_cst_0 : FVec F S_ .f32 := constant S_ .f32 0x7F800000#32
  let main_v5 : FVec F S4x100 .f32 := broadcastInDim S4x100 ![] bcast_S_S4x100 main_cst_0
  let main_v6 : IVec S4x100 1 := cmpf .olt main_v4 main_v5
  let main_c_1 : IVec S_ 1 := constantI S_ 1 1#1
  let main_v7 : IVec S_ 1 := (fun x v => Host.reduce IntOp.andi x v reducesTo_S4x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x16 .f32 := Host.absf main_arg3
  let main_cst_4 : FVec F S_ .f32 := constant S_ .f32 0x7F800000#32
  let main_v15 : FVec F S100x16 .f32 := broadcastInDim S100x16 ![] bcast_S_S100x16 main_cst_4
  let main_v16 : IVec S100x16 1 := cmpf .olt main_v14 main_v15
  fn_part1 (F := F) main_arg4 main_v13 main_v16
-- ==== Kernel.lean ====
abbrev S128x8192 : Shape := ⟨2, ![128, 8192]⟩
abbrev S4x100 : Shape := ⟨2, ![4, 100]⟩
abbrev S100 : Shape := ⟨1, ![100]⟩
abbrev S100x16 : Shape := ⟨2, ![100, 16]⟩
abbrev S16 : Shape := ⟨1, ![16]⟩
abbrev S_ : Shape := ⟨0, ![]⟩
abbrev S128x5 : Shape := ⟨2, ![128, 5]⟩
abbrev S100x4 : Shape := ⟨2, ![100, 4]⟩
abbrev S1 : Shape := ⟨1, ![1]⟩
abbrev S2 : Shape := ⟨1, ![2]⟩
abbrev S16x128 : Shape := ⟨2, ![16, 128]⟩
abbrev S16x100 : Shape := ⟨2, ![16, 100]⟩
abbrev S128x1x8192 : Shape := ⟨3, ![128, 1, 8192]⟩
abbrev S128x16x8192 : Shape := ⟨3, ![128, 16, 8192]⟩
abbrev S128x8192x16 : Shape := ⟨3, ![128, 8192, 16]⟩
abbrev S8x1x8192 : Shape := ⟨3, ![8, 1, 8192]⟩
abbrev S8x16x8192 : Shape := ⟨3, ![8, 16, 8192]⟩
abbrev S1x3 : Shape := ⟨2, ![1, 3]⟩
abbrev S1x4096 : Shape := ⟨2, ![1, 4096]⟩
abbrev S1x1x8192 : Shape := ⟨3, ![1, 1, 8192]⟩
abbrev S1x8192 : Shape := ⟨2, ![1, 8192]⟩
abbrev S1x8195 : Shape := ⟨2, ![1, 8195]⟩
abbrev S5x4096 : Shape := ⟨2, ![5, 4096]⟩
abbrev S128x4096 : Shape := ⟨2, ![128, 4096]⟩
abbrev S16x4096 : Shape := ⟨2, ![16, 4096]⟩
abbrev S8x4096 : Shape := ⟨2, ![8, 4096]⟩
abbrev S4096 : Shape := ⟨1, ![4096]⟩
abbrev S1x16x4096 : Shape := ⟨3, ![1, 16, 4096]⟩

abbrev nBuf : Space → Nat
  | .hbm => 39
  | .vmem => 6
  | .smem => 0
  | _ => 0

abbrev bufTy : (tb : Table) → Fin (tcTables nBuf tb) → BufTy
  | .hbm, ⟨0, _⟩ => ⟨S128x8192, .f32⟩
  | .hbm, ⟨1, _⟩ => ⟨S4x100, .f32⟩
  | .hbm, ⟨2, _⟩ => ⟨S100, .f32⟩
  | .hbm, ⟨3, _⟩ => ⟨S100x16, .f32⟩
  | .hbm, ⟨4, _⟩ => ⟨S16, .f32⟩
  | .hbm, ⟨5, _⟩ => ⟨S_, .f32⟩
  | .hbm, ⟨6, _⟩ => ⟨S128x5, .f32⟩
  | .hbm, ⟨7, _⟩ => ⟨S100x4, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S128x5, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x5, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S_, .f32⟩
  | .hbm, ⟨26, _⟩ => ⟨S128x5, .f32⟩
  | .hbm, ⟨27, _⟩ => ⟨S_, .f32⟩
  | .hbm, ⟨28, _⟩ => ⟨S16x128, .f32⟩
  | .hbm, ⟨29, _⟩ => ⟨S16x100, .f32⟩
  | .hbm, ⟨30, _⟩ => ⟨S_, .i32⟩
  | .hbm, ⟨31, _⟩ => ⟨S1, .i32⟩
  | .hbm, ⟨32, _⟩ => ⟨S16x128, .f32⟩
  | .hbm, ⟨33, _⟩ => ⟨S_, .i32⟩
  | .hbm, ⟨34, _⟩ => ⟨S1, .i32⟩
  | .hbm, ⟨35, _⟩ => ⟨S16x128, .f32⟩
  | .hbm, ⟨36, _⟩ => ⟨S128x1x8192, .f32⟩
  | .hbm, ⟨37, _⟩ => ⟨S128x16x8192, .f32⟩
  | .hbm, ⟨38, _⟩ => ⟨S128x8192x16, .f32⟩
  | .local _ .vmem, ⟨0, _⟩ => ⟨S8x1x8192, .f32⟩
  | .local _ .vmem, ⟨1, _⟩ => ⟨S8x1x8192, .f32⟩
  | .local _ .vmem, ⟨2, _⟩ => ⟨S128x5, .f32⟩
  | .local _ .vmem, ⟨3, _⟩ => ⟨S16x128, .f32⟩
  | .local _ .vmem, ⟨4, _⟩ => ⟨S8x16x8192, .f32⟩
  | .local _ .vmem, ⟨5, _⟩ => ⟨S8x16x8192, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_3 : Ref sig .tc := ⟨.hbm, 20, rfl⟩
abbrev main_call0_v10 : Ref sig .tc := ⟨.hbm, 21, rfl⟩
abbrev main_call0_c_4 : Ref sig .tc := ⟨.hbm, 22, rfl⟩
abbrev main_call0_v11 : Ref sig .tc := ⟨.hbm, 23, rfl⟩
abbrev main_call0_v12 : Ref sig .tc := ⟨.hbm, 24, rfl⟩
abbrev main_call0_cst_5 : Ref sig .tc := ⟨.hbm, 25, rfl⟩
abbrev main_call0_v13 : Ref sig .tc := ⟨.hbm, 26, rfl⟩
abbrev main_call0_cst_6 : Ref sig .tc := ⟨.hbm, 27, rfl⟩
abbrev main_call0_v14 : Ref sig .tc := ⟨.hbm, 28, rfl⟩
abbrev main_call0_v15 : Ref sig .tc := ⟨.hbm, 29, rfl⟩
abbrev main_call0_c_7 : Ref sig .tc := ⟨.hbm, 30, rfl⟩
abbrev main_call0_v16 : Ref sig .tc := ⟨.hbm, 31, rfl⟩
abbrev main_call0_v17 : Ref sig .tc := ⟨.hbm, 32, rfl⟩
abbrev main_call0_c_8 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x5 : S_.BroadcastsInDim S128x5 (![] : Fin 0 → Fin S128x5.rank)
  transposes_S4x100_S100x4_1_0 : S4x100.Transposes [1, 0] S100x4
  bcast_S_S1 : S_.BroadcastsInDim S1 (![] : Fin 0 → Fin S1.rank)
  concatenates_S1_S1_S2_d0 : Shape.Concatenates [S1, S1] S2 0
  bcast_S_S16x128 : S_.BroadcastsInDim S16x128 (![] : Fin 0 → Fin S16x128.rank)
  transposes_S100x16_S16x100_1_0 : S100x16.Transposes [1, 0] S16x100
  shapeCasts_S128x8192_S128x1x8192 : S128x8192.ShapeCasts S128x1x8192
  transposes_S128x16x8192_S128x8192x16_0_2_1 : S128x16x8192.Transposes [0, 2, 1] S128x8192x16
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S8x1x8192_S1x1x8192_0_0_0 : ∀ a, (![0, 0, 0] : Fin 3 → Nat) a + S1x1x8192.size a ≤ S8x1x8192.size a
  h_S1x1x8192 : 0 < S1x1x8192.numel
  shapeCasts_S1x1x8192_S1x8192 : S1x1x8192.ShapeCasts S1x8192
  concatenates_S1x3_S1x8192_S1x8195_d1 : Shape.Concatenates [S1x3, S1x8192] S1x8195 1
  slices_S1x8195_o0_0_S1x4096 : S1x8195.Slices ![0, 0] S1x4096
  slices_S1x8195_o0_1_S1x4096 : S1x8195.Slices ![0, 1] S1x4096
  slices_S1x8195_o0_2_S1x4096 : S1x8195.Slices ![0, 2] S1x4096
  slices_S1x8195_o0_3_S1x4096 : S1x8195.Slices ![0, 3] S1x4096
  concatenates_S1x4096_S1x4096_S1x4096_S1x4096_S1x4096_S5x4096_d0 : Shape.Concatenates [S1x4096, S1x4096, S1x4096, S1x4096, S1x4096] S5x4096 0
  slices_S16x4096_o0_0_S8x4096 : S16x4096.Slices ![0, 0] S8x4096
  slices_S16x4096_o8_0_S8x4096 : S16x4096.Slices ![8, 0] S8x4096
  reduces_S8x4096_S4096 : S8x4096.Reduces [0] S4096
  shapeCasts_S4096_S1x4096 : S4096.ShapeCasts S1x4096
  broadcasts_S1x4096_S16x4096 : S1x4096.Broadcasts S16x4096
  inb_S8x16x8192_S1x16x4096_0_0_0 : ∀ a, (![0, 0, 0] : Fin 3 → Nat) a + S1x16x4096.size a ≤ S8x16x8192.size a
  h_S1x16x4096 : 0 < S1x16x4096.numel
  shapeCasts_S1x16x4096_S16x4096 : S1x16x4096.ShapeCasts S16x4096
  shapeCasts_S16x4096_S1x16x4096 : S16x4096.ShapeCasts S1x16x4096
  slices_S1x8195_o0_4096_S1x4096 : S1x8195.Slices ![0, 4096] S1x4096
  slices_S1x8195_o0_4097_S1x4096 : S1x8195.Slices ![0, 4097] S1x4096
  slices_S1x8195_o0_4098_S1x4096 : S1x8195.Slices ![0, 4098] S1x4096
  slices_S1x8195_o0_4099_S1x4096 : S1x8195.Slices ![0, 4099] S1x4096
  inb_S8x16x8192_S1x16x4096_0_0_4096 : ∀ a, (![0, 0, 4096] : Fin 3 → Nat) a + S1x16x4096.size a ≤ S8x16x8192.size a
  inb_S8x1x8192_S1x1x8192_1_0_0 : ∀ a, (![1, 0, 0] : Fin 3 → Nat) a + S1x1x8192.size a ≤ S8x1x8192.size a
  inb_S8x16x8192_S1x16x4096_1_0_0 : ∀ a, (![1, 0, 0] : Fin 3 → Nat) a + S1x16x4096.size a ≤ S8x16x8192.size a
  inb_S8x16x8192_S1x16x4096_1_0_4096 : ∀ a, (![1, 0, 4096] : Fin 3 → Nat) a + S1x16x4096.size a ≤ S8x16x8192.size a
  inb_S8x1x8192_S1x1x8192_2_0_0 : ∀ a, (![2, 0, 0] : Fin 3 → Nat) a + S1x1x8192.size a ≤ S8x1x8192.size a
  inb_S8x16x8192_S1x16x4096_2_0_0 : ∀ a, (![2, 0, 0] : Fin 3 → Nat) a + S1x16x4096.size a ≤ S8x16x8192.size a
  inb_S8x16x8192_S1x16x4096_2_0_4096 : ∀ a, (![2, 0, 4096] : Fin 3 → Nat) a + S1x16x4096.size a ≤ S8x16x8192.size a
  inb_S8x1x8192_S1x1x8192_3_0_0 : ∀ a, (![3, 0, 0] : Fin 3 → Nat) a + S1x1x8192.size a ≤ S8x1x8192.size a
  inb_S8x16x8192_S1x16x4096_3_0_0 : ∀ a, (![3, 0, 0] : Fin 3 → Nat) a + S1x16x4096.size a ≤ S8x16x8192.size a
  inb_S8x16x8192_S1x16x4096_3_0_4096 : ∀ a, (![3, 0, 4096] : Fin 3 → Nat) a + S1x16x4096.size a ≤ S8x16x8192.size a
  inb_S8x1x8192_S1x1x8192_4_0_0 : ∀ a, (![4, 0, 0] : Fin 3 → Nat) a + S1x1x8192.size a ≤ S8x1x8192.size a
  inb_S8x16x8192_S1x16x4096_4_0_0 : ∀ a, (![4, 0, 0] : Fin 3 → Nat) a + S1x16x4096.size a ≤ S8x16x8192.size a
  inb_S8x16x8192_S1x16x4096_4_0_4096 : ∀ a, (![4, 0, 4096] : Fin 3 → Nat) a + S1x16x4096.size a ≤ S8x16x8192.size a
  inb_S8x1x8192_S1x1x8192_5_0_0 : ∀ a, (![5, 0, 0] : Fin 3 → Nat) a + S1x1x8192.size a ≤ S8x1x8192.size a
  inb_S8x16x8192_S1x16x4096_5_0_0 : ∀ a, (![5, 0, 0] : Fin 3 → Nat) a + S1x16x4096.size a ≤ S8x16x8192.size a
  inb_S8x16x8192_S1x16x4096_5_0_4096 : ∀ a, (![5, 0, 4096] : Fin 3 → Nat) a + S1x16x4096.size a ≤ S8x16x8192.size a
  inb_S8x1x8192_S1x1x8192_6_0_0 : ∀ a, (![6, 0, 0] : Fin 3 → Nat) a + S1x1x8192.size a ≤ S8x1x8192.size a
  inb_S8x16x8192_S1x16x4096_6_0_0 : ∀ a, (![6, 0, 0] : Fin 3 → Nat) a + S1x16x4096.size a ≤ S8x16x8192.size a
  inb_S8x16x8192_S1x16x4096_6_0_4096 : ∀ a, (![6, 0, 4096] : Fin 3 → Nat) a + S1x16x4096.size a ≤ S8x16x8192.size a
  inb_S8x1x8192_S1x1x8192_7_0_0 : ∀ a, (![7, 0, 0] : Fin 3 → Nat) a + S1x1x8192.size a ≤ S8x1x8192.size a
  inb_S8x16x8192_S1x16x4096_7_0_0 : ∀ a, (![7, 0, 0] : Fin 3 → Nat) a + S1x16x4096.size a ≤ S8x16x8192.size a
  inb_S8x16x8192_S1x16x4096_7_0_4096 : ∀ a, (![7, 0, 4096] : Fin 3 → Nat) a + S1x16x4096.size a ≤ S8x16x8192.size a
  scatter_S128x5_S2_S100x4_01_n_01_0_wf : ScatterDims.WF S128x5 S2 S100x4 [0, 1] [] [0, 1] 0
  scatter_S128x5_S2_S100_0_1_01_0_wf : ScatterDims.WF S128x5 S2 S100 [0] [1] [0, 1] 0
  scatter_S128x5_S2_S__n_01_01_0_wf : ScatterDims.WF S128x5 S2 S_ [] [0, 1] [0, 1] 0
  scatter_S16x128_S1_S16x100_01_n_1_0_wf : ScatterDims.WF S16x128 S1 S16x100 [0, 1] [] [1] 0
  scatter_S16x128_S1_S16_0_1_1_0_wf : ScatterDims.WF S16x128 S1 S16 [0] [1] [1] 0
  dot_S128x5_S5x4096_S128x4096_1_0_0_1_n_n_wf : DotDims.WF S128x5 S5x4096 S128x4096 [1] [0] [0] [1] [] []
  dot_S16x128_S128x4096_S16x4096_1_0_0_1_n_n_wf : DotDims.WF S16x128 S128x4096 S16x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x8192.size a ≤ S128x1x8192.size a
  hwx0_0 : ∀ i : grid0.Coords, EltTy.bits .f32 = 32 ∨ (Rect.block (s := S128x1x8192) S8x1x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S128x5.size a
  hwx0_1 : ∀ i : grid0.Coords, EltTy.bits .f32 = 32 ∨ (Rect.block (s := S128x5) S128x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x8192.size a ≤ S128x16x8192.size a
  hwx0_3 : ∀ i : grid0.Coords, EltTy.bits .f32 = 32 ∨ (Rect.block (s := S128x16x8192) S8x16x8192.size (cc0_transform_3 i) (hinb0_3 i)).WholeWords (EltTy.packing .f32)

variable [Facts₀]

def scatter_S128x5_S2_S100x4_01_n_01_0 : ScatterDims S128x5 S2 S100x4 where
  updateWindowDims := [0, 1]
  insertedWindowDims := []
  scatterDimsToOperandDims := [0, 1]
  indexVectorDim := 0
  wf := scatter_S128x5_S2_S100x4_01_n_01_0_wf
def scatter_S128x5_S2_S100_0_1_01_0 : ScatterDims S128x5 S2 S100 where
  updateWindowDims := [0]
  insertedWindowDims := [1]
  scatterDimsToOperandDims := [0, 1]
  indexVectorDim := 0
  wf := scatter_S128x5_S2_S100_0_1_01_0_wf
def scatter_S128x5_S2_S__n_01_01_0 : ScatterDims S128x5 S2 S_ where
  updateWindowDims := []
  insertedWindowDims := [0, 1]
  scatterDimsToOperandDims := [0, 1]
  indexVectorDim := 0
  wf := scatter_S128x5_S2_S__n_01_01_0_wf
def scatter_S16x128_S1_S16x100_01_n_1_0 : ScatterDims S16x128 S1 S16x100 where
  updateWindowDims := [0, 1]
  insertedWindowDims := []
  scatterDimsToOperandDims := [1]
  indexVectorDim := 0
  wf := scatter_S16x128_S1_S16x100_01_n_1_0_wf
def scatter_S16x128_S1_S16_0_1_1_0 : ScatterDims S16x128 S1 S16 where
  updateWindowDims := [0]
  insertedWindowDims := [1]
  scatterDimsToOperandDims := [1]
  indexVectorDim := 0
  wf := scatter_S16x128_S1_S16_0_1_1_0_wf
def dot_S128x5_S5x4096_S128x4096_1_0_0_1_n_n : DotDims S128x5 S5x4096 S128x4096 where
  lhsContracting := [1]
  rhsContracting := [0]
  lhsNonContracting := [0]
  rhsNonContracting := [1]
  lhsBatch := []
  rhsBatch := []
  wf := dot_S128x5_S5x4096_S128x4096_1_0_0_1_n_n_wf
def dot_S16x128_S128x4096_S16x4096_1_0_0_1_n_n : DotDims S16x128 S128x4096 S16x4096 where
  lhsContracting := [1]
  rhsContracting := [0]
  lhsNonContracting := [0]
  rhsNonContracting := [1]
  lhsBatch := []
  rhsBatch := []
  wf := dot_S16x128_S128x4096_S16x4096_1_0_0_1_n_n_wf

abbrev win0_0 : Pipeline.Window sig grid0 :=
  Pipeline.Window.ofSpec (Memref.whole main_call0_v20) S8x1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S128x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S8x16x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192 : Shape := ⟨2, ![128, 8192]⟩
abbrev S4x100 : Shape := ⟨2, ![4, 100]⟩
abbrev S100 : Shape := ⟨1, ![100]⟩
abbrev S100x16 : Shape := ⟨2, ![100, 16]⟩
abbrev S16 : Shape := ⟨1, ![16]⟩
abbrev S_ : Shape := ⟨0, ![]⟩
abbrev S128x8195 : Shape := ⟨2, ![128, 8195]⟩
abbrev S128x3 : Shape := ⟨2, ![128, 3]⟩
abbrev S128x2 : Shape := ⟨2, ![128, 2]⟩
abbrev S128x8193 : Shape := ⟨2, ![128, 8193]⟩
abbrev S128x1 : Shape := ⟨2, ![128, 1]⟩
abbrev S128x8194 : Shape := ⟨2, ![128, 8194]⟩
abbrev S128x0 : Shape := ⟨2, ![128, 0]⟩
abbrev S128x8195x1 : Shape := ⟨3, ![128, 8195, 1]⟩
abbrev S128x8195x4 : Shape := ⟨3, ![128, 8195, 4]⟩
abbrev S128x8192x4 : Shape := ⟨3, ![128, 8192, 4]⟩
abbrev S1048576x4 : Shape := ⟨2, ![1048576, 4]⟩
abbrev S1048576x100 : Shape := ⟨2, ![1048576, 100]⟩
abbrev S1x100 : Shape := ⟨2, ![1, 100]⟩
abbrev S1048576x16 : Shape := ⟨2, ![1048576, 16]⟩
abbrev S1x16 : Shape := ⟨2, ![1, 16]⟩
abbrev S1048576 : Shape := ⟨1, ![1048576]⟩
abbrev S1048576x1 : Shape := ⟨2, ![1048576, 1]⟩
abbrev S128x8192x16 : Shape := ⟨3, ![128, 8192, 16]⟩

abbrev nBuf : Space → Nat
  | .hbm => 54
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S4x100, .f32⟩
  | .hbm, ⟨2, _⟩ => ⟨S100, .f32⟩
  | .hbm, ⟨3, _⟩ => ⟨S100x16, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S128x8195, .f32⟩
  | .hbm, ⟨8, _⟩ => ⟨S128x3, .f32⟩
  | .hbm, ⟨9, _⟩ => ⟨S128x8192, .f32⟩
  | .hbm, ⟨10, _⟩ => ⟨S128x8195, .f32⟩
  | .hbm, ⟨11, _⟩ => ⟨S128x2, .f32⟩
  | .hbm, ⟨12, _⟩ => ⟨S128x8193, .f32⟩
  | .hbm, ⟨13, _⟩ => ⟨S128x8195, .f32⟩
  | .hbm, ⟨14, _⟩ => ⟨S128x1, .f32⟩
  | .hbm, ⟨15, _⟩ => ⟨S128x8194, .f32⟩
  | .hbm, ⟨16, _⟩ => ⟨S128x8195, .f32⟩
  | .hbm, ⟨17, _⟩ => ⟨S128x8195, .f32⟩
  | .hbm, ⟨18, _⟩ => ⟨S128x0, .f32⟩
  | .hbm, ⟨19, _⟩ => ⟨S128x8195, .f32⟩
  | .hbm, ⟨20, _⟩ => ⟨S128x8195x1, .f32⟩
  | .hbm, ⟨21, _⟩ => ⟨S128x8195x1, .f32⟩
  | .hbm, ⟨22, _⟩ => ⟨S128x8195x1, .f32⟩
  | .hbm, ⟨23, _⟩ => ⟨S128x8195x1, .f32⟩
  | .hbm, ⟨24, _⟩ => ⟨S128x8195x4, .f32⟩
  | .hbm, ⟨25, _⟩ => ⟨S128x8192x4, .f32⟩
  | .hbm, ⟨26, _⟩ => ⟨S1048576x4, .f32⟩
  | .hbm, ⟨27, _⟩ => ⟨S1048576x100, .f32⟩
  | .hbm, ⟨28, _⟩ => ⟨S1x100, .f32⟩
  | .hbm, ⟨29, _⟩ => ⟨S1048576x100, .f32⟩
  | .hbm, ⟨30, _⟩ => ⟨S1048576x100, .f32⟩
  | .hbm, ⟨31, _⟩ => ⟨S_, .f32⟩
  | .hbm, ⟨32, _⟩ => ⟨S1048576x100, .f32⟩
  | .hbm, ⟨33, _⟩ => ⟨S1048576x100, .f32⟩
  | .hbm, ⟨34, _⟩ => ⟨S1048576x16, .f32⟩
  | .hbm, ⟨35, _⟩ => ⟨S1x16, .f32⟩
  | .hbm, ⟨36, _⟩ => ⟨S1048576x16, .f32⟩
  | .hbm, ⟨37, _⟩ => ⟨S1048576x16, .f32⟩
  | .hbm, ⟨38, _⟩ => ⟨S_, .f32⟩
  | .hbm, ⟨39, _⟩ => ⟨S1048576, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S1048576x1, .f32⟩
  | .hbm, ⟨44, _⟩ => ⟨S1048576x16, .f32⟩
  | .hbm, ⟨45, _⟩ => ⟨S1048576x16, .f32⟩
  | .hbm, ⟨46, _⟩ => ⟨S1048576x16, .f32⟩
  | .hbm, ⟨47, _⟩ => ⟨S_, .f32⟩
  | .hbm, ⟨48, _⟩ => ⟨S1048576, .f32⟩
  | .hbm, ⟨49, _⟩ => ⟨S1048576x1, .f32⟩
  | .hbm, ⟨50, _⟩ => ⟨S1048576x1, .f32⟩
  | .hbm, ⟨51, _⟩ => ⟨S1048576x16, .f32⟩
  | .hbm, ⟨52, _⟩ => ⟨S1048576x16, .f32⟩
  | .hbm, ⟨53, _⟩ => ⟨S128x8192x16, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_call2_v0 : Ref sig .tc := ⟨.hbm, 11, rfl⟩
abbrev main_call2_v1 : Ref sig .tc := ⟨.hbm, 12, rfl⟩
abbrev main_v2 : Ref sig .tc := ⟨.hbm, 13, rfl⟩
abbrev main_call3_v0 : Ref sig .tc := ⟨.hbm, 14, rfl⟩
abbrev main_call3_v1 : Ref sig .tc := ⟨.hbm, 15, rfl⟩
abbrev main_v3 : Ref sig .tc := ⟨.hbm, 16, rfl⟩
abbrev main_call4_v0 : Ref sig .tc := ⟨.hbm, 17, rfl⟩
abbrev main_call4_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call5_cst : Ref sig .tc := ⟨.hbm, 31, rfl⟩
abbrev main_call5_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call6_cst : Ref sig .tc := ⟨.hbm, 38, rfl⟩
abbrev main_call6_v0 : Ref sig .tc := ⟨.hbm, 39, rfl⟩
abbrev main_call6_cst_0 : Ref sig .tc := ⟨.hbm, 40, rfl⟩
abbrev main_call6_v1 : Ref sig .tc := ⟨.hbm, 41, rfl⟩
abbrev main_call6_v2 : Ref sig .tc := ⟨.hbm, 42, rfl⟩
abbrev main_call6_v3 : Ref sig .tc := ⟨.hbm, 43, rfl⟩
abbrev main_call6_v4 : Ref sig .tc := ⟨.hbm, 44, rfl⟩
abbrev main_call6_v5 : Ref sig .tc := ⟨.hbm, 45, rfl⟩
abbrev main_call6_v6 : Ref sig .tc := ⟨.hbm, 46, rfl⟩
abbrev main_call6_cst_1 : Ref sig .tc := ⟨.hbm, 47, rfl⟩
abbrev main_call6_v7 : Ref sig .tc := ⟨.hbm, 48, rfl⟩
abbrev main_call6_v8 : Ref sig .tc := ⟨.hbm, 49, rfl⟩
abbrev main_call6_v9 : Ref sig .tc := ⟨.hbm, 50, rfl⟩
abbrev main_call6_v10 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  pads_S128x8192_S128x8195_000_030 : S128x8192.Pads (![0, 0] : Fin 2 → Nat) ![0, 3] ![0, 0] S128x8195
  h_S_ : 0 < S_.numel
  slices_S128x8195_S128x3_0_8192 : S128x8195.Slices ![0, 8192] S128x3
  slices_S128x8195_S128x8192_0_0 : S128x8195.Slices ![0, 0] S128x8192
  concatenates_S128x3_S128x8192_S128x8195_d1 : Shape.Concatenates [S128x3, S128x8192] S128x8195 1
  slices_S128x8195_S128x2_0_8193 : S128x8195.Slices ![0, 8193] S128x2
  slices_S128x8195_S128x8193_0_0 : S128x8195.Slices ![0, 0] S128x8193
  concatenates_S128x2_S128x8193_S128x8195_d1 : Shape.Concatenates [S128x2, S128x8193] S128x8195 1
  slices_S128x8195_S128x1_0_8194 : S128x8195.Slices ![0, 8194] S128x1
  slices_S128x8195_S128x8194_0_0 : S128x8195.Slices ![0, 0] S128x8194
  concatenates_S128x1_S128x8194_S128x8195_d1 : Shape.Concatenates [S128x1, S128x8194] S128x8195 1
  slices_S128x8195_S128x8195_0_0 : S128x8195.Slices ![0, 0] S128x8195
  slices_S128x8195_S128x0_0_0 : S128x8195.Slices ![0, 0] S128x0
  concatenates_S128x8195_S128x0_S128x8195_d1 : Shape.Concatenates [S128x8195, S128x0] S128x8195 1
  bcast_S128x8195_S128x8195x1_0_1 : S128x8195.BroadcastsInDim S128x8195x1 (![0, 1] : Fin 2 → Fin S128x8195x1.rank)
  concatenates_S128x8195x1_S128x8195x1_S128x8195x1_S128x8195x1_S128x8195x4_d2 : Shape.Concatenates [S128x8195x1, S128x8195x1, S128x8195x1, S128x8195x1] S128x8195x4 2
  slices_S128x8195x4_S128x8192x4_0_0_0 : S128x8195x4.Slices ![0, 0, 0] S128x8192x4
  shapeCasts_S128x8192x4_S1048576x4 : S128x8192x4.ShapeCasts S1048576x4
  bcast_S100_S1x100_1 : S100.BroadcastsInDim S1x100 (![1] : Fin 1 → Fin S1x100.rank)
  bcast_S1x100_S1048576x100_0_1 : S1x100.BroadcastsInDim S1048576x100 (![0, 1] : Fin 2 → Fin S1048576x100.rank)
  bcast_S_S1048576x100 : S_.BroadcastsInDim S1048576x100 (![] : Fin 0 → Fin S1048576x100.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  reducesTo_S1048576x16_S1048576_d1 : S1048576x16.ReducesTo [1] S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x16_0_1 : S1048576x1.BroadcastsInDim S1048576x16 (![0, 1] : Fin 2 → Fin S1048576x16.rank)
  shapeCasts_S1048576x16_S128x8192x16 : S1048576x16.ShapeCasts S128x8192x16
  dot_S1048576x4_S4x100_S1048576x100_1_0_0_1_n_n_wf : DotDims.WF S1048576x4 S4x100 S1048576x100 [1] [0] [0] [1] [] []
  dot_S1048576x100_S100x16_S1048576x16_1_0_0_1_n_n_wf : DotDims.WF S1048576x100 S100x16 S1048576x16 [1] [0] [0] [1] [] []

variable [Facts₀]

def dot_S1048576x4_S4x100_S1048576x100_1_0_0_1_n_n : DotDims S1048576x4 S4x100 S1048576x100 where
  lhsContracting := [1]
  rhsContracting := [0]
  lhsNonContracting := [0]
  rhsNonContracting := [1]
  lhsBatch := []
  rhsBatch := []
  wf := dot_S1048576x4_S4x100_S1048576x100_1_0_0_1_n_n_wf
def dot_S1048576x100_S100x16_S1048576x16_1_0_0_1_n_n : DotDims S1048576x100 S100x16 S1048576x16 where
  lhsContracting := [1]
  rhsContracting := [0]
  lhsNonContracting := [0]
  rhsNonContracting := [1]
  lhsBatch := []
  rhsBatch := []
  wf := dot_S1048576x100_S100x16_S1048576x16_1_0_0_1_n_n_wf

class Facts : Prop extends Facts₀ where

variable [Facts]
-- ==== Proof.Spec.lean ====
/-
  The function both programs compute, over the extended reals.

  A row `x b ·` of 8192 samples is read through a causal window of four taps: tap `k` of the window that
  ends at time `t` is `x b (t - 3 + k)`, and the start-padding value where that time is negative.  The four
  taps go through an affine layer into 100 rectified hidden units, those through an affine layer into 16
  logits, and the logits through a log-softmax: `L c - max L - log (∑ exp (L c' - max L))`.

  The kernel arranges the same arithmetic differently.  Each affine layer's bias rides inside the matrix
  product: the first layer's weights are padded to 128 rows by 5 columns (column 4 holds the bias and meets
  a row of ones; rows 100 to 126 are zero, row 127 is the unit that makes hidden unit 127 equal to one),
  the second layer's to 16 rows by 128 columns (column 127 holds the bias and meets that hidden unit).  Its
  maximum and its sum over the sixteen classes are taken over eight pairs `(c, c + 8)`, and it subtracts
  `max + log sum` in one step.
-/
import Idealize.ShloMosaic.Lib.ValueIdx
import Idealize.ShloMosaic.PureOps.Ideal

noncomputable section

namespace Cert.WindowMlp

open Idealize.ShloMosaic Idealize.ShloMosaic.ValueIdx

/-- The samples: 128 rows of 8192. -/
abbrev SX : Shape := ⟨2, ![128, 8192]⟩
/-- First layer weights, taps by hidden units. -/
abbrev SW1 : Shape := ⟨2, ![4, 100]⟩
/-- First layer bias. -/
abbrev SB1 : Shape := ⟨1, ![100]⟩
/-- Second layer weights, hidden units by classes. -/
abbrev SW2 : Shape := ⟨2, ![100, 16]⟩
/-- Second layer bias. -/
abbrev SB2 : Shape := ⟨1, ![16]⟩
/-- The result: rows, times, classes. -/
abbrev SOut : Shape := ⟨3, ![128, 8192, 16]⟩
/-- The kernel's padded first-layer weights. -/
abbrev SW1a : Shape := ⟨2, ![128, 5]⟩
/-- The kernel's padded second-layer weights. -/
abbrev SW2a : Shape := ⟨2, ![16, 128]⟩

/-- The start-padding value (the word of -100). -/
def padv : EReal := Ideal.ofBits .f32 0xC2C80000#32
/-- The value of the zero word. -/
def zerov : EReal := Ideal.ofBits .f32 0x00000000#32
/-- The value of the word of one. -/
def onev : EReal := Ideal.ofBits .f32 0x3F800000#32
/-- The value of the word of minus infinity. -/
def ninfv : EReal := Ideal.ofBits .f32 0xFF800000#32

/-- Every entry of an array is a real number. -/
def AllReal {S : Shape} (x : S.Idx → EReal) : Prop := ∀ i, ∃ r : ℝ, x i = (r : EReal)

/-! ## The window -/

/-- Tap `k` of the window of one row that ends at time `t`: the sample at time `t - 3 + k`, the padding
    value before the row starts. -/
def tapRow (row : Fin 8192 → EReal) (t : Fin 8192) (k : Fin 4) : EReal :=
  if h : 3 ≤ t.val + k.val then row ⟨t.val + k.val - 3, by have := t.isLt; have := k.isLt; omega⟩ else padv

/-- Row `b` of the samples. -/
def rowOf (x : SX.Idx → EReal) (b : Fin 128) : Fin 8192 → EReal := fun s => x (ix2 b s)

/-- Tap `k` of the window of row `b` that ends at time `t`. -/
def tap (x : SX.Idx → EReal) (b : Fin 128) (t : Fin 8192) (k : Fin 4) : EReal := tapRow (rowOf x b) t k

/-! ## The reference's arrangement -/

/-- Hidden unit `j`: the rectified affine image of the four taps. -/
def hidden (x : SX.Idx → EReal) (W1 : SW1.Idx → EReal) (b1 : SB1.Idx → EReal) (b : Fin 128) (t : Fin 8192)
    (j : Fin 100) : EReal :=
  max ((∑ k : Fin 4, tap x b t k * W1 (ix2 k j)) + b1 (ix1 j)) zerov

/-- Logit `c`: the affine image of the hidden units. -/
def logit (x : SX.Idx → EReal) (W1 : SW1.Idx → EReal) (b1 : SB1.Idx → EReal) (W2 : SW2.Idx → EReal)
    (b2 : SB2.Idx → EReal) (b : Fin 128) (t : Fin 8192) (c : Fin 16) : EReal :=
  (∑ j : Fin 100, hidden x W1 b1 b t j * W2 (ix2 j c)) + b2 (ix1 c)

/-- The log-softmax of sixteen logits, shifted by their maximum. -/
def logSoftmax (L : Fin 16 → EReal) (c : Fin 16) : EReal :=
  (L c - Finset.univ.sup L) - Ideal.log (∑ c' : Fin 16, Ideal.exp (L c' - Finset.univ.sup L))

/-- The whole result, index by index. -/
def G (x : SX.Idx → EReal) (W1 : SW1.Idx → EReal) (b1 : SB1.Idx → EReal) (W2 : SW2.Idx → EReal)
    (b2 : SB2.Idx → EReal) : SOut.Idx → EReal := fun i =>
  logSoftmax (logit x W1 b1 W2 b2 ⟨(i 0).val, (i 0).isLt⟩ ⟨(i 1).val, (i 1).isLt⟩) ⟨(i 2).val, (i 2).isLt⟩

/-! ## The kernel's arrangement -/

/-- The first layer's weights with the bias as a fifth column, padded to 128 rows: row `h < 100` is
    `(W1 (·, h), b1 h)`, rows 100 to 126 are zero and row 127 is `(0, 0, 0, 0, 1)`. -/
def w1aug (W1 : SW1.Idx → EReal) (b1 : SB1.Idx → EReal) : SW1a.Idx → EReal := fun i =>
  if hh : (i 0).val < 100 then
    (if hk : (i 1).val < 4 then W1 (ix2 ⟨(i 1).val, hk⟩ ⟨(i 0).val, hh⟩) else b1 (ix1 ⟨(i 0).val, hh⟩))
  else if (i 0).val = 127 ∧ (i 1).val = 4 then onev else zerov

/-- The second layer's weights transposed, padded to 128 columns with the bias in column 127. -/
def w2aug (W2 : SW2.Idx → EReal) (b2 : SB2.Idx → EReal) : SW2a.Idx → EReal := fun i =>
  if hh : (i 1).val < 100 then W2 (ix2 ⟨(i 1).val, hh⟩ ⟨(i 0).val, (i 0).isLt⟩)
  else if (i 1).val = 127 then b2 (ix1 ⟨(i 0).val, (i 0).isLt⟩) else zerov

/-- The window's four taps followed by a one. -/
def taps5 (row : Fin 8192 → EReal) (t : Fin 8192) : Fin 5 → EReal := fun k =>
  if h : k.val < 4 then tapRow row t ⟨k.val, h⟩ else onev

/-- A padded hidden unit: the rectified product of a weight row with the five-vector. -/
def khidden (w1 : SW1a.Idx → EReal) (v : Fin 5 → EReal) (h : Fin 128) : EReal :=
  max (∑ k : Fin 5, w1 (ix2 h k) * v k) zerov

/-- A logit as the product of a padded weight row with the 128 padded hidden units. -/
def klogit (w1 : SW1a.Idx → EReal) (w2 : SW2a.Idx → EReal) (v : Fin 5 → EReal) (c : Fin 16) : EReal :=
  ∑ h : Fin 128, w2 (ix2 c h) * khidden w1 v h

/-- Class `r` of the lower eight. -/
def lo8 (r : Fin 8) : Fin 16 := ⟨r.val, by have := r.isLt; omega⟩
/-- Class `8 + r` of the upper eight. -/
def hi8 (r : Fin 8) : Fin 16 := ⟨8 + r.val, by have := r.isLt; omega⟩

/-- The maximum of sixteen logits taken over the eight pairs `(r, 8 + r)`, from minus infinity. -/
def kmax (L : Fin 16 → EReal) : EReal :=
  (Finset.univ : Finset (Fin 8)).fold max ninfv (fun r => max (L (lo8 r)) (L (hi8 r)))

/-- The sum of the shifted exponentials taken over the same eight pairs. -/
def ksum (L : Fin 16 → EReal) : EReal :=
  ∑ r : Fin 8, (Ideal.exp (L (lo8 r) - kmax L) + Ideal.exp (L (hi8 r) - kmax L))

/-- The kernel's log-softmax: the maximum and the log of the sum subtracted together. -/
def kLogSoftmax (L : Fin 16 → EReal) (c : Fin 16) : EReal := L c - (kmax L + Ideal.log (ksum L))

/-- The kernel's whole result in the reference's layout (rows, times, classes), from the samples and the
    padded weights. -/
def KOut (x : SX.Idx → EReal) (w1 : SW1a.Idx → EReal) (w2 : SW2a.Idx → EReal) : SOut.Idx → EReal := fun i =>
  kLogSoftmax (klogit w1 w2 (taps5 (rowOf x ⟨(i 0).val, (i 0).isLt⟩) ⟨(i 1).val, (i 1).isLt⟩)) ⟨(i 2).val, (i 2).isLt⟩

end Cert.WindowMlp

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Chunk.lean ====
/-
  One chunk of the kernel body as a function of its operands: four unit-stride slices of the padded row
  stacked over a row of ones, the two matrix products with the rectifier between them, and the log-softmax
  over the sixteen class rows.  Every store of the body writes such a chunk; they differ in the row and in
  the slice offsets only.
-/
import proofs.«149210_g33380485825013_cont_8to1_b_1249_38_alg».proof.KernelIdeal
import proofs.«149210_g33380485825013_cont_8to1_b_1249_38_alg».proof.Proof.Spec
import proofs.«149210_g33380485825013_cont_8to1_b_1249_38_alg».proof.Proof.LibPlainDot
import Idealize.ShloMosaic.Lib.Pipeline.Value
import Idealize.ShloMosaic.Lib.ValueLayout
import Idealize.ShloMosaic.PureOps.Ideal.Laws

noncomputable section

namespace Cert.KernelIdeal.Chunk

open Idealize.ShloMosaic Idealize.ShloMosaic.ValueIdx Cert.KernelIdeal Cert.WindowMlp

variable [Facts]
open Facts₀ Facts

section Generic

variable {F : FTy → Type} [FloatOps F]

/-- The padded row: three entries of the start-padding value, then the row's 8192 samples. -/
def rowExt (row : Vec F S1x1x8192 .f32) : FVec F S1x8195 .f32 :=
  concatenate S1x8195 1 [⟨S1x3, broadcast S1x3 (Scalar.ofBits .f32 0xC2C80000#32)⟩,
    ⟨S1x8192, shapeCast S1x8192 row shapeCasts_S1x1x8192_S1x8192⟩] concatenates_S1x3_S1x8192_S1x8195_d1

/-- A row of ones, 4096 wide. -/
def onesRow : FVec F S1x4096 .f32 := broadcast S1x4096 (Scalar.ofBits .f32 0x3F800000#32)

/-- The log-softmax over the sixteen rows of a 16 by 4096 block, each column by itself. -/
def lsmCols (lt : FVec F S16x4096 .f32) : FVec F S1x16x4096 .f32 :=
  have m8 : FVec F S8x4096 .f32 := maximumf (extractStridedSlice S8x4096 ![0, 0] lt slices_S16x4096_o0_0_S8x4096)
    (extractStridedSlice S8x4096 ![8, 0] lt slices_S16x4096_o8_0_S8x4096)
  have mx : FVec F S1x4096 .f32 := shapeCast S1x4096
    (multiReduction .maximumf [0] S4096 m8 0xFF800000#32 reduces_S8x4096_S4096 (.inl rfl) rfl) shapeCasts_S4096_S1x4096
  have e : FVec F S16x4096 .f32 := exp (subf lt (broadcastTo S16x4096 mx broadcasts_S1x4096_S16x4096))
  have s8 : FVec F S8x4096 .f32 := addf (extractStridedSlice S8x4096 ![0, 0] e slices_S16x4096_o0_0_S8x4096)
    (extractStridedSlice S8x4096 ![8, 0] e slices_S16x4096_o8_0_S8x4096)
  have sm : FVec F S1x4096 .f32 := shapeCast S1x4096
    (multiReduction .add [0] S4096 s8 0x00000000#32 reduces_S8x4096_S4096 (.inl rfl) rfl) shapeCasts_S4096_S1x4096
  shapeCast S1x16x4096 (subf lt (broadcastTo S16x4096 (addf mx (log sm)) broadcasts_S1x4096_S16x4096))
    shapeCasts_S16x4096_S1x16x4096

/-- The logits of one chunk: the padded row's slices at column offsets `a0 … a3` stacked over `ones`, through
    both layers. -/
def logits (w1 : FVec F S128x5 .f32) (w2 : FVec F S16x128 .f32) (ones : FVec F S1x4096 .f32) (xe : FVec F S1x8195 .f32)
    (a0 a1 a2 a3 : Nat) (h0 : S1x8195.Slices ![0, a0] S1x4096) (h1 : S1x8195.Slices ![0, a1] S1x4096)
    (h2 : S1x8195.Slices ![0, a2] S1x4096) (h3 : S1x8195.Slices ![0, a3] S1x4096) : FVec F S16x4096 .f32 :=
  have xt : FVec F S5x4096 .f32 := concatenate S5x4096 0 [⟨S1x4096, extractStridedSlice S1x4096 ![0, a0] xe h0⟩,
    ⟨S1x4096, extractStridedSlice S1x4096 ![0, a1] xe h1⟩, ⟨S1x4096, extractStridedSlice S1x4096 ![0, a2] xe h2⟩,
    ⟨S1x4096, extractStridedSlice S1x4096 ![0, a3] xe h3⟩, ⟨S1x4096, ones⟩]
    concatenates_S1x4096_S1x4096_S1x4096_S1x4096_S1x4096_S5x4096_d0
  have ht : FVec F S128x4096 .f32 := maximumf
    (matmul dot_S128x5_S5x4096_S128x4096_1_0_0_1_n_n none w1 xt (constant S128x4096 .f32 0x00000000#32))
    (broadcast S128x4096 (Scalar.ofBits .f32 0x00000000#32))
  matmul dot_S16x128_S128x4096_S16x4096_1_0_0_1_n_n none w2 ht (constant S16x4096 .f32 0x00000000#32)

/-- One chunk: its logits through the column log-softmax. -/
def chunk (w1 : FVec F S128x5 .f32) (w2 : FVec F S16x128 .f32) (ones : FVec F S1x4096 .f32) (xe : FVec F S1x8195 .f32)
    (a0 a1 a2 a3 : Nat) (h0 : S1x8195.Slices ![0, a0] S1x4096) (h1 : S1x8195.Slices ![0, a1] S1x4096)
    (h2 : S1x8195.Slices ![0, a2] S1x4096) (h3 : S1x8195.Slices ![0, a3] S1x4096) : FVec F S1x16x4096 .f32 :=
  lsmCols (logits w1 w2 ones xe a0 a1 a2 a3 h0 h1 h2 h3)

end Generic

/-! ## The chunk at an index, over the extended reals -/

/-- The five entries the stacked slices hold in column `t`: the padded row at `a_k + t`, then `ones` at `t`. -/
def tapsAt (ones : S1x4096.Idx → EReal) (xe : S1x8195.Idx → EReal) (a0 a1 a2 a3 : Nat)
    (b0 : a0 + 4096 ≤ 8195) (b1 : a1 + 4096 ≤ 8195) (b2 : a2 + 4096 ≤ 8195) (b3 : a3 + 4096 ≤ 8195)
    (t : Fin 4096) : Fin 5 → EReal := fun k =>
  if k.val = 0 then xe (ix2 (0 : Fin 1) ⟨a0 + t.val, by have := t.isLt; omega⟩)
  else if k.val = 1 then xe (ix2 (0 : Fin 1) ⟨a1 + t.val, by have := t.isLt; omega⟩)
  else if k.val = 2 then xe (ix2 (0 : Fin 1) ⟨a2 + t.val, by have := t.isLt; omega⟩)
  else if k.val = 3 then xe (ix2 (0 : Fin 1) ⟨a3 + t.val, by have := t.isLt; omega⟩)
  else ones (ix2 (0 : Fin 1) t)

/-! ### The column log-softmax at an index -/

/-- The reduced index with the row coordinate put back is the index (r, t). -/
private theorem lift_eq (t : Fin 4096) (r : Fin 8) :
    (reduces_S8x4096_S4096 : S8x4096.Reduces [0] S4096).lift (ix1 t) r = ix2 r t := by
  funext a
  refine Fin.ext ?_
  match a with
  | ⟨0, _⟩ => rfl
  | ⟨1, _⟩ => rfl

/-- The lower eight rows of a block: row r of the cut is row r of the block. -/
private theorem slice_lo (x : FVec Ideal S16x4096 .f32) (r : Fin 8) (t : Fin 4096) :
    extractStridedSlice S8x4096 ![0, 0] x slices_S16x4096_o0_0_S8x4096 (ix2 r t) = x (ix2 (lo8 r) t) :=
  slice2_axis0_apply 0 x slices_S16x4096_o0_0_S8x4096 r t (lo8 r) (Nat.zero_add _).symm

/-- The upper eight rows of a block: row r of the cut is row 8 + r of the block. -/
private theorem slice_hi (x : FVec Ideal S16x4096 .f32) (r : Fin 8) (t : Fin 4096) :
    extractStridedSlice S8x4096 ![8, 0] x slices_S16x4096_o8_0_S8x4096 (ix2 r t) = x (ix2 (hi8 r) t) :=
  slice2_axis0_apply 8 x slices_S16x4096_o8_0_S8x4096 r t (hi8 r) rfl

/-- The column maximum over the eight pairs of rows. -/
private theorem mx_apply (x : FVec Ideal S16x4096 .f32) (t : Fin 4096) :
    shapeCast S1x4096 (multiReduction .maximumf [0] S4096
      (maximumf (extractStridedSlice S8x4096 ![0, 0] x slices_S16x4096_o0_0_S8x4096)
        (extractStridedSlice S8x4096 ![8, 0] x slices_S16x4096_o8_0_S8x4096))
      0xFF800000#32 reduces_S8x4096_S4096 (.inl rfl) rfl) shapeCasts_S4096_S1x4096 (ix2 (0 : Fin 1) t)
      = kmax (fun c => x (ix2 c t)) := by
  refine (shapeCast_a_1a_apply _ shapeCasts_S4096_S1x4096 0 t).trans ?_
  refine (Ideal.multiReduction_maximumf_single _ _ reduces_S8x4096_S4096 (.inl rfl) rfl (ix1 t)).trans ?_
  unfold kmax
  show Finset.fold max ninfv _ (Finset.univ : Finset (Fin 8)) = _
  refine congrArg (fun f : Fin 8 → EReal => Finset.fold max ninfv f (Finset.univ : Finset (Fin 8))) (funext fun (r : Fin 8) => ?_)
  show max (extractStridedSlice S8x4096 ![0, 0] x slices_S16x4096_o0_0_S8x4096 (reduces_S8x4096_S4096.lift (ix1 t) r))
      (extractStridedSlice S8x4096 ![8, 0] x slices_S16x4096_o8_0_S8x4096 (reduces_S8x4096_S4096.lift (ix1 t) r)) = _
  rw [lift_eq, slice_lo, slice_hi]

/-- The column sum over the eight pairs of rows. -/
private theorem sm_apply (e : FVec Ideal S16x4096 .f32) (t : Fin 4096) :
    shapeCast S1x4096 (multiReduction .add [0] S4096
      (addf (extractStridedSlice S8x4096 ![0, 0] e slices_S16x4096_o0_0_S8x4096)
        (extractStridedSlice S8x4096 ![8, 0] e slices_S16x4096_o8_0_S8x4096))
      0x00000000#32 reduces_S8x4096_S4096 (.inl rfl) rfl) shapeCasts_S4096_S1x4096 (ix2 (0 : Fin 1) t)
      = ∑ r : Fin 8, (e (ix2 (lo8 r) t) + e (ix2 (hi8 r) t)) := by
  refine (shapeCast_a_1a_apply _ shapeCasts_S4096_S1x4096 0 t).trans ?_
  refine (Ideal.multiReduction_add_single _ _ reduces_S8x4096_S4096 (.inl rfl) rfl (ix1 t)).trans ?_
  show (∑ r : Fin 8, _) = _
  refine Finset.sum_congr rfl fun (r : Fin 8) _ => ?_
  show (extractStridedSlice S8x4096 ![0, 0] e slices_S16x4096_o0_0_S8x4096 (reduces_S8x4096_S4096.lift (ix1 t) r))
      + (extractStridedSlice S8x4096 ![8, 0] e slices_S16x4096_o8_0_S8x4096 (reduces_S8x4096_S4096.lift (ix1 t) r)) = _
  rw [lift_eq, slice_lo, slice_hi]

/-- The last step of the log-softmax at an index. -/
private theorem lsm_core (lt : FVec Ideal S16x4096 .f32) (mx sm : FVec Ideal S1x4096 .f32) (c : Fin 16) (t : Fin 4096) :
    shapeCast S1x16x4096 (subf lt (broadcastTo S16x4096 (addf mx (log sm)) broadcasts_S1x4096_S16x4096))
        shapeCasts_S16x4096_S1x16x4096 (ix3 (0 : Fin 1) c t)
      = lt (ix2 c t) - (mx (ix2 (0 : Fin 1) t) + Ideal.log (sm (ix2 (0 : Fin 1) t))) := by
  refine (shapeCast_ab_1ab_apply _ shapeCasts_S16x4096_S1x16x4096 0 c t).trans ?_
  show lt (ix2 c t) - broadcastTo S16x4096 (addf mx (log sm)) broadcasts_S1x4096_S16x4096 (ix2 c t) = _
  rw [broadcastTo_1b_ab_apply]
  rfl

/-- The shifted exponential at an index. -/
private theorem e_apply (lt : FVec Ideal S16x4096 .f32) (mx : FVec Ideal S1x4096 .f32) (c : Fin 16) (t : Fin 4096) :
    exp (subf lt (broadcastTo S16x4096 mx broadcasts_S1x4096_S16x4096)) (ix2 c t)
      = Ideal.exp (lt (ix2 c t) - mx (ix2 (0 : Fin 1) t)) := by
  show Ideal.exp (lt (ix2 c t) - broadcastTo S16x4096 mx broadcasts_S1x4096_S16x4096 (ix2 c t)) = _
  rw [broadcastTo_1b_ab_apply]

/-- The column log-softmax of a block at class c and column t: the kernel's log-softmax of that column. -/
private theorem lsmCols_apply (lt : FVec Ideal S16x4096 .f32) (c : Fin 16) (t : Fin 4096) :
    lsmCols (F := Ideal) lt (ix3 (0 : Fin 1) c t) = kLogSoftmax (fun c' => lt (ix2 c' t)) c := by
  unfold lsmCols
  refine (lsm_core lt _ _ c t).trans ?_
  rw [sm_apply]
  simp only [e_apply]
  rw [mx_apply]
  rfl

/-! ### The stacked slices and the two matrix products at an index -/

/-- The stacked slices at row k and column t: the k-th of the column's five entries. -/
private theorem xt_apply (ones : FVec Ideal S1x4096 .f32) (xe : FVec Ideal S1x8195 .f32) (a0 a1 a2 a3 : Nat)
    (h0 : S1x8195.Slices ![0, a0] S1x4096) (h1 : S1x8195.Slices ![0, a1] S1x4096)
    (h2 : S1x8195.Slices ![0, a2] S1x4096) (h3 : S1x8195.Slices ![0, a3] S1x4096)
    (b0 : a0 + 4096 ≤ 8195) (b1 : a1 + 4096 ≤ 8195) (b2 : a2 + 4096 ≤ 8195) (b3 : a3 + 4096 ≤ 8195) (k : Fin 5) (t : Fin 4096) :
    concatenate S5x4096 0 [⟨S1x4096, extractStridedSlice S1x4096 ![0, a0] xe h0⟩,
        ⟨S1x4096, extractStridedSlice S1x4096 ![0, a1] xe h1⟩, ⟨S1x4096, extractStridedSlice S1x4096 ![0, a2] xe h2⟩,
        ⟨S1x4096, extractStridedSlice S1x4096 ![0, a3] xe h3⟩, ⟨S1x4096, ones⟩]
      concatenates_S1x4096_S1x4096_S1x4096_S1x4096_S1x4096_S5x4096_d0 (ix2 k t)
      = tapsAt ones xe a0 a1 a2 a3 b0 b1 b2 b3 t k := by
  match k with
  | ⟨0, _⟩ =>
    refine Eq.trans (concatenate_apply_piece (t := S5x4096) 0 _ _ (ix2 _ t) 0 ?_ S1x4096
      (extractStridedSlice S1x4096 ![0, a0] xe h0) ?_ rfl 0 ?_ (ix2 (0 : Fin 1) t) ?_ ?_) ?_
    · exact (by decide : 0 < 5)
    · rfl
    · rfl
    · intro b hb
      match b with
      | ⟨0, _⟩ => exact absurd rfl hb
      | ⟨1, _⟩ => rfl
    · rfl
    · exact slice2_axis1_apply a0 xe h0 (0 : Fin 1) t ⟨a0 + t.val, by have := t.isLt; omega⟩ rfl
  | ⟨1, _⟩ =>
    refine Eq.trans (concatenate_apply_piece (t := S5x4096) 0 _ _ (ix2 _ t) 1 ?_ S1x4096
      (extractStridedSlice S1x4096 ![0, a1] xe h1) ?_ rfl 1 ?_ (ix2 (0 : Fin 1) t) ?_ ?_) ?_
    · exact (by decide : 1 < 5)
    · rfl
    · rfl
    · intro b hb
      match b with
      | ⟨0, _⟩ => exact absurd rfl hb
      | ⟨1, _⟩ => rfl
    · rfl
    · exact slice2_axis1_apply a1 xe h1 (0 : Fin 1) t ⟨a1 + t.val, by have := t.isLt; omega⟩ rfl
  | ⟨2, _⟩ =>
    refine Eq.trans (concatenate_apply_piece (t := S5x4096) 0 _ _ (ix2 _ t) 2 ?_ S1x4096
      (extractStridedSlice S1x4096 ![0, a2] xe h2) ?_ rfl 2 ?_ (ix2 (0 : Fin 1) t) ?_ ?_) ?_
    · exact (by decide : 2 < 5)
    · rfl
    · rfl
    · intro b hb
      match b with
      | ⟨0, _⟩ => exact absurd rfl hb
      | ⟨1, _⟩ => rfl
    · rfl
    · exact slice2_axis1_apply a2 xe h2 (0 : Fin 1) t ⟨a2 + t.val, by have := t.isLt; omega⟩ rfl
  | ⟨3, _⟩ =>
    refine Eq.trans (concatenate_apply_piece (t := S5x4096) 0 _ _ (ix2 _ t) 3 ?_ S1x4096
      (extractStridedSlice S1x4096 ![0, a3] xe h3) ?_ rfl 3 ?_ (ix2 (0 : Fin 1) t) ?_ ?_) ?_
    · exact (by decide : 3 < 5)
    · rfl
    · rfl
    · intro b hb
      match b with
      | ⟨0, _⟩ => exact absurd rfl hb
      | ⟨1, _⟩ => rfl
    · rfl
    · exact slice2_axis1_apply a3 xe h3 (0 : Fin 1) t ⟨a3 + t.val, by have := t.isLt; omega⟩ rfl
  | ⟨4, _⟩ =>
    refine Eq.trans (concatenate_apply_piece (t := S5x4096) 0 _ _ (ix2 _ t) 4 ?_ S1x4096
      ones ?_ rfl 4 ?_ (ix2 (0 : Fin 1) t) ?_ ?_) ?_
    · exact (by decide : 4 < 5)
    · rfl
    · rfl
    · intro b hb
      match b with
      | ⟨0, _⟩ => exact absurd rfl hb
      | ⟨1, _⟩ => rfl
    · rfl
    · rfl

/-- The first matrix product into a zero accumulator, at an index. -/
private theorem mm1_apply (w1 : FVec Ideal S128x5 .f32) (xt : FVec Ideal S5x4096 .f32) (h : Fin 128) (t : Fin 4096) :
    matmul dot_S128x5_S5x4096_S128x4096_1_0_0_1_n_n none w1 xt (constant S128x4096 .f32 0x00000000#32) (ix2 h t)
      = ∑ k : Fin 5, w1 (ix2 h k) * xt (ix2 k t) :=
  Cert.PlainDot.matmul_zero_apply (M := 128) (K := 5) (N := 4096) none w1 xt (ix2 h t)

/-- The second matrix product into a zero accumulator, at an index. -/
private theorem mm2_apply (w2 : FVec Ideal S16x128 .f32) (ht : FVec Ideal S128x4096 .f32) (c : Fin 16) (t : Fin 4096) :
    matmul dot_S16x128_S128x4096_S16x4096_1_0_0_1_n_n none w2 ht (constant S16x4096 .f32 0x00000000#32) (ix2 c t)
      = ∑ h : Fin 128, w2 (ix2 c h) * ht (ix2 h t) :=
  Cert.PlainDot.matmul_zero_apply (M := 16) (K := 128) (N := 4096) none w2 ht (ix2 c t)

/-- The logits of a chunk at class c and column t: the kernel's logit of that column's five entries. -/
private theorem logits_apply (w1 : FVec Ideal S128x5 .f32) (w2 : FVec Ideal S16x128 .f32) (ones : FVec Ideal S1x4096 .f32) (xe : FVec Ideal S1x8195 .f32) (a0 a1 a2 a3 : Nat)
    (h0 : S1x8195.Slices ![0, a0] S1x4096) (h1 : S1x8195.Slices ![0, a1] S1x4096)
    (h2 : S1x8195.Slices ![0, a2] S1x4096) (h3 : S1x8195.Slices ![0, a3] S1x4096)
    (b0 : a0 + 4096 ≤ 8195) (b1 : a1 + 4096 ≤ 8195) (b2 : a2 + 4096 ≤ 8195) (b3 : a3 + 4096 ≤ 8195)
    (c : Fin 16) (t : Fin 4096) :
    logits (F := Ideal) w1 w2 ones xe a0 a1 a2 a3 h0 h1 h2 h3 (ix2 c t)
      = klogit w1 w2 (tapsAt ones xe a0 a1 a2 a3 b0 b1 b2 b3 t) c := by
  unfold logits
  refine (mm2_apply w2 _ c t).trans ?_
  unfold klogit
  refine Finset.sum_congr rfl fun h _ => ?_
  refine congrArg (fun z => w2 (ix2 c h) * z) ?_
  show max (matmul dot_S128x5_S5x4096_S128x4096_1_0_0_1_n_n none w1 _ (constant S128x4096 .f32 0x00000000#32) (ix2 h t)) zerov = _
  refine (congrArg (fun z => max z zerov) (mm1_apply w1 _ h t)).trans ?_
  unfold khidden
  refine congrArg (fun z => max z zerov) (Finset.sum_congr rfl fun k _ => ?_)
  refine congrArg (fun z => w1 (ix2 h k) * z) ?_
  exact xt_apply ones xe a0 a1 a2 a3 h0 h1 h2 h3 b0 b1 b2 b3 k t

/-- A chunk at class `c` and column `t`: the kernel's log-softmax of the logits of that column's five entries. -/
theorem chunk_apply (w1 : FVec Ideal S128x5 .f32) (w2 : FVec Ideal S16x128 .f32) (ones : FVec Ideal S1x4096 .f32)
    (xe : FVec Ideal S1x8195 .f32) (a0 a1 a2 a3 : Nat)
    (h0 : S1x8195.Slices ![0, a0] S1x4096) (h1 : S1x8195.Slices ![0, a1] S1x4096)
    (h2 : S1x8195.Slices ![0, a2] S1x4096) (h3 : S1x8195.Slices ![0, a3] S1x4096)
    (b0 : a0 + 4096 ≤ 8195) (b1 : a1 + 4096 ≤ 8195) (b2 : a2 + 4096 ≤ 8195) (b3 : a3 + 4096 ≤ 8195)
    (c : Fin 16) (t : Fin 4096) :
    chunk (F := Ideal) w1 w2 ones xe a0 a1 a2 a3 h0 h1 h2 h3 (ix3 (0 : Fin 1) c t)
      = kLogSoftmax (klogit w1 w2 (tapsAt ones xe a0 a1 a2 a3 b0 b1 b2 b3 t)) c := by
  unfold chunk
  refine (lsmCols_apply _ c t).trans ?_
  refine congrArg (fun L => kLogSoftmax L c) (funext fun c' => ?_)
  exact logits_apply w1 w2 ones xe a0 a1 a2 a3 h0 h1 h2 h3 b0 b1 b2 b3 c' t

end Cert.KernelIdeal.Chunk

end
-- ==== Proof.Pieces.lean ====
/-
  What one grid point leaves in the output block: sixteen stores, one per row of the block and half of
  its 8192 columns, each a chunk of that row.  Read at (row, class, time) the block is the kernel's
  log-softmax of the logits of that row's window ending at that time.
-/
import proofs.«149210_g33380485825013_cont_8to1_b_1249_38_alg».proof.Proof.Gen.KernelIdeal.Frame
import proofs.«149210_g33380485825013_cont_8to1_b_1249_38_alg».proof.Proof.Chunk

noncomputable section

namespace Cert.KernelIdeal.Pieces

open Idealize.ShloMosaic Idealize.ShloMosaic.ValueIdx Idealize.ShloMosaic.TcCoe Cert.KernelIdeal Cert.WindowMlp Cert.KernelIdeal.Chunk
open Facts₀ Facts

/-! ## Every store's payload is a chunk

Each of the sixteen stored values is one and the same chain of operations applied to its row, written as a
composition of named parts cut at different places: the chunk of the row's padded vector at slice offsets 0, 1, 2, 3
(the first half of the columns) or 4096, 4097, 4098, 4099 (the second half). -/

section Generic

variable {F : FTy → Type} [FloatOps F]

/-- The chunk of the first 4096 columns. -/
def lo (w1 : FVec F S128x5 .f32) (w2 : FVec F S16x128 .f32) (row : Vec F S1x1x8192 .f32) : FVec F S1x16x4096 .f32 :=
  chunk w1 w2 onesRow (rowExt row) 0 1 2 3 slices_S1x8195_o0_0_S1x4096 slices_S1x8195_o0_1_S1x4096
    slices_S1x8195_o0_2_S1x4096 slices_S1x8195_o0_3_S1x4096

/-- The chunk of the last 4096 columns. -/
def hi (w1 : FVec F S128x5 .f32) (w2 : FVec F S16x128 .f32) (row : Vec F S1x1x8192 .f32) : FVec F S1x16x4096 .f32 :=
  chunk w1 w2 onesRow (rowExt row) 4096 4097 4098 4099 slices_S1x8195_o0_4096_S1x4096 slices_S1x8195_o0_4097_S1x4096
    slices_S1x8195_o0_4098_S1x4096 slices_S1x8195_o0_4099_S1x4096

variable (w1 : FVec F S128x5 .f32) (w2 : FVec F S16x128 .f32) (row : Vec F S1x1x8192 .f32)

theorem pay7_eq (v0 : Vec F S128x5 .f32) (v2 : Vec F S16x128 .f32) :
    Gen.k0_pay7 v0 v2 row = lo (Gen.k0_pay2 v0) (Gen.k0_pay3 v2) row := rfl

theorem pay11_eq :
    Gen.k0_pay11 w1 w2 (Gen.k0_pay5 (F := F)) (Gen.k0_pay6 row) (Gen.k0_pay8 row) (Gen.k0_pay9 row) (Gen.k0_pay10 row)
      = hi w1 w2 row := rfl

theorem pay16_eq :
    Gen.k0_pay16 (Gen.k0_pay13 w1 w2 (Gen.k0_pay4 (F := F)) (Gen.k0_pay5 (F := F)) row)
        (Gen.k0_pay14 w1 w2 (Gen.k0_pay4 (F := F)) (Gen.k0_pay5 (F := F)) row)
        (Gen.k0_pay15 w1 w2 (Gen.k0_pay4 (F := F)) (Gen.k0_pay5 (F := F)) row)
      = lo w1 w2 row := rfl

theorem pay17_eq :
    Gen.k0_pay17 w1 w2 (Gen.k0_pay5 (F := F)) (Gen.k0_pay12 (Gen.k0_pay4 (F := F)) row) = hi w1 w2 row := rfl

theorem pay19_eq :
    Gen.k0_pay19 w1 w2 (Gen.k0_pay4 (F := F)) (Gen.k0_pay5 (F := F)) row = lo w1 w2 row := rfl

theorem pay23_eq :
    Gen.k0_pay23 (Gen.k0_pay20 w1 w2 (Gen.k0_pay4 (F := F)) (Gen.k0_pay5 (F := F)) row)
        (Gen.k0_pay21 w1 w2 (Gen.k0_pay4 (F := F)) (Gen.k0_pay5 (F := F)) row)
        (Gen.k0_pay22 w1 w2 (Gen.k0_pay4 (F := F)) (Gen.k0_pay5 (F := F)) row)
      = hi w1 w2 row := rfl

theorem pay26_eq :
    Gen.k0_pay26 (Gen.k0_pay25 w1 w2 (Gen.k0_pay4 (F := F)) (Gen.k0_pay5 (F := F)) row) = lo w1 w2 row := rfl

theorem pay27_eq :
    Gen.k0_pay27 w1 w2 (Gen.k0_pay5 (F := F)) (Gen.k0_pay24 (Gen.k0_pay4 (F := F)) row) = hi w1 w2 row := rfl

theorem pay31_eq :
    Gen.k0_pay31 (Gen.k0_pay29 w1 w2 (Gen.k0_pay4 (F := F)) (Gen.k0_pay5 (F := F)) row)
        (Gen.k0_pay30 w1 w2 (Gen.k0_pay4 (F := F)) (Gen.k0_pay5 (F := F)) row)
      = lo w1 w2 row := rfl

theorem pay33_eq :
    Gen.k0_pay33 (Gen.k0_pay32 w1 w2 (Gen.k0_pay5 (F := F)) (Gen.k0_pay28 (Gen.k0_pay4 (F := F)) row)) = hi w1 w2 row := rfl

theorem pay35_eq :
    Gen.k0_pay35 w1 w2 (Gen.k0_pay4 (F := F)) (Gen.k0_pay5 (F := F)) row = lo w1 w2 row := rfl

theorem pay38_eq :
    Gen.k0_pay38 (Gen.k0_pay36 w1 w2 (Gen.k0_pay4 (F := F)) (Gen.k0_pay5 (F := F)) row)
        (Gen.k0_pay37 w1 w2 (Gen.k0_pay4 (F := F)) (Gen.k0_pay5 (F := F)) row)
      = hi w1 w2 row := rfl

theorem pay42_eq :
    Gen.k0_pay42 (Gen.k0_pay40 w1 w2 (Gen.k0_pay4 (F := F)) (Gen.k0_pay5 (F := F)) row)
        (Gen.k0_pay41 w1 w2 (Gen.k0_pay4 (F := F)) (Gen.k0_pay5 (F := F)) row)
      = lo w1 w2 row := rfl

theorem pay43_eq :
    Gen.k0_pay43 w1 w2 (Gen.k0_pay5 (F := F)) (Gen.k0_pay39 (Gen.k0_pay4 (F := F)) row) = hi w1 w2 row := rfl

theorem pay46_eq :
    Gen.k0_pay46 w2 (Gen.k0_pay45 w1 (Gen.k0_pay4 (F := F)) (Gen.k0_pay5 (F := F)) row) = lo w1 w2 row := rfl

theorem pay1_eq :
    Gen.k0_pay1 (Gen.k0_pay47 w1 w2 (Gen.k0_pay5 (F := F)) (Gen.k0_pay44 (Gen.k0_pay4 (F := F)) row))
        (Gen.k0_pay48 w1 w2 (Gen.k0_pay5 (F := F)) (Gen.k0_pay44 (Gen.k0_pay4 (F := F)) row))
      = hi w1 w2 row := rfl

end Generic

/-! ## The padded row and the row of ones at an index -/

/-- The padded row at column `n`: the padding value below 3, the row's sample `n - 3` from there on. -/
theorem rowExt_apply (row : Vec Ideal S1x1x8192 .f32) (n : Nat) (hn : n < 8195) :
    rowExt (F := Ideal) row (ix2 (0 : Fin 1) (⟨n, hn⟩ : Fin 8195))
      = if h : 3 ≤ n then row (ix3 (0 : Fin 1) (0 : Fin 1) (⟨n - 3, by omega⟩ : Fin 8192)) else padv := by
  unfold rowExt
  split
  · next h =>
    refine (concatenate_pair_apply_right (t := S1x8195) (s₁ := S1x3) (s₂ := S1x8192) (1 : Fin 2) _ _ _
      (ix2 (0 : Fin 1) (⟨n, hn⟩ : Fin 8195)) rfl rfl
      (ix2 (0 : Fin 1) (⟨n - 3, by omega⟩ : Fin 8192)) ?_ ?_).trans ?_
    · intro b hb
      match b with
      | ⟨0, _⟩ => rfl
      | ⟨1, _⟩ => exact absurd rfl hb
    · show n - 3 + 3 = n
      omega
    · exact shapeCast_1ab_ab_apply row _ (0 : Fin 1) (⟨n - 3, by omega⟩ : Fin 8192)
  · next h =>
    refine (concatenate_pair_apply_left (t := S1x8195) (s₁ := S1x3) (s₂ := S1x8192) (1 : Fin 2) _ _ _
      (ix2 (0 : Fin 1) (⟨n, hn⟩ : Fin 8195)) rfl
      (ix2 (0 : Fin 1) (⟨n, by omega⟩ : Fin 3)) ?_).trans ?_
    · intro b
      match b with
      | ⟨0, _⟩ => rfl
      | ⟨1, _⟩ => rfl
    · rfl

/-- The row of ones reads one everywhere. -/
theorem onesRow_apply (i : S1x4096.Idx) : onesRow (F := Ideal) i = onev := rfl

/-- Column `a + i + t` of the padded row is tap `i` of the row's window that ends at time `a + t`. -/
theorem rowExt_tap (row : Vec Ideal S1x1x8192 .f32) (a i : Nat) (hi : i < 4) (t : Fin 4096) (ha : a + 4096 ≤ 8192)
    (hn : a + i + t.val < 8195) :
    rowExt (F := Ideal) row (ix2 (0 : Fin 1) (⟨a + i + t.val, hn⟩ : Fin 8195))
      = tapRow (fun s => row (ix3 (0 : Fin 1) (0 : Fin 1) s)) ⟨a + t.val, by have := t.isLt; omega⟩ ⟨i, hi⟩ := by
  rw [rowExt_apply]
  unfold tapRow
  by_cases h : 3 ≤ a + i + t.val
  · rw [dif_pos h, dif_pos (show 3 ≤ a + t.val + i by omega)]
    exact congrArg (fun s : Fin 8192 => row (ix3 (0 : Fin 1) (0 : Fin 1) s)) (Fin.ext (by show a + i + t.val - 3 = a + t.val + i - 3; omega))
  · rw [dif_neg h, dif_neg (show ¬ 3 ≤ a + t.val + i by omega)]

/-- The five entries of column `t` of the chunk at offset `a`: the window of the row that ends at time `a + t`, then one. -/
theorem tapsAt_eq (row : Vec Ideal S1x1x8192 .f32) (a0 a1 a2 a3 : Nat) (e1 : a1 = a0 + 1) (e2 : a2 = a0 + 2) (e3 : a3 = a0 + 3)
    (b0 : a0 + 4096 ≤ 8195) (b1 : a1 + 4096 ≤ 8195) (b2 : a2 + 4096 ≤ 8195) (b3 : a3 + 4096 ≤ 8195)
    (ha : a0 + 4096 ≤ 8192) (t : Fin 4096) :
    tapsAt (onesRow (F := Ideal)) (rowExt (F := Ideal) row) a0 a1 a2 a3 b0 b1 b2 b3 t
      = taps5 (fun s => row (ix3 (0 : Fin 1) (0 : Fin 1) s)) ⟨a0 + t.val, by have := t.isLt; omega⟩ := by
  subst e1 e2 e3
  funext k
  unfold tapsAt taps5
  match k with
  | ⟨0, _⟩ =>
    rw [if_pos rfl, dif_pos (show (0 : Nat) < 4 by omega)]
    exact rowExt_tap row a0 0 (by omega) t ha _
  | ⟨1, _⟩ =>
    rw [if_neg (show ¬ (1 : Nat) = 0 by omega), if_pos rfl, dif_pos (show (1 : Nat) < 4 by omega)]
    exact rowExt_tap row a0 1 (by omega) t ha _
  | ⟨2, _⟩ =>
    rw [if_neg (show ¬ (2 : Nat) = 0 by omega), if_neg (show ¬ (2 : Nat) = 1 by omega), if_pos rfl, dif_pos (show (2 : Nat) < 4 by omega)]
    exact rowExt_tap row a0 2 (by omega) t ha _
  | ⟨3, _⟩ =>
    rw [if_neg (show ¬ (3 : Nat) = 0 by omega), if_neg (show ¬ (3 : Nat) = 1 by omega), if_neg (show ¬ (3 : Nat) = 2 by omega), if_pos rfl, dif_pos (show (3 : Nat) < 4 by omega)]
    exact rowExt_tap row a0 3 (by omega) t ha _
  | ⟨4, _⟩ =>
    rw [if_neg (show ¬ (4 : Nat) = 0 by omega), if_neg (show ¬ (4 : Nat) = 1 by omega), if_neg (show ¬ (4 : Nat) = 2 by omega), if_neg (show ¬ (4 : Nat) = 3 by omega), dif_neg (show ¬ (4 : Nat) < 4 by omega)]
    rfl

/-! ## One store's chunk at an index of the block -/

/-- The block after the body as one function of its index: at (row, class, time) the kernel's log-softmax of the
    logits of that row's window ending at that time. -/
def blockFn (x0 : Vec Ideal S8x1x8192 .f32) (x1 : Vec Ideal S128x5 .f32) (x2 : Vec Ideal S16x128 .f32) :
    S8x16x8192.Idx → EReal := fun y =>
  kLogSoftmax (klogit x1 x2 (taps5 (fun s => x0 (ix3 (⟨(y 0).val, (y 0).isLt⟩ : Fin 8) (0 : Fin 1) s))
    (⟨(y 2).val, (y 2).isLt⟩ : Fin 8192))) (⟨(y 1).val, (y 1).isLt⟩ : Fin 16)

theorem blockFn_ix3 (x0 : Vec Ideal S8x1x8192 .f32) (x1 : Vec Ideal S128x5 .f32) (x2 : Vec Ideal S16x128 .f32)
    (r : Fin 8) (c : Fin 16) (t : Fin 8192) :
    blockFn x0 x1 x2 (ix3 r c t) = kLogSoftmax (klogit x1 x2 (taps5 (fun s => x0 (ix3 r (0 : Fin 1) s)) t)) c := rfl

/-- Row `ρ` of the input block, loaded as a 1 by 1 by 8192 vector, reads the block's row. -/
theorem ld_row_apply (x0 : Vec Ideal S8x1x8192 .f32) (ρ : Nat) (hρ : ρ < 8)
    (inb : ∀ a, (![ρ, 0, 0] : Fin 3 → Nat) a + S1x1x8192.size a ≤ S8x1x8192.size a) (s : Fin 8192) :
    View.ld x0 (Rect.unit (s := S8x1x8192) ![ρ, 0, 0] S1x1x8192.size inb) (ix3 (0 : Fin 1) (0 : Fin 1) s)
      = x0 (ix3 (⟨ρ, hρ⟩ : Fin 8) (0 : Fin 1) s) := by
  show x0 _ = x0 _
  refine congrArg x0 (funext fun a => Fin.ext ?_)
  match a with
  | ⟨0, _⟩ => show ρ + 1 * 0 = ρ; omega
  | ⟨1, _⟩ => show 0 + 1 * 0 = 0; omega
  | ⟨2, _⟩ => show 0 + 1 * s.val = s.val; omega

/-- The chunk stored at row `ρ`, columns `a0` to `a0 + 4095`, of the block is the block's function there. -/
theorem piece_apply (x0 : Vec Ideal S8x1x8192 .f32) (x1 : Vec Ideal S128x5 .f32) (x2 : Vec Ideal S16x128 .f32)
    (ρ : Nat) (hρ : ρ < 8) (a0 a1 a2 a3 : Nat) (e1 : a1 = a0 + 1) (e2 : a2 = a0 + 2) (e3 : a3 = a0 + 3) (ha : a0 + 4096 ≤ 8192)
    (h0 : S1x8195.Slices ![0, a0] S1x4096) (h1 : S1x8195.Slices ![0, a1] S1x4096)
    (h2 : S1x8195.Slices ![0, a2] S1x4096) (h3 : S1x8195.Slices ![0, a3] S1x4096)
    (inbL : ∀ a, (![ρ, 0, 0] : Fin 3 → Nat) a + S1x1x8192.size a ≤ S8x1x8192.size a)
    (inbS : ∀ a, (![ρ, 0, a0] : Fin 3 → Nat) a + S1x16x4096.size a ≤ S8x16x8192.size a)
    (x : S1x16x4096.Idx) :
    chunk (F := Ideal) x1 x2 onesRow (rowExt (View.ld x0 (Rect.unit (s := S8x1x8192) ![ρ, 0, 0] S1x1x8192.size inbL)))
        a0 a1 a2 a3 h0 h1 h2 h3 x
      = blockFn x0 x1 x2 ((Rect.unit (s := S8x16x8192) ![ρ, 0, a0] S1x16x4096.size inbS).emb x) := by
  obtain ⟨u, c, t, rfl⟩ : ∃ (u : Fin 1) (c : Fin 16) (t : Fin 4096), x = ix3 u c t := ⟨x 0, x 1, x 2, eq_ix3 x⟩
  obtain rfl : u = 0 := Subsingleton.elim _ _
  rw [chunk_apply x1 x2 onesRow _ a0 a1 a2 a3 h0 h1 h2 h3 (by omega) (by omega) (by omega) (by omega) c t,
    tapsAt_eq _ a0 a1 a2 a3 e1 e2 e3 _ _ _ _ ha t]
  unfold blockFn
  have hr : (⟨(((Rect.unit (s := S8x16x8192) ![ρ, 0, a0] S1x16x4096.size inbS).emb (ix3 (0 : Fin 1) c t)) 0).val,
      (((Rect.unit (s := S8x16x8192) ![ρ, 0, a0] S1x16x4096.size inbS).emb (ix3 (0 : Fin 1) c t)) 0).isLt⟩ : Fin 8) = ⟨ρ, hρ⟩ :=
    Fin.ext (by show ρ + 1 * 0 = ρ; omega)
  have hc : (⟨(((Rect.unit (s := S8x16x8192) ![ρ, 0, a0] S1x16x4096.size inbS).emb (ix3 (0 : Fin 1) c t)) 1).val,
      (((Rect.unit (s := S8x16x8192) ![ρ, 0, a0] S1x16x4096.size inbS).emb (ix3 (0 : Fin 1) c t)) 1).isLt⟩ : Fin 16) = c :=
    Fin.ext (by show 0 + 1 * c.val = c.val; omega)
  have ht : (⟨(((Rect.unit (s := S8x16x8192) ![ρ, 0, a0] S1x16x4096.size inbS).emb (ix3 (0 : Fin 1) c t)) 2).val,
      (((Rect.unit (s := S8x16x8192) ![ρ, 0, a0] S1x16x4096.size inbS).emb (ix3 (0 : Fin 1) c t)) 2).isLt⟩ : Fin 8192)
        = ⟨a0 + t.val, by have := t.isLt; omega⟩ :=
    Fin.ext (by show a0 + 1 * t.val = a0 + t.val; omega)
  rw [hr, hc, ht]
  congr 3
  funext s
  exact ld_row_apply x0 ρ hρ inbL s

/-! ## The block is its sixteen chunks, and so one function of its index -/

/-- The first layer's weights pass through the body's identity cast. -/
theorem w1_eq (x1 : Vec Ideal S128x5 .f32) : Gen.k0_pay2 (F := Ideal) (View.ld x1 Gen.r0_0) = x1 := by
  unfold Gen.k0_pay2
  rw [shapeCast_self]
  exact View.ld_unit_zero (funext fun a => match a with | ⟨0, _⟩ => rfl | ⟨1, _⟩ => rfl) _ x1

/-- So do the second layer's. -/
theorem w2_eq (x2 : Vec Ideal S16x128 .f32) : Gen.k0_pay3 (F := Ideal) (View.ld x2 Gen.r0_1) = x2 := by
  unfold Gen.k0_pay3
  rw [shapeCast_self]
  exact View.ld_unit_zero (funext fun a => match a with | ⟨0, _⟩ => rfl | ⟨1, _⟩ => rfl) _ x2

/-- The sixteen stores, last first, each with its chunk. -/
def pieces (x0 : Vec Ideal S8x1x8192 .f32) (x1 : Vec Ideal S128x5 .f32) (x2 : Vec Ideal S16x128 .f32) :
    List (View.Piece (Elt Ideal) S8x16x8192 .f32) :=
  [⟨Gen.r0_25, hi (Gen.k0_pay2 (View.ld x1 Gen.r0_0)) (Gen.k0_pay3 (View.ld x2 Gen.r0_1)) (View.ld x0 Gen.r0_23)⟩,
    ⟨Gen.r0_24, lo (Gen.k0_pay2 (View.ld x1 Gen.r0_0)) (Gen.k0_pay3 (View.ld x2 Gen.r0_1)) (View.ld x0 Gen.r0_23)⟩,
    ⟨Gen.r0_22, hi (Gen.k0_pay2 (View.ld x1 Gen.r0_0)) (Gen.k0_pay3 (View.ld x2 Gen.r0_1)) (View.ld x0 Gen.r0_20)⟩,
    ⟨Gen.r0_21, lo (Gen.k0_pay2 (View.ld x1 Gen.r0_0)) (Gen.k0_pay3 (View.ld x2 Gen.r0_1)) (View.ld x0 Gen.r0_20)⟩,
    ⟨Gen.r0_19, hi (Gen.k0_pay2 (View.ld x1 Gen.r0_0)) (Gen.k0_pay3 (View.ld x2 Gen.r0_1)) (View.ld x0 Gen.r0_17)⟩,
    ⟨Gen.r0_18, lo (Gen.k0_pay2 (View.ld x1 Gen.r0_0)) (Gen.k0_pay3 (View.ld x2 Gen.r0_1)) (View.ld x0 Gen.r0_17)⟩,
    ⟨Gen.r0_16, hi (Gen.k0_pay2 (View.ld x1 Gen.r0_0)) (Gen.k0_pay3 (View.ld x2 Gen.r0_1)) (View.ld x0 Gen.r0_14)⟩,
    ⟨Gen.r0_15, lo (Gen.k0_pay2 (View.ld x1 Gen.r0_0)) (Gen.k0_pay3 (View.ld x2 Gen.r0_1)) (View.ld x0 Gen.r0_14)⟩,
    ⟨Gen.r0_13, hi (Gen.k0_pay2 (View.ld x1 Gen.r0_0)) (Gen.k0_pay3 (View.ld x2 Gen.r0_1)) (View.ld x0 Gen.r0_11)⟩,
    ⟨Gen.r0_12, lo (Gen.k0_pay2 (View.ld x1 Gen.r0_0)) (Gen.k0_pay3 (View.ld x2 Gen.r0_1)) (View.ld x0 Gen.r0_11)⟩,
    ⟨Gen.r0_10, hi (Gen.k0_pay2 (View.ld x1 Gen.r0_0)) (Gen.k0_pay3 (View.ld x2 Gen.r0_1)) (View.ld x0 Gen.r0_8)⟩,
    ⟨Gen.r0_9, lo (Gen.k0_pay2 (View.ld x1 Gen.r0_0)) (Gen.k0_pay3 (View.ld x2 Gen.r0_1)) (View.ld x0 Gen.r0_8)⟩,
    ⟨Gen.r0_7, hi (Gen.k0_pay2 (View.ld x1 Gen.r0_0)) (Gen.k0_pay3 (View.ld x2 Gen.r0_1)) (View.ld x0 Gen.r0_5)⟩,
    ⟨Gen.r0_6, lo (Gen.k0_pay2 (View.ld x1 Gen.r0_0)) (Gen.k0_pay3 (View.ld x2 Gen.r0_1)) (View.ld x0 Gen.r0_5)⟩,
    ⟨Gen.r0_4, hi (Gen.k0_pay2 (View.ld x1 Gen.r0_0)) (Gen.k0_pay3 (View.ld x2 Gen.r0_1)) (View.ld x0 Gen.r0_2)⟩,
    ⟨Gen.r0_3, lo (Gen.k0_pay2 (View.ld x1 Gen.r0_0)) (Gen.k0_pay3 (View.ld x2 Gen.r0_1)) (View.ld x0 Gen.r0_2)⟩]

/-- What the body leaves in the block is the overlay of those sixteen chunks. -/
theorem out0_3_eq (x0 : Vec Ideal S8x1x8192 .f32) (x1 : Vec Ideal S128x5 .f32) (x2 : Vec Ideal S16x128 .f32) :
    Gen.out0_3 (F := Ideal) x0 x1 x2 = View.canon (pieces x0 x1 x2) := rfl

/-- Every one of the sixteen chunks is the block's function read through the store's rectangle. -/
theorem pieces_apply (x0 : Vec Ideal S8x1x8192 .f32) (x1 : Vec Ideal S128x5 .f32) (x2 : Vec Ideal S16x128 .f32) :
    ∀ p ∈ pieces x0 x1 x2, ∀ x : p.1.shape.Idx,
      p.2 x = blockFn x0 (Gen.k0_pay2 (View.ld x1 Gen.r0_0)) (Gen.k0_pay3 (View.ld x2 Gen.r0_1)) (p.1.emb x) := by
  intro p hp x
  unfold pieces at hp
  simp only [List.mem_cons, List.mem_nil_iff, or_false] at hp
  rcases hp with rfl | rfl | rfl | rfl | rfl | rfl | rfl | rfl | rfl | rfl | rfl | rfl | rfl | rfl | rfl | rfl
  · exact piece_apply x0 _ _ 7 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_7_0_0 inb_S8x16x8192_S1x16x4096_7_0_4096 x
  · exact piece_apply x0 _ _ 7 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_7_0_0 inb_S8x16x8192_S1x16x4096_7_0_0 x
  · exact piece_apply x0 _ _ 6 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_6_0_0 inb_S8x16x8192_S1x16x4096_6_0_4096 x
  · exact piece_apply x0 _ _ 6 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_6_0_0 inb_S8x16x8192_S1x16x4096_6_0_0 x
  · exact piece_apply x0 _ _ 5 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_5_0_0 inb_S8x16x8192_S1x16x4096_5_0_4096 x
  · exact piece_apply x0 _ _ 5 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_5_0_0 inb_S8x16x8192_S1x16x4096_5_0_0 x
  · exact piece_apply x0 _ _ 4 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_4_0_0 inb_S8x16x8192_S1x16x4096_4_0_4096 x
  · exact piece_apply x0 _ _ 4 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_4_0_0 inb_S8x16x8192_S1x16x4096_4_0_0 x
  · exact piece_apply x0 _ _ 3 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_3_0_0 inb_S8x16x8192_S1x16x4096_3_0_4096 x
  · exact piece_apply x0 _ _ 3 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_3_0_0 inb_S8x16x8192_S1x16x4096_3_0_0 x
  · exact piece_apply x0 _ _ 2 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_2_0_0 inb_S8x16x8192_S1x16x4096_2_0_4096 x
  · exact piece_apply x0 _ _ 2 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_2_0_0 inb_S8x16x8192_S1x16x4096_2_0_0 x
  · exact piece_apply x0 _ _ 1 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_1_0_0 inb_S8x16x8192_S1x16x4096_1_0_4096 x
  · exact piece_apply x0 _ _ 1 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_1_0_0 inb_S8x16x8192_S1x16x4096_1_0_0 x
  · exact piece_apply x0 _ _ 0 (by omega) 4096 4097 4098 4099 rfl rfl rfl (by omega) slices_S1x8195_o0_4096_S1x4096 slices_S1x8195_o0_4097_S1x4096 slices_S1x8195_o0_4098_S1x4096 slices_S1x8195_o0_4099_S1x4096
      inb_S8x1x8192_S1x1x8192_0_0_0 inb_S8x16x8192_S1x16x4096_0_0_4096 x
  · exact piece_apply x0 _ _ 0 (by omega) 0 1 2 3 rfl rfl rfl (by omega) slices_S1x8195_o0_0_S1x4096 slices_S1x8195_o0_1_S1x4096 slices_S1x8195_o0_2_S1x4096 slices_S1x8195_o0_3_S1x4096
      inb_S8x1x8192_S1x1x8192_0_0_0 inb_S8x16x8192_S1x16x4096_0_0_0 x

/-- The output block after the body, at row `r` of the block, class `c`, time `t`. -/
theorem out_apply (x0 : Vec Ideal S8x1x8192 .f32) (x1 : Vec Ideal S128x5 .f32) (x2 : Vec Ideal S16x128 .f32)
    (r : Fin 8) (c : Fin 16) (t : Fin 8192) :
    Gen.out0_3 (F := Ideal) x0 x1 x2 (ix3 r c t)
      = kLogSoftmax (klogit x1 x2 (taps5 (fun s => x0 (ix3 r (0 : Fin 1) s)) t)) c := by
  rw [out0_3_eq, View.canon_apply_of_pieces _ (pieces x0 x1 x2) (pieces_apply x0 x1 x2) (ix3 r c t)
    (Gen.cover0_3 _ _ _ _ _ _ _ _ _ _ _ _ _ _ _ _ (ix3 r c t)), blockFn_ix3, w1_eq, w2_eq]

end Cert.KernelIdeal.Pieces

end
-- ==== Proof.LibScatterSet.lean ====
/-
  Reading `stablehlo.scatter` at an index when its body returns the update (jax's `x.at[…].set(v)`).

  The host scatter is a left fold over the update indices in row-major order: the step for update index
  `j` overwrites the element at the operand index where `j` lands, and does nothing when `j` lands outside
  the operand.  Read at one operand index `i`:
    * if update index `j` lands at `i` and no other update index does, the result at `i` is the update at `j`
      (`scatter_set_hit`);
    * if no update index lands at `i`, the result at `i` is the operand's element (`scatter_set_miss`).
  And `j` lands at `i` exactly when, on every operand axis, the window's start plus `j`'s window coordinate
  is `i`'s coordinate (`resultIdx?_eq_some_iff`), which turns "where does `j` land" into arithmetic on the
  scatter's literal dimension numbers.  Generic in the shapes, the index width and the element type.
-/
import Idealize.ShloMosaic.PureOps

noncomputable section

namespace Cert.ScatterSet

open Idealize.ShloMosaic

section ScatterSet

/-- A left fold whose step writes `v n` at the place `g n` (and does nothing when there is none), read at `i`:
    the value of the one `n` in the list placed at `i`, when no two are placed there; the start's element when none is. -/
private theorem foldl_place {ι β α : Type} [DecidableEq β] (g : ι → Option β) (v : ι → α)
    (step : (β → α) → ι → (β → α))
    (hsome : ∀ r n i, g n = some i → step r n = fun i' => if i' = i then v n else r i')
    (hnone : ∀ r n, g n = none → step r n = r) (x : β → α) (i : β) (l : List ι) :
    ((∀ n n', g n = some i → g n' = some i → n = n') → ∀ n ∈ l, g n = some i → l.foldl step x i = v n) ∧
    ((∀ n ∈ l, g n ≠ some i) → l.foldl step x i = x i) := by
  induction l using List.reverseRecOn with
  | nil => exact ⟨fun _ n hn => absurd hn List.not_mem_nil, fun _ => rfl⟩
  | append_singleton l n ih =>
    rw [List.foldl_append, List.foldl_cons, List.foldl_nil]
    constructor
    · intro hinj n0 hn0 hg0
      cases hgn : g n with
      | none =>
        rw [hnone _ _ hgn]
        rcases List.mem_append.1 hn0 with h | h
        · exact ih.1 hinj n0 h hg0
        · rw [List.mem_singleton.1 h, hgn] at hg0; cases hg0
      | some i' =>
        rw [hsome _ _ _ hgn]
        show (if i = i' then v n else l.foldl step x i) = v n0
        by_cases hi : i = i'
        · subst hi; rw [if_pos rfl]; exact congrArg v (hinj n n0 hgn hg0)
        · rw [if_neg hi]
          rcases List.mem_append.1 hn0 with h | h
          · exact ih.1 hinj n0 h hg0
          · rw [List.mem_singleton.1 h, hgn] at hg0; exact absurd (Option.some.inj hg0).symm hi
    · intro hmiss
      have hl : ∀ n' ∈ l, g n' ≠ some i := fun n' h => hmiss n' (List.mem_append_left _ h)
      have hn : g n ≠ some i := hmiss n (List.mem_append_right _ (List.mem_singleton.2 rfl))
      cases hgn : g n with
      | none => rw [hnone _ _ hgn]; exact ih.2 hl
      | some i' =>
        rw [hsome _ _ _ hgn]
        show (if i = i' then v n else l.foldl step x i) = x i
        have hne : i ≠ i' := fun h => hn (by rw [hgn, h])
        rw [if_neg hne]; exact ih.2 hl

variable {s si u : Shape} {α : Type} {w : Nat}

/-- The fold of `Host.scatter` with a body that returns the update, read at `i`. -/
private theorem scatter_set_fold (d : ScatterDims s si u) (x : s.Idx → α) (idx : IVec si w) (upd : u.Idx → α) (i : s.Idx) :
    ((∀ j j', d.resultIdx? j idx = some i → d.resultIdx? j' idx = some i → j = j') →
        ∀ j, d.resultIdx? j idx = some i → Host.scatter d (fun _ b => b) x idx upd i = upd j) ∧
    ((∀ j, d.resultIdx? j idx ≠ some i) → Host.scatter d (fun _ b => b) x idx upd i = x i) := by
  unfold Host.scatter
  have key := foldl_place (fun n : Fin u.numel => d.resultIdx? (u.rowMajor.symm n) idx) (fun n => upd (u.rowMajor.symm n))
    (fun r n =>
      match d.resultIdx? (u.rowMajor.symm n) idx with
      | some i => fun i' => if i' = i then (fun _ b => b) (r i) (upd (u.rowMajor.symm n)) else r i'
      | none => r)
    (fun r n i h => by simp only [h]) (fun r n h => by simp only [h]) x i (List.finRange u.numel)
  constructor
  · intro hinj j hj
    have hj' : d.resultIdx? (u.rowMajor.symm (u.rowMajor j)) idx = some i := by rw [Equiv.symm_apply_apply]; exact hj
    have := key.1 (fun n n' h h' => u.rowMajor.symm.injective (hinj _ _ h h')) (u.rowMajor j) (List.mem_finRange _) hj'
    rw [Equiv.symm_apply_apply] at this
    exact this
  · intro hmiss
    exact key.2 (fun n _ => hmiss _)

/-- A scatter that writes, read at an index `i` where update index `j` lands and no other does: the update at `j`. -/
theorem scatter_set_hit (d : ScatterDims s si u) (x : s.Idx → α) (idx : IVec si w) (upd : u.Idx → α) (i : s.Idx)
    (hinj : ∀ j j', d.resultIdx? j idx = some i → d.resultIdx? j' idx = some i → j = j')
    (j : u.Idx) (hj : d.resultIdx? j idx = some i) : Host.scatter d (fun _ b => b) x idx upd i = upd j :=
  (scatter_set_fold d x idx upd i).1 hinj j hj

/-- A scatter that writes, read at an index where no update lands: the operand's element. -/
theorem scatter_set_miss (d : ScatterDims s si u) (x : s.Idx → α) (idx : IVec si w) (upd : u.Idx → α) (i : s.Idx)
    (hmiss : ∀ j, d.resultIdx? j idx ≠ some i) : Host.scatter d (fun _ b => b) x idx upd i = x i :=
  (scatter_set_fold d x idx upd i).2 hmiss

/-- Update index `j` lands at `i` exactly when on every operand axis the window's start plus `j`'s window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have h2 := congrArg Fin.val this
      simp only at h2
      have := (hb a).1
      omega
    · cases h
  · intro h
    rw [dif_pos (fun a => by rw [h a]; exact ⟨Int.natCast_nonneg _, by exact_mod_cast (i a).isLt⟩)]
    congr 1
    funext a
    apply Fin.ext
    show (d.start j idx a + (d.window j a : Int)).toNat = (i a).val
    rw [h a]; exact Int.toNat_natCast _

end ScatterSet

end Cert.ScatterSet

end
-- ==== Proof.HostPre.lean ====
/-
  What the region finds in its three input arrays: the host operations before it build the padded
  first-layer weights (a zero array, then the transposed weights written into rows 0..99 by columns 0..3,
  the bias into column 4 of those rows, and a one at (127, 4)), the padded second-layer weights (a zero
  array, the transposed weights into columns 0..99, the bias into column 127), and the samples with a unit
  axis inserted.
-/
import proofs.«149210_g33380485825013_cont_8to1_b_1249_38_alg».proof.Proof.Gen.KernelIdeal.Frame
import proofs.«149210_g33380485825013_cont_8to1_b_1249_38_alg».proof.Proof.Spec
import proofs.«149210_g33380485825013_cont_8to1_b_1249_38_alg».proof.Proof.LibScatterSet
import Idealize.ShloMosaic.Lib.Pipeline.Value
import Idealize.ShloMosaic.Lib.StableHlo.Run

noncomputable section

namespace Cert.KernelIdeal.HostPre

open Idealize.ShloMosaic Idealize.ShloMosaic.ValueIdx Idealize.ShloMosaic.TcCoe Idealize.SL.Sem Cert.KernelIdeal Cert.WindowMlp
open Cert.ScatterSet

variable (m : (ℓ : Loc nD τ sig) → Buf (Elt Ideal) ℓ)

/-! ## The index arrays: constant words, one or two laid end to end -/

/-- A pair of constant one-element arrays laid end to end reads the first word at position 0 and the second at 1. -/
private theorem pair_apply (A B : IVec S1 32) (a b : BitVec 32) (hA : ∀ i, A i = a) (hB : ∀ i, B i = b)
    (hc : Shape.Concatenates [S1, S1] S2 0) (k : S2.Idx) :
    concatenate S2 0 [⟨S1, A⟩, ⟨S1, B⟩] hc k = if (k 0).val = 0 then a else b := by
  have hk : (k 0).val < 2 := (k 0).isLt
  by_cases h : (k 0).val = 0
  · rw [if_pos h]
    exact (concatenate_pair_apply_left 0 A B hc k rfl (ix1 (0 : Fin 1)) (fun b => by
      match b with
      | ⟨0, _⟩ => exact h.symm)).trans (hA _)
  · rw [if_neg h]
    refine (concatenate_pair_apply_right 0 A B hc k rfl rfl (ix1 (0 : Fin 1)) (fun b hb => ?_) ?_).trans (hB _)
    · match b with
      | ⟨0, _⟩ => exact absurd rfl hb
    · show 0 + 1 = (k 0).val
      omega

/-- The index array of one word. -/
private def oneIdx (a : BitVec 32) : IVec S1 32 := broadcastInDim S1 ![] Gen.bcast_S_S1 (constantI S_ 32 a)

/-- The index array of two words. -/
private def pairIdx (a b : BitVec 32) : IVec S2 32 :=
  concatenate S2 0 [⟨S1, oneIdx a⟩, ⟨S1, oneIdx b⟩] Gen.concatenates_S1_S1_S2_d0

private theorem oneIdx_apply (a : BitVec 32) (k : S1.Idx) : oneIdx a k = a := rfl

private theorem pairIdx_apply (a b : BitVec 32) (k : S2.Idx) : pairIdx a b k = if (k 0).val = 0 then a else b :=
  pair_apply _ _ a b (oneIdx_apply a) (oneIdx_apply b) _ k

/-! ## Where each scatter's updates land -/

/-- On a two-axis operand an update lands at `i` exactly when start plus window coordinate is `i`'s coordinate on both axes. -/
private theorem land_two {n0 n1 : Nat} {si u : Shape} {w : Nat} (d : ScatterDims ⟨2, ![n0, n1]⟩ si u) (j : u.Idx)
    (idx : IVec si w) (i : (⟨2, ![n0, n1]⟩ : Shape).Idx) (s0 s1 : Int) (w0 w1 : Nat)
    (hs0 : d.start j idx 0 = s0) (hs1 : d.start j idx 1 = s1) (hw0 : d.window j 0 = w0) (hw1 : d.window j 1 = w1) :
    d.resultIdx? j idx = some i ↔ s0 + (w0 : Int) = ((i 0).val : Int) ∧ s1 + (w1 : Int) = ((i 1).val : Int) := by
  rw [resultIdx?_eq_some_iff]
  constructor
  · intro h
    have h0 := h 0
    have h1 := h 1
    rw [hs0, hw0] at h0
    rw [hs1, hw1] at h1
    exact ⟨h0, h1⟩
  · intro h a
    match a with
    | ⟨0, _⟩ => show d.start j idx 0 + (d.window j 0 : Int) = _; rw [hs0, hw0]; exact h.1
    | ⟨1, _⟩ => show d.start j idx 1 + (d.window j 1 : Int) = _; rw [hs1, hw1]; exact h.2

/-- The transposed weights go to rows and columns of their own coordinates. -/
private theorem land1 (idx : IVec S2 32) (hidx : ∀ k : S2.Idx, idx k = if (k 0).val = 0 then 0#32 else 0#32)
    (j : S100x4.Idx) (i : S128x5.Idx) :
    scatter_S128x5_S2_S100x4_01_n_01_0.resultIdx? j idx = some i ↔ (i 0).val = (j 0).val ∧ (i 1).val = (j 1).val := by
  rw [land_two scatter_S128x5_S2_S100x4_01_n_01_0 j idx i 0 0 (j 0).val (j 1).val
    (by show (idx _).toInt = 0; rw [hidx]; rfl) (by show (idx _).toInt = 0; rw [hidx]; rfl) rfl rfl]
  constructor <;> intro h <;> constructor <;> omega

/-- The first bias goes to column 4 of the row of its coordinate. -/
private theorem land2 (idx : IVec S2 32) (hidx : ∀ k : S2.Idx, idx k = if (k 0).val = 0 then 0#32 else 4#32)
    (j : S100.Idx) (i : S128x5.Idx) :
    scatter_S128x5_S2_S100_0_1_01_0.resultIdx? j idx = some i ↔ (i 0).val = (j 0).val ∧ (i 1).val = 4 := by
  rw [land_two scatter_S128x5_S2_S100_0_1_01_0 j idx i 0 4 (j 0).val 0
    (by show (idx _).toInt = 0; rw [hidx]; rfl) (by show (idx _).toInt = 4; rw [hidx]; rfl) rfl rfl]
  constructor <;> intro h <;> constructor <;> omega

/-- The one goes to row 127, column 4. -/
private theorem land3 (idx : IVec S2 32) (hidx : ∀ k : S2.Idx, idx k = if (k 0).val = 0 then 127#32 else 4#32)
    (j : S_.Idx) (i : S128x5.Idx) :
    scatter_S128x5_S2_S__n_01_01_0.resultIdx? j idx = some i ↔ (i 0).val = 127 ∧ (i 1).val = 4 := by
  rw [land_two scatter_S128x5_S2_S__n_01_01_0 j idx i 127 4 0 0
    (by show (idx _).toInt = 127; rw [hidx]; rfl) (by show (idx _).toInt = 4; rw [hidx]; rfl) rfl rfl]
  constructor <;> intro h <;> constructor <;> omega

/-- The transposed second-layer weights go to rows and columns of their own coordinates. -/
private theorem land4 (idx : IVec S1 32) (hidx : ∀ k : S1.Idx, idx k = 0#32)
    (j : S16x100.Idx) (i : S16x128.Idx) :
    scatter_S16x128_S1_S16x100_01_n_1_0.resultIdx? j idx = some i ↔ (i 0).val = (j 0).val ∧ (i 1).val = (j 1).val := by
  rw [land_two scatter_S16x128_S1_S16x100_01_n_1_0 j idx i 0 0 (j 0).val (j 1).val
    rfl (by show (idx _).toInt = 0; rw [hidx]; rfl) rfl rfl]
  constructor <;> intro h <;> constructor <;> omega

/-- The second bias goes to column 127 of the row of its coordinate. -/
private theorem land5 (idx : IVec S1 32) (hidx : ∀ k : S1.Idx, idx k = 127#32)
    (j : S16.Idx) (i : S16x128.Idx) :
    scatter_S16x128_S1_S16_0_1_1_0.resultIdx? j idx = some i ↔ (i 0).val = (j 0).val ∧ (i 1).val = 127 := by
  rw [land_two scatter_S16x128_S1_S16_0_1_1_0 j idx i 0 127 (j 0).val 0
    rfl (by show (idx _).toInt = 127; rw [hidx]; rfl) rfl rfl]
  constructor <;> intro h <;> constructor <;> omega

/-! ## Each scatter read at an index -/

section Reads
variable {α : Type}

/-- The first scatter into the padded first-layer array: rows below 100 and columns below 4 hold the update. -/
private theorem read1 (Z : S128x5.Idx → α) (T : S100x4.Idx → α) (idx : IVec S2 32)
    (hidx : ∀ k : S2.Idx, idx k = if (k 0).val = 0 then 0#32 else 0#32) (p : Fin 128) (q : Fin 5) :
    Host.scatter scatter_S128x5_S2_S100x4_01_n_01_0 (fun _ b => b) Z idx T (ix2 p q)
      = if h : p.val < 100 ∧ q.val < 4 then T (ix2 ⟨p.val, h.1⟩ ⟨q.val, h.2⟩) else Z (ix2 p q) := by
  by_cases h : p.val < 100 ∧ q.val < 4
  · rw [dif_pos h]
    refine scatter_set_hit _ Z idx T (ix2 p q) (fun j j' hj hj' => ?_) (ix2 ⟨p.val, h.1⟩ ⟨q.val, h.2⟩)
      ((land1 idx hidx _ _).2 ⟨rfl, rfl⟩)
    rw [land1 idx hidx] at hj hj'
    have a0 : p.val = (j 0).val := hj.1
    have a1 : q.val = (j 1).val := hj.2
    have b0 : p.val = (j' 0).val := hj'.1
    have b1 : q.val = (j' 1).val := hj'.2
    funext a
    match a with
    | ⟨0, _⟩ => exact Fin.ext (a0.symm.trans b0)
    | ⟨1, _⟩ => exact Fin.ext (a1.symm.trans b1)
  · rw [dif_neg h]
    refine scatter_set_miss _ Z idx T (ix2 p q) (fun j hj => h ?_)
    rw [land1 idx hidx] at hj
    have a0 : p.val = (j 0).val := hj.1
    have a1 : q.val = (j 1).val := hj.2
    have c0 : (j 0).val < 100 := (j 0).isLt
    have c1 : (j 1).val < 4 := (j 1).isLt
    exact ⟨by omega, by omega⟩

/-- The second: column 4 of the rows below 100 holds the update. -/
private theorem read2 (X : S128x5.Idx → α) (B : S100.Idx → α) (idx : IVec S2 32)
    (hidx : ∀ k : S2.Idx, idx k = if (k 0).val = 0 then 0#32 else 4#32) (p : Fin 128) (q : Fin 5) :
    Host.scatter scatter_S128x5_S2_S100_0_1_01_0 (fun _ b => b) X idx B (ix2 p q)
      = if h : p.val < 100 ∧ q.val = 4 then B (ix1 ⟨p.val, h.1⟩) else X (ix2 p q) := by
  by_cases h : p.val < 100 ∧ q.val = 4
  · rw [dif_pos h]
    refine scatter_set_hit _ X idx B (ix2 p q) (fun j j' hj hj' => ?_) (ix1 ⟨p.val, h.1⟩)
      ((land2 idx hidx _ _).2 ⟨rfl, h.2⟩)
    rw [land2 idx hidx] at hj hj'
    have a0 : p.val = (j 0).val := hj.1
    have b0 : p.val = (j' 0).val := hj'.1
    funext a
    match a with
    | ⟨0, _⟩ => exact Fin.ext (a0.symm.trans b0)
  · rw [dif_neg h]
    refine scatter_set_miss _ X idx B (ix2 p q) (fun j hj => h ?_)
    rw [land2 idx hidx] at hj
    have a0 : p.val = (j 0).val := hj.1
    have a1 : q.val = 4 := hj.2
    have c0 : (j 0).val < 100 := (j 0).isLt
    exact ⟨by omega, a1⟩

/-- The third: the one element at row 127, column 4 holds the update. -/
private theorem read3 (X : S128x5.Idx → α) (O : S_.Idx → α) (idx : IVec S2 32)
    (hidx : ∀ k : S2.Idx, idx k = if (k 0).val = 0 then 127#32 else 4#32) (p : Fin 128) (q : Fin 5) :
    Host.scatter scatter_S128x5_S2_S__n_01_01_0 (fun _ b => b) X idx O (ix2 p q)
      = if p.val = 127 ∧ q.val = 4 then O ix0 else X (ix2 p q) := by
  by_cases h : p.val = 127 ∧ q.val = 4
  · rw [if_pos h]
    refine scatter_set_hit _ X idx O (ix2 p q) (fun j j' hj hj' => ?_) ix0 ((land3 idx hidx _ _).2 h)
    funext a
    exact a.elim0
  · rw [if_neg h]
    refine scatter_set_miss _ X idx O (ix2 p q) (fun j hj => h ?_)
    rw [land3 idx hidx] at hj
    exact hj

/-- The first scatter into the padded second-layer array: columns below 100 hold the update. -/
private theorem read4 (Z : S16x128.Idx → α) (T : S16x100.Idx → α) (idx : IVec S1 32)
    (hidx : ∀ k : S1.Idx, idx k = 0#32) (p : Fin 16) (q : Fin 128) :
    Host.scatter scatter_S16x128_S1_S16x100_01_n_1_0 (fun _ b => b) Z idx T (ix2 p q)
      = if h : q.val < 100 then T (ix2 p ⟨q.val, h⟩) else Z (ix2 p q) := by
  by_cases h : q.val < 100
  · rw [dif_pos h]
    refine scatter_set_hit _ Z idx T (ix2 p q) (fun j j' hj hj' => ?_) (ix2 p ⟨q.val, h⟩)
      ((land4 idx hidx _ _).2 ⟨rfl, rfl⟩)
    rw [land4 idx hidx] at hj hj'
    have a0 : p.val = (j 0).val := hj.1
    have a1 : q.val = (j 1).val := hj.2
    have b0 : p.val = (j' 0).val := hj'.1
    have b1 : q.val = (j' 1).val := hj'.2
    funext a
    match a with
    | ⟨0, _⟩ => exact Fin.ext (a0.symm.trans b0)
    | ⟨1, _⟩ => exact Fin.ext (a1.symm.trans b1)
  · rw [dif_neg h]
    refine scatter_set_miss _ Z idx T (ix2 p q) (fun j hj => h ?_)
    rw [land4 idx hidx] at hj
    have a1 : q.val = (j 1).val := hj.2
    have c1 : (j 1).val < 100 := (j 1).isLt
    omega

/-- The second: column 127 holds the update. -/
private theorem read5 (X : S16x128.Idx → α) (B : S16.Idx → α) (idx : IVec S1 32)
    (hidx : ∀ k : S1.Idx, idx k = 127#32) (p : Fin 16) (q : Fin 128) :
    Host.scatter scatter_S16x128_S1_S16_0_1_1_0 (fun _ b => b) X idx B (ix2 p q)
      = if q.val = 127 then B (ix1 p) else X (ix2 p q) := by
  by_cases h : q.val = 127
  · rw [if_pos h]
    refine scatter_set_hit _ X idx B (ix2 p q) (fun j j' hj hj' => ?_) (ix1 p) ((land5 idx hidx _ _).2 ⟨rfl, h⟩)
    rw [land5 idx hidx] at hj hj'
    have a0 : p.val = (j 0).val := hj.1
    have b0 : p.val = (j' 0).val := hj'.1
    funext a
    match a with
    | ⟨0, _⟩ => exact Fin.ext (a0.symm.trans b0)
  · rw [if_neg h]
    refine scatter_set_miss _ X idx B (ix2 p q) (fun j hj => h ?_)
    rw [land5 idx hidx] at hj
    exact hj.2

end Reads

/-! ## The three arrays as the host operations' composed terms -/

section Composed
attribute [local irreducible] Host.scatter in
/-- The first-layer array: a zero array, then three scatters (the transposed weights, the bias, the one). -/
private theorem e_w1 (c : Dev nD) : (Gen.V m c main_call0_v13 : S128x5.Idx → EReal)
      = Host.scatter scatter_S128x5_S2_S__n_01_01_0 (fun _ b => b)
          (Host.scatter scatter_S128x5_S2_S100_0_1_01_0 (fun _ b => b)
            (Host.scatter scatter_S128x5_S2_S100x4_01_n_01_0 (fun _ b => b)
              (broadcastInDim S128x5 ![] Gen.bcast_S_S128x5 (constant (F := Ideal) S_ .f32 0x00000000#32))
              (pairIdx 0#32 0#32)
              (transpose S100x4 [1, 0] (m ((c : Thread nD τ).loc main_arg1)) Gen.transposes_S4x100_S100x4_1_0))
            (pairIdx 0#32 4#32)
            (m ((c : Thread nD τ).loc main_arg2)))
          (pairIdx 127#32 4#32)
          (constant (F := Ideal) S_ .f32 0x3F800000#32) := by
  show StableHlo.after Gen.hostOps0 (fun b => m (c, b)) (Proc.devRef .tc main_call0_v13) = _
  after_results
  rfl

attribute [local irreducible] Host.scatter in
/-- The second-layer array: a zero array, then two scatters (the transposed weights, the bias). -/
private theorem e_w2 (c : Dev nD) : (Gen.V m c main_call0_v19 : S16x128.Idx → EReal)
      = Host.scatter scatter_S16x128_S1_S16_0_1_1_0 (fun _ b => b)
          (Host.scatter scatter_S16x128_S1_S16x100_01_n_1_0 (fun _ b => b)
            (broadcastInDim S16x128 ![] Gen.bcast_S_S16x128 (constant (F := Ideal) S_ .f32 0x00000000#32))
            (oneIdx 0#32)
            (transpose S16x100 [1, 0] (m ((c : Thread nD τ).loc main_arg3)) Gen.transposes_S100x16_S16x100_1_0))
          (oneIdx 127#32)
          (m ((c : Thread nD τ).loc main_arg4)) := by
  show StableHlo.after Gen.hostOps0 (fun b => m (c, b)) (Proc.devRef .tc main_call0_v19) = _
  after_results
  rfl

/-- The sample array: the launch's samples under the three-axis shape. -/
private theorem e_x3 (c : Dev nD) : (Gen.V m c main_call0_v20 : S128x1x8192.Idx → EReal)
      = shapeCast S128x1x8192 (m ((c : Thread nD τ).loc main_arg0) : S128x8192.Idx → EReal)
          Gen.shapeCasts_S128x8192_S128x1x8192 := by
  show StableHlo.after Gen.hostOps0 (fun b => m (c, b)) (Proc.devRef .tc main_call0_v20) = _
  after_results
  rfl

end Composed

/-! ## The three arrays the region reads -/

/-- The first-layer array the region reads is the padded weights of the launch's W1 and b1. -/
theorem V_w1 (c : Dev nD) :
    (Gen.V m c main_call0_v13 : S128x5.Idx → EReal)
      = w1aug (m ((c : Thread nD τ).loc main_arg1)) (m ((c : Thread nD τ).loc main_arg2)) := by
  rw [e_w1]
  funext i
  obtain ⟨p, q, rfl⟩ : ∃ (p : Fin 128) (q : Fin 5), i = ix2 p q := ⟨i 0, i 1, eq_ix2 i⟩
  rw [read3 _ _ (pairIdx 127#32 4#32) (pairIdx_apply _ _), read2 _ _ (pairIdx 0#32 4#32) (pairIdx_apply _ _),
    read1 _ _ (pairIdx 0#32 0#32) (pairIdx_apply _ _)]
  show _ = if hh : p.val < 100 then
      (if hk : q.val < 4 then m ((c : Thread nD τ).loc main_arg1) (ix2 ⟨q.val, hk⟩ ⟨p.val, hh⟩)
        else m ((c : Thread nD τ).loc main_arg2) (ix1 ⟨p.val, hh⟩))
    else if p.val = 127 ∧ q.val = 4 then onev else zerov
  have hq : q.val < 5 := q.isLt
  by_cases hh : p.val < 100
  · rw [dif_pos hh, if_neg (fun h : p.val = 127 ∧ q.val = 4 => by omega)]
    by_cases hk : q.val < 4
    · rw [dif_pos hk, dif_neg (fun h : p.val < 100 ∧ q.val = 4 => by omega), dif_pos ⟨hh, hk⟩]
      exact transpose_apply [1, 0] _ Gen.transposes_S4x100_S100x4_1_0 _ _ (fun b => by
        match b with
        | ⟨0, _⟩ => rfl
        | ⟨1, _⟩ => rfl)
    · rw [dif_neg hk, dif_pos ⟨hh, by omega⟩]
  · rw [dif_neg hh, dif_neg (fun h : p.val < 100 ∧ q.val = 4 => hh h.1), dif_neg (fun h : p.val < 100 ∧ q.val < 4 => hh h.1)]
    by_cases h127 : p.val = 127 ∧ q.val = 4
    · rw [if_pos h127, if_pos h127]; rfl
    · rw [if_neg h127, if_neg h127]; rfl

/-- The second-layer array the region reads is the padded weights of the launch's W2 and b2. -/
theorem V_w2 (c : Dev nD) :
    (Gen.V m c main_call0_v19 : S16x128.Idx → EReal)
      = w2aug (m ((c : Thread nD τ).loc main_arg3)) (m ((c : Thread nD τ).loc main_arg4)) := by
  rw [e_w2]
  funext i
  obtain ⟨p, q, rfl⟩ : ∃ (p : Fin 16) (q : Fin 128), i = ix2 p q := ⟨i 0, i 1, eq_ix2 i⟩
  rw [read5 _ _ (oneIdx 127#32) (oneIdx_apply _), read4 _ _ (oneIdx 0#32) (oneIdx_apply _)]
  show _ = if hh : q.val < 100 then m ((c : Thread nD τ).loc main_arg3) (ix2 ⟨q.val, hh⟩ ⟨p.val, p.isLt⟩)
    else if q.val = 127 then m ((c : Thread nD τ).loc main_arg4) (ix1 ⟨p.val, p.isLt⟩) else zerov
  by_cases hh : q.val < 100
  · rw [dif_pos hh, if_neg (fun h : q.val = 127 => by omega), dif_pos hh]
    exact transpose_apply [1, 0] _ Gen.transposes_S100x16_S16x100_1_0 _ _ (fun b => by
      match b with
      | ⟨0, _⟩ => rfl
      | ⟨1, _⟩ => rfl)
  · rw [dif_neg hh, dif_neg hh]
    by_cases h127 : q.val = 127
    · rw [if_pos h127, if_pos h127]
    · rw [if_neg h127, if_neg h127]; rfl

/-- The sample array the region reads is the launch's samples with a unit middle axis. -/
theorem V_x3 (c : Dev nD) :
    (Gen.V m c main_call0_v20 : S128x1x8192.Idx → EReal)
      = fun i => m ((c : Thread nD τ).loc main_arg0) (ix2 (⟨(i 0).val, (i 0).isLt⟩ : Fin 128) (⟨(i 2).val, (i 2).isLt⟩ : Fin 8192)) := by
  rw [e_x3]
  funext i
  refine shapeCast_apply (s := S128x8192) (t := S128x1x8192) _ Gen.shapeCasts_S128x8192_S128x1x8192 i
    (ix2 (⟨(i 0).val, (i 0).isLt⟩ : Fin 128) (⟨(i 2).val, (i 2).isLt⟩ : Fin 8192)) ?_
  refine (Shape.rowMajor_val_two (d := ![128, 8192]) _).trans
    (Eq.trans ?_ (Shape.rowMajor_val_three (d := ![128, 1, 8192]) i).symm)
  have h1 : (i 1).val < 1 := (i 1).isLt
  show (i 0).val * 8192 + (i 2).val = ((i 0).val * 1 + (i 1).val) * 8192 + (i 2).val
  omega

end Cert.KernelIdeal.HostPre

end
-- ==== Proof.Tail.lean ====
/-
  The kernel program's run with its result named.  Grid point `g` of the sixteen works on rows `8 g` to
  `8 g + 7`: its sample block is those rows of the sample array, its two weight blocks are the whole padded
  weight arrays, and the block it writes back is those rows of the region's output.  So the output array is
  ONE function of the three input arrays, index by index: at (row, class, time) the kernel's log-softmax of
  the logits of that row's window ending at that time.  The sixteen blocks cover the 128 rows.  The
  transposition after the region moves (row, class, time) to (row, time, class).
-/
import proofs.«149210_g33380485825013_cont_8to1_b_1249_38_alg».proof.Proof.Pieces
import proofs.«149210_g33380485825013_cont_8to1_b_1249_38_alg».proof.Proof.HostPre
import Idealize.ShloMosaic.Lib.Pipeline.Value
import Idealize.ShloMosaic.Lib.StableHlo.Run

set_option maxRecDepth 16384

noncomputable section

namespace Cert.KernelIdeal.Tail

open Idealize.ShloMosaic Idealize.ShloMosaic.ValueIdx Idealize.ShloMosaic.TcCoe Idealize.SL.Sem
open Cert.KernelIdeal Cert.KernelIdeal.Gen Cert.WindowMlp
open Idealize.ShloMosaic.Pipeline (Dat)

variable (m : (ℓ : Loc nD τ sig) → Buf (Elt Ideal) ℓ) (ρ : Dev nD → PrngReg)

/-- The region's output array as one function of the arrays the region reads: at (row, class, time) the
    kernel's log-softmax of the logits of the row's window ending at that time. -/
def regionOut (x3 : S128x1x8192.Idx → EReal) (w1 : S128x5.Idx → EReal) (w2 : S16x128.Idx → EReal) :
    S128x16x8192.Idx → EReal := fun i =>
  kLogSoftmax (klogit w1 w2 (taps5 (fun s => x3 (ix3 (⟨(i 0).val, (i 0).isLt⟩ : Fin 128) (0 : Fin 1) s))
    ⟨(i 2).val, (i 2).isLt⟩)) ⟨(i 1).val, (i 1).isLt⟩

/-- The index maps over the grid: the sample and output blocks move with the point along the rows, the
    weight blocks stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The first weight block at any point is the whole first weight array. -/
theorem blk_w1 (c : Dev nD) (t : Fin cfg0.N) : (iblk m c 1 t : S128x5.Idx → EReal) = V m c main_call0_v13 := by
  obtain ⟨_, _, _, e0, e1, _⟩ := idx_facts t
  funext y
  show V m c main_call0_v13 (((cfg0.win 1).blk t).view.emb y) = V m c main_call0_v13 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 5 + 1 * (y 1).val = (y 1).val; omega

/-- The second weight block at any point is the whole second weight array. -/
theorem blk_w2 (c : Dev nD) (t : Fin cfg0.N) : (iblk m c 2 t : S16x128.Idx → EReal) = V m c main_call0_v19 := by
  obtain ⟨_, _, _, _, _, e0, e1, _⟩ := idx_facts t
  funext y
  show V m c main_call0_v19 (((cfg0.win 2).blk t).view.emb y) = V m c main_call0_v19 y
  refine congrArg _ (funext fun a => Fin.ext ?_)
  match a with
  | ⟨0, _⟩ => show win0_2.index t (0 : Fin 2) * 16 + 1 * (y 0).val = (y 0).val; omega
  | ⟨1, _⟩ => show win0_2.index t (1 : Fin 2) * 128 + 1 * (y 1).val = (y 1).val; omega

/-- Row `r` of the sample block at point `t` is row `8 t + r` of the sample array. -/
theorem blk_x (c : Dev nD) (t : Fin cfg0.N) (r : Fin 8) (s : Fin 8192) (h : 8 * t.val + r.val < 128) :
    (iblk m c 0 t : S8x1x8192.Idx → EReal) (ix3 r (0 : Fin 1) s)
      = V m c main_call0_v20 (ix3 (⟨8 * t.val + r.val, h⟩ : Fin 128) (0 : Fin 1) s) := by
  obtain ⟨e0, e1, e2, _⟩ := idx_facts t
  show V m c main_call0_v20 (((cfg0.win 0).blk t).view.emb (ix3 r (0 : Fin 1) s)) = _
  refine congrArg _ (funext fun a => Fin.ext ?_)
  match a with
  | ⟨0, _⟩ => show win0_0.index t (0 : Fin 3) * 8 + 1 * r.val = 8 * t.val + r.val; omega
  | ⟨1, _⟩ => show win0_0.index t (1 : Fin 3) * 1 + 1 * 0 = 0; omega
  | ⟨2, _⟩ => show win0_0.index t (2 : Fin 3) * 8192 + 1 * s.val = s.val; omega

/-- WHAT POINT `t` WRITES BACK is block `t` of `regionOut` of the arrays the region reads. -/
theorem flushed_eq (c : Dev nD) (t : Fin cfg0.N) :
    (dats m 0 c).flushed 3 t = ((cfg0.win 3).blk t).view.read (Elt Ideal)
      (regionOut (V m c main_call0_v20) (V m c main_call0_v13) (V m c main_call0_v19)) := by
  show (cfg0.win 3).cut (grid0.coords t) ((dats m 0 c).after 3 t) = _
  rw [after0_3]
  obtain ⟨_, _, _, _, _, _, _, o0, o1, o2⟩ := idx_facts t
  have ht : t.val < 16 := by have h1 := t.isLt; have h2 : cfg0.N = 16 := N_0; omega
  funext j
  obtain ⟨r, cc, tt, rfl⟩ : ∃ (r : Fin 8) (cc : Fin 16) (tt : Fin 8192), j = ix3 r cc tt := ⟨j 0, j 1, j 2, eq_ix3 j⟩
  have hr : 8 * t.val + r.val < 128 := by have := r.isLt; omega
  have hemb : ((cfg0.win 3).blk t).view.emb (ix3 r cc tt) = ix3 (⟨8 * t.val + r.val, hr⟩ : Fin 128) cc tt := by
    funext a; apply Fin.ext
    match a with
    | ⟨0, _⟩ => show win0_3.index t (0 : Fin 3) * 8 + 1 * r.val = 8 * t.val + r.val; omega
    | ⟨1, _⟩ => show win0_3.index t (1 : Fin 3) * 16 + 1 * cc.val = cc.val; omega
    | ⟨2, _⟩ => show win0_3.index t (2 : Fin 3) * 8192 + 1 * tt.val = tt.val; omega
  show out0_3 (iblk m c 0 t) (iblk m c 1 t) (iblk m c 2 t) (ix3 r cc tt)
    = regionOut (V m c main_call0_v20) (V m c main_call0_v13) (V m c main_call0_v19) (((cfg0.win 3).blk t).view.emb (ix3 r cc tt))
  rw [hemb]
  refine (Cert.KernelIdeal.Pieces.out_apply (iblk m c 0 t) (iblk m c 1 t) (iblk m c 2 t) r cc tt).trans ?_
  rw [blk_w1 m c t, blk_w2 m c t]
  have hrow : (fun s : Fin 8192 => (iblk m c 0 t : S8x1x8192.Idx → EReal) (ix3 r (0 : Fin 1) s))
      = fun s => V m c main_call0_v20 (ix3 (⟨8 * t.val + r.val, hr⟩ : Fin 128) (0 : Fin 1) s) :=
    funext fun s => blk_x m c t r s hr
  rw [hrow]
  rfl

/-- An index of the output array is in point `t`'s block iff each coordinate is in the block's range. -/
theorem mem_blk (t : Fin cfg0.N) (i : S128x16x8192.Idx) :
    i ∈ ((cfg0.win 3).blk t).view.set ↔ ∀ a : Fin 3, win0_3.index t a * S8x16x8192.size a ≤ (i a).val
      ∧ (i a).val < win0_3.index t a * S8x16x8192.size a + S8x16x8192.size a := by
  show i ∈ ((View.whole main_call0_v21).slice (win0_3.rect t)).set ↔ _
  rw [View.set_slice_whole, Rect.mem_set_unit]
  exact Iff.rfl

/-- Every index of the output array lies in the block of the point its row belongs to. -/
theorem cover (i : S128x16x8192.Idx) :
    ∃ t : Fin cfg0.N, (cfg0.win 3).flush t = true ∧ i ∈ ((cfg0.win 3).blk t).view.set := by
  have hi0 : (i 0).val < 128 := (i 0).isLt
  have hi1 : (i 1).val < 16 := (i 1).isLt
  have hi2 : (i 2).val < 8192 := (i 2).isLt
  have hN : (i 0).val / 8 < cfg0.N := by have h2 : cfg0.N = 16 := N_0; omega
  obtain ⟨_, _, _, _, _, _, _, o0, o1, o2⟩ := idx_facts ⟨(i 0).val / 8, hN⟩
  refine ⟨⟨(i 0).val / 8, hN⟩, flush0_3 _, ?_⟩
  rw [mem_blk]
  intro a
  match a with
  | ⟨0, _⟩ => show win0_3.index ⟨(i 0).val / 8, hN⟩ (0 : Fin 3) * 8 ≤ (i 0).val ∧ (i 0).val < win0_3.index ⟨(i 0).val / 8, hN⟩ (0 : Fin 3) * 8 + 8; rw [o0]; show (i 0).val / 8 * 8 ≤ (i 0).val ∧ (i 0).val < (i 0).val / 8 * 8 + 8; omega
  | ⟨1, _⟩ => show win0_3.index ⟨(i 0).val / 8, hN⟩ (1 : Fin 3) * 16 ≤ (i 1).val ∧ (i 1).val < win0_3.index ⟨(i 0).val / 8, hN⟩ (1 : Fin 3) * 16 + 16; omega
  | ⟨2, _⟩ => show win0_3.index ⟨(i 0).val / 8, hN⟩ (2 : Fin 3) * 8192 ≤ (i 2).val ∧ (i 2).val < win0_3.index ⟨(i 0).val / 8, hN⟩ (2 : Fin 3) * 8192 + 8192; omega

/-- THE OUTPUT ARRAY after the run is `regionOut` of the arrays the region reads. -/
theorem final (c : Dev nD) : (dats m 0 c).arrAt 3 cfg0.N
    = regionOut (V m c main_call0_v20) (V m c main_call0_v13) (V m c main_call0_v19) :=
  (dats m 0 c).arrAt_eq_of_cover 3 _ (fun t _ => flushed_eq m c t) cover

/-- The transposed region output, in terms of the launch's inputs, is the kernel's arrangement `KOut`. -/
theorem transpose_regionOut (c : Dev nD) :
    transpose S128x8192x16 [0, 2, 1] (regionOut (V m c main_call0_v20) (V m c main_call0_v13) (V m c main_call0_v19))
        Facts₀.transposes_S128x16x8192_S128x8192x16_0_2_1
      = KOut (m ((c.tc : Thread nD τ).loc main_arg0))
          (w1aug (m ((c.tc : Thread nD τ).loc main_arg1)) (m ((c.tc : Thread nD τ).loc main_arg2)))
          (w2aug (m ((c.tc : Thread nD τ).loc main_arg3)) (m ((c.tc : Thread nD τ).loc main_arg4))) := by
  rw [Cert.KernelIdeal.HostPre.V_w1 m c, Cert.KernelIdeal.HostPre.V_w2 m c, Cert.KernelIdeal.HostPre.V_x3 m c]
  funext i
  obtain ⟨b, t, k, rfl⟩ : ∃ (b : Fin 128) (t : Fin 8192) (k : Fin 16), i = ix3 b t k := ⟨i 0, i 1, i 2, eq_ix3 i⟩
  rw [transpose_apply [0, 2, 1] _ Facts₀.transposes_S128x16x8192_S128x8192x16_0_2_1 (ix3 b t k) (ix3 b k t)
    (by intro a; match a with | ⟨0, _⟩ => rfl | ⟨1, _⟩ => rfl | ⟨2, _⟩ => rfl)]
  rfl

/-- What the result buffer holds after the line that follows the region: the region's output transposed. -/
theorem tail_eq (c : Dev nD) :
    Pipeline.afterTail₀ cfgs (dats m) 0 (V0 m) [hostOps1] c main_v0
      = transpose S128x8192x16 [0, 2, 1] (regionOut (V m c main_call0_v20) (V m c main_call0_v13) (V m c main_call0_v19))
          Facts₀.transposes_S128x16x8192_S128x8192x16_0_2_1 := by
  unfold Pipeline.afterTail₀
  show StableHlo.after hostOps1 _ (Proc.devRef .tc main_v0) = _
  after_results
  have hw : Pipeline.withArrays (cfgs 0).spec c (V0 m c) (fun w => (dats m 0 c).arrAt w (cfgs 0).N)
      (Proc.devRef .tc main_call0_v21)
      = regionOut (V m c main_call0_v20) (V m c main_call0_v13) (V m c main_call0_v19) :=
    (Pipeline.withArrays_arr spec0 launch0.win.arr_inj c _ _ 3).trans (final m c)
  simp only [StableHlo.TRef.ofBuf, StableHlo.TRef.toBuf, cast_eq]
  exact congrArg (fun x => transpose S128x8192x16 [0, 2, 1] x Facts₀.transposes_S128x16x8192_S128x8192x16_0_2_1) hw

/-- Every weakly fair execution of the kernel program ends with its result at the kernel's arrangement of the
    launch's inputs, and the inputs unchanged. -/
theorem krun :
    θ_run (defs (F := Ideal)) (onTc (τ := τ) (main (F := Ideal))) ⟨m, fun _ => 0, ρ⟩ (fun r => ∀ c : Dev nD,
      r.2.mem ((c.tc : Thread nD τ).loc main_v0)
          = KOut (m ((c.tc : Thread nD τ).loc main_arg0))
              (w1aug (m ((c.tc : Thread nD τ).loc main_arg1)) (m ((c.tc : Thread nD τ).loc main_arg2)))
              (w2aug (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(((h c).2 main_v0 (Pipeline.mem_restRefs_of main_v0 (by decide) (by decide))).trans
          ((tail_eq m c).trans (transpose_regionOut m c))),
       (((h c).2 main_arg0 (Pipeline.mem_restRefs_of main_arg0 (by decide) (by decide))).trans (W_main_arg0 m (dats m) c)),
       (((h c).2 main_arg1 (Pipeline.mem_restRefs_of main_arg1 (by decide) (by decide))).trans (W_main_arg1 m (dats m) c)),
       (((h c).2 main_arg2 (Pipeline.mem_restRefs_of main_arg2 (by decide) (by decide))).trans (W_main_arg2 m (dats m) c)),
       (((h c).2 main_arg3 (Pipeline.mem_restRefs_of main_arg3 (by decide) (by decide))).trans (W_main_arg3 m (dats m) c)),
       (((h c).2 main_arg4 (Pipeline.mem_restRefs_of main_arg4 (by decide) (by decide))).trans (W_main_arg4 m (dats m) c))⟩)
    (run_main m ρ)

end Cert.KernelIdeal.Tail

end
-- ==== Proof.Algebra.lean ====
/-
  The kernel's arrangement and the reference's are one function of real inputs.
  Layer by layer: a padded weight row times the five-vector (taps, one) is the four-tap product plus the
  bias for rows below 100, zero for rows 100 to 126 and one for row 127, so the rectified padded hidden
  units are the reference's hidden units, then zeros, then a one; the padded second-layer row times those is
  the reference's logit.  The pairwise maximum and sum are the maximum and sum over all sixteen classes.
  With every logit real, the maximum and the log of the sum are real, and
  `a - (m + l) = (a - m) - l` holds there.
-/
import proofs.«149210_g33380485825013_cont_8to1_b_1249_38_alg».proof.Proof.Spec
import Mathlib.Algebra.BigOperators.Fin
import Mathlib.Data.Finset.Fold
import Mathlib.Data.Finset.Lattice.Fold
import Mathlib.Data.EReal.Operations
import Mathlib.Analysis.SpecialFunctions.Log.Basic

noncomputable section

namespace Cert.WindowMlp

open Idealize.ShloMosaic Idealize.ShloMosaic.ValueIdx

/-! ## The literal words -/

private theorem zerov_eq : zerov = 0 := by simp [zerov, Ideal.ofBits, Ideal.ieee]

private theorem onev_eq : onev = 1 := by
  simp [onev, Ideal.ofBits, Ideal.ieee]
  rw [← EReal.coe_mul, ← EReal.coe_one]; congr 1; norm_num

private theorem ninfv_eq : ninfv = ⊥ := by simp [ninfv, Ideal.ofBits, Ideal.ieee]

/-- The padding word is a normal number, so its value is real. -/
private theorem padv_real : ∃ r : ℝ, padv = (r : EReal) := by
  unfold padv Ideal.ofBits Ideal.ieee
  dsimp only
  rw [if_neg (by decide), if_neg (by decide)]
  exact ⟨_, rfl⟩

/-! ## Real numbers inside the extended reals -/

/-- An extended real that is a real number. -/
private def IsR (x : EReal) : Prop := ∃ r : ℝ, x = (r : EReal)

private theorem isR_add {a b : EReal} (ha : IsR a) (hb : IsR b) : IsR (a + b) := by
  obtain ⟨r, rfl⟩ := ha; obtain ⟨s, rfl⟩ := hb; exact ⟨r + s, (EReal.coe_add r s).symm⟩

private theorem isR_mul {a b : EReal} (ha : IsR a) (hb : IsR b) : IsR (a * b) := by
  obtain ⟨r, rfl⟩ := ha; obtain ⟨s, rfl⟩ := hb; exact ⟨r * s, (EReal.coe_mul r s).symm⟩

private theorem isR_max {a b : EReal} (ha : IsR a) (hb : IsR b) : IsR (max a b) := by
  rcases max_choice a b with h | h
  · rw [h]; exact ha
  · rw [h]; exact hb

private theorem isR_zero : IsR 0 := ⟨0, rfl⟩

private theorem isR_sum {ι : Type} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact isR_add (h a (Finset.mem_insert_self a s)) (ih fun i hi => h i (Finset.mem_insert_of_mem hi))

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The first layer -/

section Layer1
variable (W1 : SW1.Idx → EReal) (b1 : SB1.Idx → EReal) (row : Fin 8192 → EReal) (t : Fin 8192)

/-- An entry of the padded first-layer weights at explicit coordinates. -/
private theorem w1aug_apply (h : Fin 128) (k : Fin 5) :
    w1aug W1 b1 (ix2 h k) =
      if hh : h.val < 100 then
        (if hk : k.val < 4 then W1 (ix2 ⟨k.val, hk⟩ ⟨h.val, hh⟩) else b1 (ix1 ⟨h.val, hh⟩))
      else if h.val = 127 ∧ k.val = 4 then onev else zerov := rfl

/-- A row below 100 against the five-vector: the four-tap product plus the bias. -/
private theorem khidden_lt (h : Fin 128) (hh : h.val < 100) :
    khidden (w1aug W1 b1) (taps5 row t) h =
      max ((∑ k : Fin 4, tapRow row t k * W1 (ix2 k ⟨h.val, hh⟩)) + b1 (ix1 ⟨h.val, hh⟩)) zerov := by
  unfold khidden
  have e0 : w1aug W1 b1 (ix2 h 0) = W1 (ix2 0 ⟨h.val, hh⟩) := by rw [w1aug_apply, dif_pos hh]; rfl
  have e1 : w1aug W1 b1 (ix2 h 1) = W1 (ix2 1 ⟨h.val, hh⟩) := by rw [w1aug_apply, dif_pos hh]; rfl
  have e2 : w1aug W1 b1 (ix2 h 2) = W1 (ix2 2 ⟨h.val, hh⟩) := by rw [w1aug_apply, dif_pos hh]; rfl
  have e3 : w1aug W1 b1 (ix2 h 3) = W1 (ix2 3 ⟨h.val, hh⟩) := by rw [w1aug_apply, dif_pos hh]; rfl
  have e4 : w1aug W1 b1 (ix2 h 4) = b1 (ix1 ⟨h.val, hh⟩) := by rw [w1aug_apply, dif_pos hh]; rfl
  have v0 : taps5 row t 0 = tapRow row t 0 := rfl
  have v1 : taps5 row t 1 = tapRow row t 1 := rfl
  have v2 : taps5 row t 2 = tapRow row t 2 := rfl
  have v3 : taps5 row t 3 = tapRow row t 3 := rfl
  have v4 : taps5 row t 4 = 1 := onev_eq
  rw [Fin.sum_univ_five, Fin.sum_univ_four, e0, e1, e2, e3, e4, v0, v1, v2, v3, v4, mul_one,
    mul_comm (W1 (ix2 0 _)), mul_comm (W1 (ix2 1 _)), mul_comm (W1 (ix2 2 _)), mul_comm (W1 (ix2 3 _))]

/-- Rows 100 to 126 are zero, so the padded hidden unit is zero. -/
private theorem khidden_mid (v : Fin 5 → EReal) (h : Fin 128) (h1 : ¬ h.val < 100) (h2 : h.val ≠ 127) :
    khidden (w1aug W1 b1) v h = 0 := by
  unfold khidden
  have e : ∀ k : Fin 5, w1aug W1 b1 (ix2 h k) = 0 := fun k => by
    rw [w1aug_apply, dif_neg h1, if_neg (fun hc => h2 hc.1), zerov_eq]
  simp only [e, zero_mul, Finset.sum_const_zero, zerov_eq, max_self]

/-- Row 127 is the unit vector of the ones column, so the padded hidden unit is one. -/
private theorem khidden_last (h : Fin 128) (h127 : h.val = 127) :
    khidden (w1aug W1 b1) (taps5 row t) h = 1 := by
  unfold khidden
  have h1 : ¬ h.val < 100 := by omega
  have e : ∀ k : Fin 5, k.val ≠ 4 → w1aug W1 b1 (ix2 h k) = 0 := fun k hk => by
    rw [w1aug_apply, dif_neg h1, if_neg (fun hc => hk hc.2), zerov_eq]
  have e4 : w1aug W1 b1 (ix2 h 4) = 1 := by
    rw [w1aug_apply, dif_neg h1, if_pos ⟨h127, rfl⟩, onev_eq]
  have v4 : taps5 row t 4 = 1 := onev_eq
  rw [Fin.sum_univ_five, e 0 (by decide), e 1 (by decide), e 2 (by decide), e 3 (by decide), e4, v4, zerov_eq]
  simp only [zero_mul, zero_add, one_mul]
  exact max_eq_left zero_le_one

end Layer1

/-! ## The second layer -/

/-- A sum over 128 rows as the first hundred, the next twenty-seven and the last. -/
private theorem sum128_split (f : Fin 128 → EReal) :
    ∑ h : Fin 128, f h =
      (∑ j : Fin 100, f ⟨j.val, Nat.lt_of_lt_of_le j.isLt (by decide)⟩)
        + (∑ j : Fin 27, f ⟨100 + j.val, by have := j.isLt; omega⟩) + f ⟨127, by decide⟩ := by
  have h1 := Fin.sum_univ_add (a := 100) (b := 28) f
  have h2 := Fin.sum_univ_castSucc (n := 27) (fun i : Fin 28 => f (Fin.natAdd 100 i))
  rw [h1, h2, ← add_assoc]
  rfl

section Layer2
variable (x : SX.Idx → EReal) (W1 : SW1.Idx → EReal) (b1 : SB1.Idx → EReal) (W2 : SW2.Idx → EReal)
  (b2 : SB2.Idx → EReal) (b : Fin 128) (t : Fin 8192) (c : Fin 16)

/-- An entry of the padded second-layer weights at explicit coordinates. -/
private theorem w2aug_apply (h : Fin 128) :
    w2aug W2 b2 (ix2 c h) =
      if hh : h.val < 100 then W2 (ix2 ⟨h.val, hh⟩ c)
      else if h.val = 127 then b2 (ix1 c) else zerov := rfl

/-- A term of the padded product below row 100 is the reference's term. -/
private theorem kterm_lt (h : Fin 128) (hh : h.val < 100) :
    w2aug W2 b2 (ix2 c h) * khidden (w1aug W1 b1) (taps5 (rowOf x b) t) h
      = hidden x W1 b1 b t ⟨h.val, hh⟩ * W2 (ix2 ⟨h.val, hh⟩ c) := by
  rw [w2aug_apply, dif_pos hh, khidden_lt W1 b1 (rowOf x b) t h hh, mul_comm]
  rfl

/-- The terms of rows 100 to 126 vanish. -/
private theorem kterm_mid (h : Fin 128) (h1 : ¬ h.val < 100) (h2 : h.val ≠ 127) :
    w2aug W2 b2 (ix2 c h) * khidden (w1aug W1 b1) (taps5 (rowOf x b) t) h = 0 := by
  rw [khidden_mid W1 b1 _ h h1 h2, mul_zero]

/-- The term of row 127 is the bias. -/
private theorem kterm_last (h : Fin 128) (h127 : h.val = 127) :
    w2aug W2 b2 (ix2 c h) * khidden (w1aug W1 b1) (taps5 (rowOf x b) t) h = b2 (ix1 c) := by
  have h1 : ¬ h.val < 100 := by omega
  rw [khidden_last W1 b1 _ t h h127, mul_one, w2aug_apply, dif_neg h1, if_pos h127]

/-- The kernel's logit is the reference's. -/
private theorem klogit_eq :
    klogit (w1aug W1 b1) (w2aug W2 b2) (taps5 (rowOf x b) t) c = logit x W1 b1 W2 b2 b t c := by
  unfold klogit logit
  rw [sum128_split]
  have e1 : (∑ j : Fin 100, w2aug W2 b2 (ix2 c ⟨j.val, Nat.lt_of_lt_of_le j.isLt (by decide)⟩)
        * khidden (w1aug W1 b1) (taps5 (rowOf x b) t) ⟨j.val, Nat.lt_of_lt_of_le j.isLt (by decide)⟩)
      = ∑ j : Fin 100, hidden x W1 b1 b t j * W2 (ix2 j c) :=
    Finset.sum_congr rfl (fun j _ => kterm_lt x W1 b1 W2 b2 b t c ⟨j.val, _⟩ j.isLt)
  have e2 : (∑ j : Fin 27, w2aug W2 b2 (ix2 c ⟨100 + j.val, by have := j.isLt; omega⟩)
        * khidden (w1aug W1 b1) (taps5 (rowOf x b) t) ⟨100 + j.val, by have := j.isLt; omega⟩) = 0 :=
    Finset.sum_eq_zero (fun j _ => kterm_mid x W1 b1 W2 b2 b t c ⟨100 + j.val, _⟩
      (by show ¬ 100 + j.val < 100; omega) (by have := j.isLt; show 100 + j.val ≠ 127; omega))
  rw [e1, e2, add_zero, kterm_last x W1 b1 W2 b2 b t c ⟨127, by decide⟩ rfl]

end Layer2

/-! ## Sixteen classes as eight pairs -/

/-- A sum over the sixteen classes, taken over the eight pairs. -/
private theorem sum16_pairs (f : Fin 16 → EReal) :
    ∑ c : Fin 16, f c = ∑ r : Fin 8, (f (lo8 r) + f (hi8 r)) := by
  rw [Finset.sum_add_distrib]
  exact Fin.sum_univ_add (a := 8) (b := 8) f

/-- The maximum over the eight pairs is the maximum over the sixteen classes. -/
private theorem kmax_eq (L : Fin 16 → EReal) : kmax L = Finset.univ.sup L := by
  unfold kmax
  rw [ninfv_eq]
  apply le_antisymm
  · rw [Finset.fold_max_le]
    exact ⟨bot_le, fun r _ => max_le (Finset.le_sup (Finset.mem_univ _)) (Finset.le_sup (Finset.mem_univ _))⟩
  · refine Finset.sup_le fun c _ => ?_
    rw [Finset.le_fold_max]
    right
    by_cases hc : c.val < 8
    · refine ⟨⟨c.val, hc⟩, Finset.mem_univ _, ?_⟩
      have e : c = lo8 ⟨c.val, hc⟩ := Fin.ext rfl
      rw [← e]; exact le_max_left _ _
    · have hc' : c.val - 8 < 8 := by have := c.isLt; omega
      refine ⟨⟨c.val - 8, hc'⟩, Finset.mem_univ _, ?_⟩
      have e : c = hi8 ⟨c.val - 8, hc'⟩ := Fin.ext (by show c.val = 8 + (c.val - 8); omega)
      rw [← e]; exact le_max_right _ _

/-- The pairwise sum of shifted exponentials is the sum over the sixteen classes. -/
private theorem ksum_eq (L : Fin 16 → EReal) :
    ksum L = ∑ c' : Fin 16, Ideal.exp (L c' - Finset.univ.sup L) := by
  unfold ksum
  rw [kmax_eq, sum16_pairs (fun c' => Ideal.exp (L c' - Finset.univ.sup L))]

/-! ## The log-softmax on real logits -/

/-- With real logits the two ways of subtracting the maximum and the log of the sum agree. -/
private theorem kLogSoftmax_eq (L : Fin 16 → EReal) (hL : ∀ c, IsR (L c)) (c : Fin 16) :
    kLogSoftmax L c = logSoftmax L c := by
  unfold kLogSoftmax logSoftmax
  rw [ksum_eq, kmax_eq]
  choose l hl using hL
  obtain ⟨i, -, hi⟩ := Finset.exists_mem_eq_sup Finset.univ Finset.univ_nonempty L
  have hM : Finset.univ.sup L = (l i : EReal) := hi.trans (hl i)
  rw [hM]
  have hexp : ∀ c', Ideal.exp (L c' - (l i : EReal)) = ((Real.exp (l c' - l i) : ℝ) : EReal) := fun c' => by
    rw [hl c', ← EReal.coe_sub, Ideal.exp_coe]
  simp only [hexp]
  rw [← coe_sum]
  have hpos : 0 < ∑ c' : Fin 16, Real.exp (l c' - l i) :=
    Finset.sum_pos (fun _ _ => Real.exp_pos _) Finset.univ_nonempty
  rw [Ideal.log_coe, if_neg (not_le.mpr hpos), hl c, ← EReal.coe_add, ← EReal.coe_sub, ← EReal.coe_sub,
    ← EReal.coe_sub]
  congr 1
  ring

/-! ## Every logit is real -/

section Reals
variable (x : SX.Idx → EReal) (W1 : SW1.Idx → EReal) (b1 : SB1.Idx → EReal) (W2 : SW2.Idx → EReal)
  (b2 : SB2.Idx → EReal) (hx : AllReal x) (hW1 : AllReal W1) (hb1 : AllReal b1) (hW2 : AllReal W2)
  (hb2 : AllReal b2)
include hx

private theorem tap_real (b : Fin 128) (t : Fin 8192) (k : Fin 4) : IsR (tap x b t k) := by
  unfold tap tapRow
  split
  · exact hx _
  · exact padv_real

include hW1 hb1

private theorem hidden_real (b : Fin 128) (t : Fin 8192) (j : Fin 100) : IsR (hidden x W1 b1 b t j) := by
  unfold hidden
  refine isR_max (isR_add (isR_sum _ _ fun k _ => isR_mul (tap_real x hx b t k) (hW1 _)) (hb1 _)) ?_
  rw [zerov_eq]; exact isR_zero

include hW2 hb2

private theorem logit_real (b : Fin 128) (t : Fin 8192) (c : Fin 16) : IsR (logit x W1 b1 W2 b2 b t c) := by
  unfold logit
  exact isR_add (isR_sum _ _ fun j _ => isR_mul (hidden_real x W1 b1 hx hW1 hb1 b t j) (hW2 _)) (hb2 _)

end Reals

/-- On real inputs the kernel's arrangement is the reference's function. -/
theorem kout_eq (x : SX.Idx → EReal) (W1 : SW1.Idx → EReal) (b1 : SB1.Idx → EReal) (W2 : SW2.Idx → EReal)
    (b2 : SB2.Idx → EReal) (hx : AllReal x) (hW1 : AllReal W1) (hb1 : AllReal b1) (hW2 : AllReal W2) (hb2 : AllReal b2) :
    KOut x (w1aug W1 b1) (w2aug W2 b2) = G x W1 b1 W2 b2 := by
  funext i
  unfold KOut G
  have e : klogit (w1aug W1 b1) (w2aug W2 b2)
        (taps5 (rowOf x ⟨(i 0).val, (i 0).isLt⟩) ⟨(i 1).val, (i 1).isLt⟩)
      = logit x W1 b1 W2 b2 ⟨(i 0).val, (i 0).isLt⟩ ⟨(i 1).val, (i 1).isLt⟩ :=
    funext fun c => klogit_eq x W1 b1 W2 b2 _ _ c
  rw [e]
  exact kLogSoftmax_eq _ (fun c => logit_real x W1 b1 W2 b2 hx hW1 hb1 hW2 hb2 _ _ c) _

end Cert.WindowMlp

end
-- ==== Proof.Finite.lean ====
/-
  The precondition read: each of the five conjuncts says every entry of one input has absolute value
  below plus infinity, so every entry of every input is a real number.
-/
import proofs.«149210_g33380485825013_cont_8to1_b_1249_38_alg».proof.Pre_finite_inputs
import proofs.«149210_g33380485825013_cont_8to1_b_1249_38_alg».proof.Proof.Spec
import Idealize.ShloMosaic.Lib.ReduceAll
import Idealize.ShloMosaic.Lib.StableHlo.Predicate

noncomputable section

namespace Cert.WindowMlp.Finite

open Idealize.ShloMosaic Idealize.ShloMosaic.ValueIdx Cert.WindowMlp Cert.Pre_finite_inputs

/-- The shape with no axes has one index. -/
private instance : Subsingleton S_.Idx := ⟨fun a b => funext fun d => d.elim0⟩

/-- The word of plus infinity denotes the top element. -/
private theorem inf_word : Ideal.ofBits .f32 0x7F800000#32 = (⊤ : EReal) := by
  simp [Ideal.ofBits, Ideal.ieee]

/-- An extended real whose absolute value is below the top element is a real number: the absolute value
    of either infinity is the top element itself. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One conjunct of the predicate, at any shape: if the conjunction over all entries of "the absolute value
    is below the word of plus infinity" is one, every entry is real. -/
private theorem allReal_of_all {S : Shape} {axes : List (Fin S.rank)} (x : FVec Ideal S .f32)
    (hb : S_.BroadcastsInDim S (![] : Fin 0 → Fin S.rank)) (hr : S.ReducesTo axes S_) (h0 : 0 < S_.numel)
    (init : IVec S_ 1)
    (h : Host.reduce IntOp.andi (cmpf .olt (Host.absf x)
          (broadcastInDim S ![] hb (constant (F := Ideal) S_ .f32 0x7F800000#32))) init hr h0 ix0 = 1#1) :
    AllReal x := by
  intro i
  have e := Host.reduce_andi_all _ _ hr h0 _ h i
  refine real_of_abs_lt_top (x i) ?_
  rw [← inf_word]
  exact e

variable [Cert.Pre_finite_inputs.Facts]

/-- If the finiteness predicate is all ones on five arrays, every entry of each is real. -/
theorem allReal_of_pre (x0 : FVec Ideal S128x8192 .f32) (x1 : FVec Ideal S4x100 .f32) (x2 : FVec Ideal S100 .f32)
    (x3 : FVec Ideal S100x16 .f32) (x4 : FVec Ideal S16 .f32)
    (h : Cert.Pre_finite_inputs.fn (F := Ideal) x0 x1 x2 x3 x4 = (fun _ => 1#1)) :
    AllReal (S := SX) x0 ∧ AllReal (S := SW1) x1 ∧ AllReal (S := SB1) x2 ∧ AllReal (S := SW2) x3 ∧ AllReal (S := SB2) x4 := by
  have h' := congrFun h ix0
  unfold Cert.Pre_finite_inputs.fn Cert.Pre_finite_inputs.fn_part1 at h'
  dsimp only at h'
  -- the predicate is a conjunction of five conjunctions over all entries, nested to the left
  obtain ⟨h0123, h4⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨allReal_of_all x0 _ _ _ _ h0, allReal_of_all x1 _ _ _ _ h1, allReal_of_all x2 _ _ _ _ h2,
    allReal_of_all x3 _ _ _ _ h3, allReal_of_all x4 _ _ _ _ h4⟩

end Cert.WindowMlp.Finite

end
-- ==== Proof.RefWindow.lean ====
/-
  The reference's window, read at an index.  The samples are padded on the right with three entries of
  the padding value, giving rows of 8195; rolling such a row by `s` moves the last `s` entries to the front;
  the rolls by 3, 2, 1, 0 are stacked on a new last axis, the first 8192 times kept, and rows and times
  flattened.  So entry (row · 8192 + time, k) is the padded row at position (time - (3 - k)) mod 8195: the
  sample at time - 3 + k when that is not negative, and otherwise one of the three padding entries that the
  roll brought to the front.
-/
import proofs.«149210_g33380485825013_cont_8to1_b_1249_38_alg».proof.Proof.RefReadP
import proofs.«149210_g33380485825013_cont_8to1_b_1249_38_alg».proof.Proof.Spec
import Idealize.ShloMosaic.Lib.KernelVsHost

noncomputable section

namespace Cert.ReferenceIdeal.RefWindow

open Idealize.ShloMosaic Idealize.ShloMosaic.ValueIdx Cert.ReferenceIdeal Cert.ReferenceIdeal.Gen Cert.ReferenceIdeal.ReadP Cert.WindowMlp

/-- The padded samples inside the row: the sample itself. -/
private theorem padded_inside (x0 : (⟨S128x8192, .f32⟩ : BufTy).Contents (Elt Ideal)) (b : Fin 128) (j : Fin 8195)
    (hj : j.val < 8192) :
    val_main_v0 (F := Ideal) x0 (ix2 b j) = x0 (ix2 b (⟨j.val, hj⟩ : Fin 8192)) := by
  unfold val_main_v0
  exact pad_apply_of_inside _ _ _ x0 _ pads_S128x8192_S128x8195_000_030 h_S_ (ix2 b j)
    (ix2 b (⟨j.val, hj⟩ : Fin 8192)) (by
      intro a
      match a with
      | ⟨0, _⟩ => show b.val = 0 + b.val * (0 + 1); omega
      | ⟨1, _⟩ => show j.val = 0 + j.val * (0 + 1); omega)

/-- The padded samples past the row's end: the padding value. -/
private theorem padded_outside (x0 : (⟨S128x8192, .f32⟩ : BufTy).Contents (Elt Ideal)) (b : Fin 128) (j : Fin 8195)
    (hj : 8192 ≤ j.val) :
    val_main_v0 (F := Ideal) x0 (ix2 b j) = padv := by
  unfold val_main_v0
  refine (pad_apply_of_not_inside _ _ _ x0 _ pads_S128x8192_S128x8195_000_030 h_S_ (ix2 b j) (1 : Fin 2) (by
    intro hin
    have e : (j.val - 0) / (0 + 1) < 8192 := hin.2.2
    omega)).trans ?_
  rfl

/-- The roll by three at one of the first three columns: one of the padding entries brought to the front. -/
private theorem roll3_lo (x0 : (⟨S128x8192, .f32⟩ : BufTy).Contents (Elt Ideal)) (b : Fin 128) (j : Fin 8195) (hj : j.val < 3) :
    val_main_v1 (F := Ideal) x0 (ix2 b j) = padv := by
  unfold val_main_v1
  refine (concatenate_pair_apply_left 1 _ _ concatenates_S128x3_S128x8192_S128x8195_d1 (ix2 b j) rfl
    (ix2 b (⟨j.val, hj⟩ : Fin 3)) (fun a => by
      match a with
      | ⟨0, _⟩ => rfl
      | ⟨1, _⟩ => rfl)).trans ?_
  refine (val_main_call1_v0_apply x0 _).trans ?_
  have e : idx_main_call1_v0 (ix2 b (⟨j.val, hj⟩ : Fin 3))
      = ix2 b (⟨8192 + j.val, by omega⟩ : Fin 8195) := by
    funext a; match a with | ⟨0, _⟩ => rfl | ⟨1, _⟩ => rfl
  rw [e]
  exact padded_outside x0 b _ (by show 8192 ≤ 8192 + j.val; omega)

/-- The roll by three at a later column among the first 8192: the sample three places earlier. -/
private theorem roll3_hi (x0 : (⟨S128x8192, .f32⟩ : BufTy).Contents (Elt Ideal)) (b : Fin 128) (j : Fin 8195) (hlo : 3 ≤ j.val)
    (hj : j.val < 8192) :
    val_main_v1 (F := Ideal) x0 (ix2 b j) = x0 (ix2 b (⟨j.val - 3, by omega⟩ : Fin 8192)) := by
  unfold val_main_v1
  refine (concatenate_pair_apply_right 1 _ _ concatenates_S128x3_S128x8192_S128x8195_d1 (ix2 b j) rfl rfl
    (ix2 b (⟨j.val - 3, by omega⟩ : Fin 8192))
    (fun a ha => by
      match a with
      | ⟨0, _⟩ => rfl
      | ⟨1, _⟩ => exact absurd rfl ha)
    (by show j.val - 3 + 3 = j.val; omega)).trans ?_
  refine (val_main_call1_v1_apply x0 _).trans ?_
  have e : idx_main_call1_v1 (ix2 b (⟨j.val - 3, by omega⟩ : Fin 8192))
      = ix2 b (⟨j.val - 3, by omega⟩ : Fin 8195) := by
    funext a; match a with | ⟨0, _⟩ => rfl | ⟨1, _⟩ => rfl
  rw [e]
  exact padded_inside x0 b _ (by show j.val - 3 < 8192; omega)

/-- The roll by two at one of the first two columns: one of the padding entries brought to the front. -/
private theorem roll2_lo (x0 : (⟨S128x8192, .f32⟩ : BufTy).Contents (Elt Ideal)) (b : Fin 128) (j : Fin 8195) (hj : j.val < 2) :
    val_main_v2 (F := Ideal) x0 (ix2 b j) = padv := by
  unfold val_main_v2
  refine (concatenate_pair_apply_left 1 _ _ concatenates_S128x2_S128x8193_S128x8195_d1 (ix2 b j) rfl
    (ix2 b (⟨j.val, hj⟩ : Fin 2)) (fun a => by
      match a with
      | ⟨0, _⟩ => rfl
      | ⟨1, _⟩ => rfl)).trans ?_
  refine (val_main_call2_v0_apply x0 _).trans ?_
  have e : idx_main_call2_v0 (ix2 b (⟨j.val, hj⟩ : Fin 2))
      = ix2 b (⟨8193 + j.val, by omega⟩ : Fin 8195) := by
    funext a; match a with | ⟨0, _⟩ => rfl | ⟨1, _⟩ => rfl
  rw [e]
  exact padded_outside x0 b _ (by show 8192 ≤ 8193 + j.val; omega)

/-- The roll by two at a later column among the first 8192: the sample two places earlier. -/
private theorem roll2_hi (x0 : (⟨S128x8192, .f32⟩ : BufTy).Contents (Elt Ideal)) (b : Fin 128) (j : Fin 8195) (hlo : 2 ≤ j.val)
    (hj : j.val < 8192) :
    val_main_v2 (F := Ideal) x0 (ix2 b j) = x0 (ix2 b (⟨j.val - 2, by omega⟩ : Fin 8192)) := by
  unfold val_main_v2
  refine (concatenate_pair_apply_right 1 _ _ concatenates_S128x2_S128x8193_S128x8195_d1 (ix2 b j) rfl rfl
    (ix2 b (⟨j.val - 2, by omega⟩ : Fin 8193))
    (fun a ha => by
      match a with
      | ⟨0, _⟩ => rfl
      | ⟨1, _⟩ => exact absurd rfl ha)
    (by show j.val - 2 + 2 = j.val; omega)).trans ?_
  refine (val_main_call2_v1_apply x0 _).trans ?_
  have e : idx_main_call2_v1 (ix2 b (⟨j.val - 2, by omega⟩ : Fin 8193))
      = ix2 b (⟨j.val - 2, by omega⟩ : Fin 8195) := by
    funext a; match a with | ⟨0, _⟩ => rfl | ⟨1, _⟩ => rfl
  rw [e]
  exact padded_inside x0 b _ (by show j.val - 2 < 8192; omega)

/-- The roll by one at the first column: the last padding entry, brought to the front. -/
private theorem roll1_lo (x0 : (⟨S128x8192, .f32⟩ : BufTy).Contents (Elt Ideal)) (b : Fin 128) (j : Fin 8195) (hj : j.val < 1) :
    val_main_v3 (F := Ideal) x0 (ix2 b j) = padv := by
  unfold val_main_v3
  refine (concatenate_pair_apply_left 1 _ _ concatenates_S128x1_S128x8194_S128x8195_d1 (ix2 b j) rfl
    (ix2 b (⟨j.val, hj⟩ : Fin 1)) (fun a => by
      match a with
      | ⟨0, _⟩ => rfl
      | ⟨1, _⟩ => rfl)).trans ?_
  refine (val_main_call3_v0_apply x0 _).trans ?_
  have e : idx_main_call3_v0 (ix2 b (⟨j.val, hj⟩ : Fin 1))
      = ix2 b (⟨8194 + j.val, by omega⟩ : Fin 8195) := by
    funext a; match a with | ⟨0, _⟩ => rfl | ⟨1, _⟩ => rfl
  rw [e]
  exact padded_outside x0 b _ (by show 8192 ≤ 8194 + j.val; omega)

/-- The roll by one at a later column among the first 8192: the sample one place earlier. -/
private theorem roll1_hi (x0 : (⟨S128x8192, .f32⟩ : BufTy).Contents (Elt Ideal)) (b : Fin 128) (j : Fin 8195) (hlo : 1 ≤ j.val)
    (hj : j.val < 8192) :
    val_main_v3 (F := Ideal) x0 (ix2 b j) = x0 (ix2 b (⟨j.val - 1, by omega⟩ : Fin 8192)) := by
  unfold val_main_v3
  refine (concatenate_pair_apply_right 1 _ _ concatenates_S128x1_S128x8194_S128x8195_d1 (ix2 b j) rfl rfl
    (ix2 b (⟨j.val - 1, by omega⟩ : Fin 8194))
    (fun a ha => by
      match a with
      | ⟨0, _⟩ => rfl
      | ⟨1, _⟩ => exact absurd rfl ha)
    (by show j.val - 1 + 1 = j.val; omega)).trans ?_
  refine (val_main_call3_v1_apply x0 _).trans ?_
  have e : idx_main_call3_v1 (ix2 b (⟨j.val - 1, by omega⟩ : Fin 8194))
      = ix2 b (⟨j.val - 1, by omega⟩ : Fin 8195) := by
    funext a; match a with | ⟨0, _⟩ => rfl | ⟨1, _⟩ => rfl
  rw [e]
  exact padded_inside x0 b _ (by show j.val - 1 < 8192; omega)

/-- The roll by nothing: every column lies in the first piece, which is the padded row itself. -/
private theorem roll0 (x0 : (⟨S128x8192, .f32⟩ : BufTy).Contents (Elt Ideal)) (b : Fin 128) (j : Fin 8195) (hj : j.val < 8192) :
    val_main_v4 (F := Ideal) x0 (ix2 b j) = x0 (ix2 b (⟨j.val, hj⟩ : Fin 8192)) := by
  unfold val_main_v4
  refine (concatenate_pair_apply_left 1 _ _ concatenates_S128x8195_S128x0_S128x8195_d1 (ix2 b j) rfl
    (ix2 b j) (fun a => by
      match a with
      | ⟨0, _⟩ => rfl
      | ⟨1, _⟩ => rfl)).trans ?_
  refine (val_main_call4_v0_apply x0 _).trans ?_
  have e : idx_main_call4_v0 (ix2 b j) = ix2 b j := by
    funext a; match a with | ⟨0, _⟩ => rfl | ⟨1, _⟩ => rfl
  rw [e]
  exact padded_inside x0 b j hj

/-- Entry 0 on the stack's last axis is the roll by three. -/
private theorem stack0 (x0 : (⟨S128x8192, .f32⟩ : BufTy).Contents (Elt Ideal)) (b : Fin 128) (t : Fin 8195) :
    val_main_v9 (F := Ideal) x0 (ix3 b t (⟨0, by omega⟩ : Fin 4)) = val_main_v1 (F := Ideal) x0 (ix2 b t) := by
  unfold val_main_v9
  refine (concatenate_apply_piece 2
    ([⟨S128x8195x1, val_main_v5 (F := Ideal) x0⟩, ⟨S128x8195x1, val_main_v6 (F := Ideal) x0⟩, ⟨S128x8195x1, val_main_v7 (F := Ideal) x0⟩, ⟨S128x8195x1, val_main_v8 (F := Ideal) x0⟩] : List ((s : Shape) × (s.Idx → EReal)))
    concatenates_S128x8195x1_S128x8195x1_S128x8195x1_S128x8195x1_S128x8195x4_d2
    (ix3 b t (⟨0, by omega⟩ : Fin 4)) 0 (by show 0 < 4; omega) S128x8195x1 (val_main_v5 (F := Ideal) x0) rfl rfl 0 rfl
    (ix3 b t (0 : Fin 1))
    (fun a ha => by
      match a with
      | ⟨0, _⟩ => rfl
      | ⟨1, _⟩ => rfl
      | ⟨2, _⟩ => exact absurd rfl ha)
    rfl).trans ?_
  refine (val_main_v5_apply x0 _).trans ?_
  exact congrArg _ (by funext a; match a with | ⟨0, _⟩ => rfl | ⟨1, _⟩ => rfl)

/-- Entry 1 on the stack's last axis is the roll by two. -/
private theorem stack1 (x0 : (⟨S128x8192, .f32⟩ : BufTy).Contents (Elt Ideal)) (b : Fin 128) (t : Fin 8195) :
    val_main_v9 (F := Ideal) x0 (ix3 b t (⟨1, by omega⟩ : Fin 4)) = val_main_v2 (F := Ideal) x0 (ix2 b t) := by
  unfold val_main_v9
  refine (concatenate_apply_piece 2
    ([⟨S128x8195x1, val_main_v5 (F := Ideal) x0⟩, ⟨S128x8195x1, val_main_v6 (F := Ideal) x0⟩, ⟨S128x8195x1, val_main_v7 (F := Ideal) x0⟩, ⟨S128x8195x1, val_main_v8 (F := Ideal) x0⟩] : List ((s : Shape) × (s.Idx → EReal)))
    concatenates_S128x8195x1_S128x8195x1_S128x8195x1_S128x8195x1_S128x8195x4_d2
    (ix3 b t (⟨1, by omega⟩ : Fin 4)) 1 (by show 1 < 4; omega) S128x8195x1 (val_main_v6 (F := Ideal) x0) rfl rfl 1 rfl
    (ix3 b t (0 : Fin 1))
    (fun a ha => by
      match a with
      | ⟨0, _⟩ => rfl
      | ⟨1, _⟩ => rfl
      | ⟨2, _⟩ => exact absurd rfl ha)
    rfl).trans ?_
  refine (val_main_v6_apply x0 _).trans ?_
  exact congrArg _ (by funext a; match a with | ⟨0, _⟩ => rfl | ⟨1, _⟩ => rfl)

/-- Entry 2 on the stack's last axis is the roll by one. -/
private theorem stack2 (x0 : (⟨S128x8192, .f32⟩ : BufTy).Contents (Elt Ideal)) (b : Fin 128) (t : Fin 8195) :
    val_main_v9 (F := Ideal) x0 (ix3 b t (⟨2, by omega⟩ : Fin 4)) = val_main_v3 (F := Ideal) x0 (ix2 b t) := by
  unfold val_main_v9
  refine (concatenate_apply_piece 2
    ([⟨S128x8195x1, val_main_v5 (F := Ideal) x0⟩, ⟨S128x8195x1, val_main_v6 (F := Ideal) x0⟩, ⟨S128x8195x1, val_main_v7 (F := Ideal) x0⟩, ⟨S128x8195x1, val_main_v8 (F := Ideal) x0⟩] : List ((s : Shape) × (s.Idx → EReal)))
    concatenates_S128x8195x1_S128x8195x1_S128x8195x1_S128x8195x1_S128x8195x4_d2
    (ix3 b t (⟨2, by omega⟩ : Fin 4)) 2 (by show 2 < 4; omega) S128x8195x1 (val_main_v7 (F := Ideal) x0) rfl rfl 2 rfl
    (ix3 b t (0 : Fin 1))
    (fun a ha => by
      match a with
      | ⟨0, _⟩ => rfl
      | ⟨1, _⟩ => rfl
      | ⟨2, _⟩ => exact absurd rfl ha)
    rfl).trans ?_
  refine (val_main_v7_apply x0 _).trans ?_
  exact congrArg _ (by funext a; match a with | ⟨0, _⟩ => rfl | ⟨1, _⟩ => rfl)

/-- Entry 3 on the stack's last axis is the roll by nothing. -/
private theorem stack3 (x0 : (⟨S128x8192, .f32⟩ : BufTy).Contents (Elt Ideal)) (b : Fin 128) (t : Fin 8195) :
    val_main_v9 (F := Ideal) x0 (ix3 b t (⟨3, by omega⟩ : Fin 4)) = val_main_v4 (F := Ideal) x0 (ix2 b t) := by
  unfold val_main_v9
  refine (concatenate_apply_piece 2
    ([⟨S128x8195x1, val_main_v5 (F := Ideal) x0⟩, ⟨S128x8195x1, val_main_v6 (F := Ideal) x0⟩, ⟨S128x8195x1, val_main_v7 (F := Ideal) x0⟩, ⟨S128x8195x1, val_main_v8 (F := Ideal) x0⟩] : List ((s : Shape) × (s.Idx → EReal)))
    concatenates_S128x8195x1_S128x8195x1_S128x8195x1_S128x8195x1_S128x8195x4_d2
    (ix3 b t (⟨3, by omega⟩ : Fin 4)) 3 (by show 3 < 4; omega) S128x8195x1 (val_main_v8 (F := Ideal) x0) rfl rfl 3 rfl
    (ix3 b t (0 : Fin 1))
    (fun a ha => by
      match a with
      | ⟨0, _⟩ => rfl
      | ⟨1, _⟩ => rfl
      | ⟨2, _⟩ => exact absurd rfl ha)
    rfl).trans ?_
  refine (val_main_v8_apply x0 _).trans ?_
  exact congrArg _ (by funext a; match a with | ⟨0, _⟩ => rfl | ⟨1, _⟩ => rfl)

/-- A tap whose time is not negative is that sample. -/
private theorem tap_hi (x0 : (⟨S128x8192, .f32⟩ : BufTy).Contents (Elt Ideal)) (b : Fin 128) (t : Fin 8192) (k : Fin 4) (h : 3 ≤ t.val + k.val) :
    tap x0 b t k = x0 (ix2 b (⟨t.val + k.val - 3, by have := t.isLt; have := k.isLt; omega⟩ : Fin 8192)) := by
  unfold tap tapRow rowOf
  rw [dif_pos h]

/-- A tap whose time is negative is the padding value. -/
private theorem tap_lo (x0 : (⟨S128x8192, .f32⟩ : BufTy).Contents (Elt Ideal)) (b : Fin 128) (t : Fin 8192) (k : Fin 4) (h : ¬ 3 ≤ t.val + k.val) :
    tap x0 b t k = padv := by
  unfold tap tapRow
  rw [dif_neg h]

/-- The kept part of the stack at (row, time, k) is tap `k` of the row's window ending at that time. -/
private theorem window_at (x0 : (⟨S128x8192, .f32⟩ : BufTy).Contents (Elt Ideal)) (b : Fin 128) (t : Fin 8192) (k : Fin 4) :
    val_main_v10 (F := Ideal) x0 (ix3 b t k) = tap x0 b t k := by
  have ht : t.val < 8192 := t.isLt
  refine (val_main_v10_apply x0 _).trans ?_
  have e : idx_main_v10 (ix3 b t k) = ix3 b (⟨t.val, by omega⟩ : Fin 8195) k := by
    funext a; match a with | ⟨0, _⟩ => rfl | ⟨1, _⟩ => rfl | ⟨2, _⟩ => rfl
  rw [e]
  match k with
  | ⟨0, hk⟩ =>
    refine (stack0 x0 b _).trans ?_
    by_cases h : 3 ≤ t.val
    · rw [tap_hi x0 b t ⟨0, hk⟩ (by show 3 ≤ t.val + 0; omega)]
      refine (roll3_hi x0 b _ h ht).trans ?_
      exact congrArg x0 (congrArg (ix2 b) (Fin.ext (by show t.val - 3 = t.val + 0 - 3; omega)))
    · rw [tap_lo x0 b t ⟨0, hk⟩ (by show ¬ 3 ≤ t.val + 0; omega)]
      exact roll3_lo x0 b _ (by show t.val < 3; omega)
  | ⟨1, hk⟩ =>
    refine (stack1 x0 b _).trans ?_
    by_cases h : 2 ≤ t.val
    · rw [tap_hi x0 b t ⟨1, hk⟩ (by show 3 ≤ t.val + 1; omega)]
      refine (roll2_hi x0 b _ h ht).trans ?_
      exact congrArg x0 (congrArg (ix2 b) (Fin.ext (by show t.val - 2 = t.val + 1 - 3; omega)))
    · rw [tap_lo x0 b t ⟨1, hk⟩ (by show ¬ 3 ≤ t.val + 1; omega)]
      exact roll2_lo x0 b _ (by show t.val < 2; omega)
  | ⟨2, hk⟩ =>
    refine (stack2 x0 b _).trans ?_
    by_cases h : 1 ≤ t.val
    · rw [tap_hi x0 b t ⟨2, hk⟩ (by show 3 ≤ t.val + 2; omega)]
      refine (roll1_hi x0 b _ h ht).trans ?_
      exact congrArg x0 (congrArg (ix2 b) (Fin.ext (by show t.val - 1 = t.val + 2 - 3; omega)))
    · rw [tap_lo x0 b t ⟨2, hk⟩ (by show ¬ 3 ≤ t.val + 2; omega)]
      exact roll1_lo x0 b _ (by show t.val < 1; omega)
  | ⟨3, hk⟩ =>
    refine (stack3 x0 b _).trans ?_
    rw [tap_hi x0 b t ⟨3, hk⟩ (by show 3 ≤ t.val + 3; omega)]
    refine (roll0 x0 b _ ht).trans ?_
    exact congrArg x0 (congrArg (ix2 b) (Fin.ext (by show t.val = t.val + 3 - 3; omega)))

/-- The flattened stack of rolls at (row · 8192 + time, k) is tap `k` of that row's window ending at that time. -/
theorem window_apply (x0 : (⟨S128x8192, .f32⟩ : BufTy).Contents (Elt Ideal)) (n : Fin 1048576) (k : Fin 4) :
    val_main_v11 (F := Ideal) x0 (ix2 n k)
      = tap x0 ⟨n.val / 8192, by have := n.isLt; omega⟩ ⟨n.val % 8192, Nat.mod_lt _ (by norm_num)⟩ k := by
  have hn : n.val < 1048576 := n.isLt
  have hk : k.val < 4 := k.isLt
  refine (val_main_v11_apply x0 _).trans ?_
  have e : idx_main_v11 (ix2 n k)
      = ix3 (⟨n.val / 8192, by omega⟩ : Fin 128) (⟨n.val % 8192, Nat.mod_lt _ (by norm_num)⟩ : Fin 8192) k := by
    funext a
    match a with
    | ⟨0, _⟩ => exact Fin.ext (by show (n.val * 4 + k.val) / 32768 = n.val / 8192; omega)
    | ⟨1, _⟩ => exact Fin.ext (by show (n.val * 4 + k.val) / 4 % 8192 = n.val % 8192; omega)
    | ⟨2, _⟩ => exact Fin.ext (by show (n.val * 4 + k.val) % 4 = k.val; omega)
  rw [e]
  exact window_at x0 _ _ k

end Cert.ReferenceIdeal.RefWindow

end
-- ==== Proof.RefValue.lean ====
/-
  The reference's result is the function `G`: over the window (RefWindow) the first dot product with the
  bias row added and the rectifier give the hidden units, the second dot product with its bias row the
  logits, and the outlined log-softmax shifts by the maximum over the sixteen classes, exponentiates, sums,
  takes the logarithm and subtracts; the final reshape splits the flattened row-time axis again.
-/
import proofs.«149210_g33380485825013_cont_8to1_b_1249_38_alg».proof.Proof.RefWindow
import proofs.«149210_g33380485825013_cont_8to1_b_1249_38_alg».proof.Proof.LibPlainDot
import Idealize.ShloMosaic.PureOps.Ideal.Laws
import Mathlib.Data.Finset.Lattice.Fold

noncomputable section

namespace Cert.ReferenceIdeal.RefValue

open Idealize.ShloMosaic Idealize.ShloMosaic.ValueIdx Cert.ReferenceIdeal Cert.ReferenceIdeal.ReadP Cert.WindowMlp

/-- The word of minus infinity is the least extended real. -/
private theorem ninf_eq_bot : Ideal.ofBits .f32 0xFF800000#32 = (⊥ : EReal) := by
  simp [Ideal.ofBits, Ideal.ieee]

/-- A fold of `max` from the least element is the supremum. -/
private theorem fold_max_bot (f : Fin 16 → EReal) :
    (Finset.univ : Finset (Fin 16)).fold max (⊥ : EReal) f = Finset.univ.sup f := rfl

/-- The reduced index `n` with class `k` put back is (n, k). -/
private theorem lift_ix1 (h : S1048576x16.Reduces [1] S1048576) (n : Fin 1048576) (k : Fin (S1048576x16.size 1)) :
    h.lift (ix1 n) k = ix2 n (⟨k.val, k.isLt⟩ : Fin 16) := by
  funext c; apply Fin.ext
  match c with
  | ⟨0, _⟩ => rfl
  | ⟨1, _⟩ => rfl

/-- The maximum over the classes, from minus infinity, at row-time `n`, is the supremum of the sixteen entries. -/
private theorem reduce_max_apply (y : S1048576x16.Idx → Ideal .f32) (n : Fin 1048576) :
    Host.reduce (α := Ideal .f32) (FloatOps.maximumf (F := Ideal) (φ := .f32)) y (val_main_call6_cst (F := Ideal)) Gen.reducesTo_S1048576x16_S1048576_d1 Gen.h_S_ (ix1 n)
      = Finset.univ.sup (fun c : Fin 16 => y (ix2 n c)) := by
  have h : S1048576x16.Reduces [1] S1048576 := by decide
  rw [Host.reduce_eq_fold_single FloatOps.maximumf y _ Gen.reducesTo_S1048576x16_S1048576_d1 h Gen.h_S_, val_main_call6_cst_apply,
    Ideal.ofBits_def, ninf_eq_bot]
  refine Eq.trans ?_ (fold_max_bot fun c : Fin 16 => y (ix2 n c))
  have hf : (y ∘ h.lift (ix1 n)) = fun k : Fin 16 => y (ix2 n k) := funext fun k => congrArg y (lift_ix1 h n k)
  exact congrArg (fun f => Finset.fold max (⊥ : EReal) f (Finset.univ : Finset (Fin 16))) hf

/-- A hidden unit at (row-time `n`, unit `j`): the rectified affine image of that window's four taps. -/
private theorem hidden_apply (x0 : (⟨S128x8192, .f32⟩ : BufTy).Contents (Elt Ideal)) (x1 : (⟨S4x100, .f32⟩ : BufTy).Contents (Elt Ideal))
    (x2 : (⟨S100, .f32⟩ : BufTy).Contents (Elt Ideal)) (n : Fin 1048576) (j : Fin 100) :
    val_main_v16 (F := Ideal) x0 x1 x2 (ix2 n j)
      = hidden x0 x1 x2 ⟨n.val / 8192, by have := n.isLt; omega⟩ ⟨n.val % 8192, Nat.mod_lt _ (by norm_num)⟩ j := by
  have e1 : ∀ k : Fin 4, lidx_main_v12 (ix2 n j) k = ix2 n k := fun k => funext fun a => Fin.ext (by
    match a with
    | ⟨0, _⟩ => rfl
    | ⟨1, _⟩ => rfl)
  have e2 : ∀ k : Fin 4, ridx_main_v12 (ix2 n j) k = ix2 k j := fun k => funext fun a => Fin.ext (by
    match a with
    | ⟨0, _⟩ => rfl
    | ⟨1, _⟩ => rfl)
  have e3 : idx_main_v13 (idx_main_v14 (ix2 n j)) = ix1 j := funext fun a => Fin.ext (by
    match a with
    | ⟨0, _⟩ => rfl)
  rw [val_main_v16_apply, val_main_v15_apply, val_main_v12_apply, val_main_v14_apply, val_main_v13_apply,
    val_main_call5_v0_apply, val_main_call5_cst_apply]
  simp only [e1, e2, e3, RefWindow.window_apply, Ideal.maximumf_def, Ideal.addf_def, Ideal.ofBits_def]
  rfl

/-- A logit at (row-time `n`, class `c`): the affine image of the hidden units. -/
private theorem logits_apply (x0 : (⟨S128x8192, .f32⟩ : BufTy).Contents (Elt Ideal)) (x1 : (⟨S4x100, .f32⟩ : BufTy).Contents (Elt Ideal))
    (x2 : (⟨S100, .f32⟩ : BufTy).Contents (Elt Ideal)) (x3 : (⟨S100x16, .f32⟩ : BufTy).Contents (Elt Ideal))
    (x4 : (⟨S16, .f32⟩ : BufTy).Contents (Elt Ideal)) (n : Fin 1048576) (c : Fin 16) :
    val_main_v20 (F := Ideal) x0 x1 x2 x3 x4 (ix2 n c)
      = logit x0 x1 x2 x3 x4 ⟨n.val / 8192, by have := n.isLt; omega⟩ ⟨n.val % 8192, Nat.mod_lt _ (by norm_num)⟩ c := by
  have e1 : ∀ k : Fin 100, lidx_main_v17 (ix2 n c) k = ix2 n k := fun k => funext fun a => Fin.ext (by
    match a with
    | ⟨0, _⟩ => rfl
    | ⟨1, _⟩ => rfl)
  have e2 : ∀ k : Fin 100, ridx_main_v17 (ix2 n c) k = ix2 k c := fun k => funext fun a => Fin.ext (by
    match a with
    | ⟨0, _⟩ => rfl
    | ⟨1, _⟩ => rfl)
  have e3 : idx_main_v18 (idx_main_v19 (ix2 n c)) = ix1 c := funext fun a => Fin.ext (by
    match a with
    | ⟨0, _⟩ => rfl)
  rw [val_main_v20_apply, val_main_v17_apply, val_main_v19_apply, val_main_v18_apply]
  simp only [e1, e2, e3, hidden_apply, Ideal.addf_def]
  rfl

/-- The shift: at row-time `n` the maximum with minus infinity of the maximum over the classes is the supremum of the
    sixteen logits. -/
private theorem rowmax_apply (x0 : (⟨S128x8192, .f32⟩ : BufTy).Contents (Elt Ideal)) (x1 : (⟨S4x100, .f32⟩ : BufTy).Contents (Elt Ideal))
    (x2 : (⟨S100, .f32⟩ : BufTy).Contents (Elt Ideal)) (x3 : (⟨S100x16, .f32⟩ : BufTy).Contents (Elt Ideal))
    (x4 : (⟨S16, .f32⟩ : BufTy).Contents (Elt Ideal)) (n : Fin 1048576) :
    val_main_call6_v2 (F := Ideal) x0 x1 x2 x3 x4 (ix1 n)
      = Finset.univ.sup (logit x0 x1 x2 x3 x4 ⟨n.val / 8192, by have := n.isLt; omega⟩ ⟨n.val % 8192, Nat.mod_lt _ (by norm_num)⟩) := by
  rw [val_main_call6_v2_apply, val_main_call6_v1_apply, val_main_call6_cst_0_apply, Ideal.maximumf_def, Ideal.ofBits_def,
    ninf_eq_bot, max_eq_right bot_le]
  unfold val_main_call6_v0
  rw [reduce_max_apply]
  exact congrArg (Finset.univ.sup) (funext fun c => logits_apply x0 x1 x2 x3 x4 n c)

/-- The log-softmax at (row-time `n`, class `c`). -/
private theorem lsm_apply (x0 : (⟨S128x8192, .f32⟩ : BufTy).Contents (Elt Ideal)) (x1 : (⟨S4x100, .f32⟩ : BufTy).Contents (Elt Ideal))
    (x2 : (⟨S100, .f32⟩ : BufTy).Contents (Elt Ideal)) (x3 : (⟨S100x16, .f32⟩ : BufTy).Contents (Elt Ideal))
    (x4 : (⟨S16, .f32⟩ : BufTy).Contents (Elt Ideal)) (n : Fin 1048576) (c : Fin 16) :
    val_main_v21 (F := Ideal) x0 x1 x2 x3 x4 (ix2 n c)
      = logSoftmax (logit x0 x1 x2 x3 x4 ⟨n.val / 8192, by have := n.isLt; omega⟩ ⟨n.val % 8192, Nat.mod_lt _ (by norm_num)⟩) c := by
  have e1 : ∀ k : Fin 16, idx_main_call6_v3 (idx_main_call6_v4 (ix2 n k)) = ix1 n := fun k => funext fun a => Fin.ext (by
    match a with
    | ⟨0, _⟩ => rfl)
  have e2 : idx_main_call6_v8 (idx_main_call6_v10 (ix2 n c)) = ix1 n := funext fun a => Fin.ext (by
    match a with
    | ⟨0, _⟩ => rfl)
  have e3 : ∀ k : Fin 16, idx_main_call6_v7 (ix1 n) k = ix2 n k := fun k => funext fun a => Fin.ext (by
    match a with
    | ⟨0, _⟩ => rfl
    | ⟨1, _⟩ => rfl)
  have h5 : ∀ k : Fin 16, val_main_call6_v5 (F := Ideal) x0 x1 x2 x3 x4 (ix2 n k)
      = logit x0 x1 x2 x3 x4 ⟨n.val / 8192, by have := n.isLt; omega⟩ ⟨n.val % 8192, Nat.mod_lt _ (by norm_num)⟩ k
        - Finset.univ.sup (logit x0 x1 x2 x3 x4 ⟨n.val / 8192, by have := n.isLt; omega⟩ ⟨n.val % 8192, Nat.mod_lt _ (by norm_num)⟩) := by
    intro k
    rw [val_main_call6_v5_apply, val_main_call6_v4_apply, val_main_call6_v3_apply, e1, rowmax_apply, logits_apply,
      Ideal.subf_def]
  rw [val_main_v21_apply, val_main_call6_v10_apply, val_main_call6_v9_apply, val_main_call6_v8_apply, e2,
    val_main_call6_v7_apply, val_main_call6_cst_1_apply]
  simp only [e3, val_main_call6_v6_apply, h5, Ideal.subf_def, Ideal.hostUnary_exp_def, Ideal.hostUnary_log_def,
    Ideal.ofBits_def, Ideal.ofBits_zero_f32, zero_add]
  rfl

/-- Row `b` and time `t` from the flattened row-time `b · 8192 + t`. -/
private theorem split_rowtime (b : Fin 128) (t : Fin 8192) (n : Fin 1048576) (hn : n.val = b.val * 8192 + t.val) :
    (⟨n.val / 8192, by have := n.isLt; omega⟩ : Fin 128) = b
      ∧ (⟨n.val % 8192, Nat.mod_lt _ (by norm_num)⟩ : Fin 8192) = t := by
  have := t.isLt
  exact ⟨Fin.ext (by show n.val / 8192 = b.val; omega), Fin.ext (by show n.val % 8192 = t.val; omega)⟩

/-- The reference's last stage, as a function of the five arguments, is `G`. -/
theorem ref_eq (x0 : (⟨S128x8192, .f32⟩ : BufTy).Contents (Elt Ideal)) (x1 : (⟨S4x100, .f32⟩ : BufTy).Contents (Elt Ideal))
    (x2 : (⟨S100, .f32⟩ : BufTy).Contents (Elt Ideal)) (x3 : (⟨S100x16, .f32⟩ : BufTy).Contents (Elt Ideal))
    (x4 : (⟨S16, .f32⟩ : BufTy).Contents (Elt Ideal)) :
    val_main_v22 (F := Ideal) x0 x1 x2 x3 x4 = G x0 x1 x2 x3 x4 := by
  funext i
  obtain ⟨b, t, c, rfl⟩ : ∃ (b : Fin 128) (t : Fin 8192) (c : Fin 16), i = ix3 b t c := ⟨i 0, i 1, i 2, eq_ix3 i⟩
  have hn : b.val * 8192 + t.val < 1048576 := by have := b.isLt; have := t.isLt; omega
  have e : idx_main_v22 (ix3 b t c) = ix2 (⟨b.val * 8192 + t.val, hn⟩ : Fin 1048576) c := funext fun a => Fin.ext (by
    have := c.isLt
    match a with
    | ⟨0, _⟩ => show ((b.val * 8192 + t.val) * 16 + c.val) / 16 = b.val * 8192 + t.val; omega
    | ⟨1, _⟩ => show ((b.val * 8192 + t.val) * 16 + c.val) % 16 = c.val; omega)
  obtain ⟨hb, ht⟩ := split_rowtime b t ⟨b.val * 8192 + t.val, hn⟩ rfl
  rw [val_main_v22_apply, e, lsm_apply, hb, ht]
  rfl

end Cert.ReferenceIdeal.RefValue

end
-- ==== Proof.RefRun.lean ====
/-
  The reference program's run: every weakly fair execution of its forty-nine host operations terminates
  with the result buffer at the last stage of the read-at-an-index module, as a function of the five
  argument arrays as launched, and those arrays unchanged.
-/
import proofs.«149210_g33380485825013_cont_8to1_b_1249_38_alg».proof.Proof.RefReadP
import proofs.«149210_g33380485825013_cont_8to1_b_1249_38_alg».proof.Proof.RefOpsP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–3: the padding constant and the padded input. -/
def opsA : List (HloOp τ sig (Elt F)) :=
  [ nullary main_cst (constant S_ .f32 0xC2C80000#32),
    TRef.unary (TRef.of (T := ⟨S_, .f32⟩) main_cst) (TRef.of (T := ⟨S_, .f32⟩) main_call0_v0) id,
    TRef.binary (TRef.of (T := ⟨S128x8192, .f32⟩) main_arg0) (TRef.of (T := ⟨S_, .f32⟩) main_call0_v0) (TRef.of (T := ⟨S128x8195, .f32⟩) main_v0) (fun x v => pad S128x8195 ![0, 0] ![0, 3] ![0, 0] x v pads_S128x8192_S128x8195_000_030 h_S_) ]

/-- Operations 4–15: the four rolls of the padded input, each two slices and their concatenation. -/
def opsB : List (HloOp τ sig (Elt F)) :=
  [ TRef.unary (TRef.of (T := ⟨S128x8195, .f32⟩) main_v0) (TRef.of (T := ⟨S128x3, .f32⟩) main_call1_v0) (extractStridedSlice S128x3 ![0, 8192] · slices_S128x8195_S128x3_0_8192),
    TRef.unary (TRef.of (T := ⟨S128x8195, .f32⟩) main_v0) (TRef.of (T := ⟨S128x8192, .f32⟩) main_call1_v1) (extractStridedSlice S128x8192 ![0, 0] · slices_S128x8195_S128x8192_0_0),
    TRef.binary (TRef.of (T := ⟨S128x3, .f32⟩) main_call1_v0) (TRef.of (T := ⟨S128x8192, .f32⟩) main_call1_v1) (TRef.of (T := ⟨S128x8195, .f32⟩) main_v1) (fun a b => concatenate S128x8195 1 [⟨S128x3, a⟩, ⟨S128x8192, b⟩] concatenates_S128x3_S128x8192_S128x8195_d1),
    TRef.unary (TRef.of (T := ⟨S128x8195, .f32⟩) main_v0) (TRef.of (T := ⟨S128x2, .f32⟩) main_call2_v0) (extractStridedSlice S128x2 ![0, 8193] · slices_S128x8195_S128x2_0_8193),
    TRef.unary (TRef.of (T := ⟨S128x8195, .f32⟩) main_v0) (TRef.of (T := ⟨S128x8193, .f32⟩) main_call2_v1) (extractStridedSlice S128x8193 ![0, 0] · slices_S128x8195_S128x8193_0_0),
    TRef.binary (TRef.of (T := ⟨S128x2, .f32⟩) main_call2_v0) (TRef.of (T := ⟨S128x8193, .f32⟩) main_call2_v1) (TRef.of (T := ⟨S128x8195, .f32⟩) main_v2) (fun a b => concatenate S128x8195 1 [⟨S128x2, a⟩, ⟨S128x8193, b⟩] concatenates_S128x2_S128x8193_S128x8195_d1),
    TRef.unary (TRef.of (T := ⟨S128x8195, .f32⟩) main_v0) (TRef.of (T := ⟨S128x1, .f32⟩) main_call3_v0) (extractStridedSlice S128x1 ![0, 8194] · slices_S128x8195_S128x1_0_8194),
    TRef.unary (TRef.of (T := ⟨S128x8195, .f32⟩) main_v0) (TRef.of (T := ⟨S128x8194, .f32⟩) main_call3_v1) (extractStridedSlice S128x8194 ![0, 0] · slices_S128x8195_S128x8194_0_0),
    TRef.binary (TRef.of (T := ⟨S128x1, .f32⟩) main_call3_v0) (TRef.of (T := ⟨S128x8194, .f32⟩) main_call3_v1) (TRef.of (T := ⟨S128x8195, .f32⟩) main_v3) (fun a b => concatenate S128x8195 1 [⟨S128x1, a⟩, ⟨S128x8194, b⟩] concatenates_S128x1_S128x8194_S128x8195_d1),
    TRef.unary (TRef.of (T := ⟨S128x8195, .f32⟩) main_v0) (TRef.of (T := ⟨S128x8195, .f32⟩) main_call4_v0) (extractStridedSlice S128x8195 ![0, 0] · slices_S128x8195_S128x8195_0_0),
    TRef.unary (TRef.of (T := ⟨S128x8195, .f32⟩) main_v0) (TRef.of (T := ⟨S128x0, .f32⟩) main_call4_v1) (extractStridedSlice S128x0 ![0, 0] · slices_S128x8195_S128x0_0_0),
    TRef.binary (TRef.of (T := ⟨S128x8195, .f32⟩) main_call4_v0) (TRef.of (T := ⟨S128x0, .f32⟩) main_call4_v1) (TRef.of (T := ⟨S128x8195, .f32⟩) main_v4) (fun a b => concatenate S128x8195 1 [⟨S128x8195, a⟩, ⟨S128x0, b⟩] concatenates_S128x8195_S128x0_S128x8195_d1) ]

/-- Operations 16–22: the rolls stacked along a new last axis, cut to the input's width and flattened. -/
def opsC : List (HloOp τ sig (Elt F)) :=
  [ unary main_v1 main_v5 (broadcastInDim S128x8195x1 ![0, 1] bcast_S128x8195_S128x8195x1_0_1 : (⟨S128x8195, .f32⟩ : BufTy).Contents (Elt F) → (⟨S128x8195x1, .f32⟩ : BufTy).Contents (Elt F)),
    unary main_v2 main_v6 (broadcastInDim S128x8195x1 ![0, 1] bcast_S128x8195_S128x8195x1_0_1 : (⟨S128x8195, .f32⟩ : BufTy).Contents (Elt F) → (⟨S128x8195x1, .f32⟩ : BufTy).Contents (Elt F)),
    unary main_v3 main_v7 (broadcastInDim S128x8195x1 ![0, 1] bcast_S128x8195_S128x8195x1_0_1 : (⟨S128x8195, .f32⟩ : BufTy).Contents (Elt F) → (⟨S128x8195x1, .f32⟩ : BufTy).Contents (Elt F)),
    unary main_v4 main_v8 (broadcastInDim S128x8195x1 ![0, 1] bcast_S128x8195_S128x8195x1_0_1 : (⟨S128x8195, .f32⟩ : BufTy).Contents (Elt F) → (⟨S128x8195x1, .f32⟩ : BufTy).Contents (Elt F)),
    nary ![main_v5, main_v6, main_v7, main_v8] main_v9 (fun u => concatenate S128x8195x4 2 [⟨S128x8195x1, u 0⟩, ⟨S128x8195x1, u 1⟩, ⟨S128x8195x1, u 2⟩, ⟨S128x8195x1, u 3⟩] concatenates_S128x8195x1_S128x8195x1_S128x8195x1_S128x8195x1_S128x8195x4_d2),
    unary main_v9 main_v10 ((extractStridedSlice S128x8192x4 ![0, 0, 0] · slices_S128x8195x4_S128x8192x4_0_0_0) : (⟨S128x8195x4, .f32⟩ : BufTy).Contents (Elt F) → (⟨S128x8192x4, .f32⟩ : BufTy).Contents (Elt F)),
    reshape main_v10 main_v11 rfl shapeCasts_S128x8192x4_S1048576x4 ]

/-- Operations 23–33: the two layers, each a product plus a bias, with the rectifier between them. -/
def opsD : List (HloOp τ sig (Elt F)) :=
  [ binary main_v11 main_arg1 main_v12 ((fun l r => Host.dotGeneral dot_S1048576x4_S4x100_S1048576x100_1_0_0_1_n_n none l r) : (⟨S1048576x4, .f32⟩ : BufTy).Contents (Elt F) → (⟨S4x100, .f32⟩ : BufTy).Contents (Elt F) → (⟨S1048576x100, .f32⟩ : BufTy).Contents (Elt F)),
    unary main_arg2 main_v13 (broadcastInDim S1x100 ![1] bcast_S100_S1x100_1 : (⟨S100, .f32⟩ : BufTy).Contents (Elt F) → (⟨S1x100, .f32⟩ : BufTy).Contents (Elt F)),
    unary main_v13 main_v14 (broadcastInDim S1048576x100 ![0, 1] bcast_S1x100_S1048576x100_0_1 : (⟨S1x100, .f32⟩ : BufTy).Contents (Elt F) → (⟨S1048576x100, .f32⟩ : BufTy).Contents (Elt F)),
    binary main_v12 main_v14 main_v15 (addf : (⟨S1048576x100, .f32⟩ : BufTy).Contents (Elt F) → (⟨S1048576x100, .f32⟩ : BufTy).Contents (Elt F) → (⟨S1048576x100, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1048576x100, .f32⟩) main_call5_v0) (broadcastInDim S1048576x100 ![] bcast_S_S1048576x100),
    TRef.binary (TRef.of (T := ⟨S1048576x100, .f32⟩) main_v15) (TRef.of (T := ⟨S1048576x100, .f32⟩) main_call5_v0) (TRef.of (T := ⟨S1048576x100, .f32⟩) main_v16) maximumf,
    binary main_v16 main_arg3 main_v17 ((fun l r => Host.dotGeneral dot_S1048576x100_S100x16_S1048576x16_1_0_0_1_n_n none l r) : (⟨S1048576x100, .f32⟩ : BufTy).Contents (Elt F) → (⟨S100x16, .f32⟩ : BufTy).Contents (Elt F) → (⟨S1048576x16, .f32⟩ : BufTy).Contents (Elt F)),
    unary main_arg4 main_v18 (broadcastInDim S1x16 ![1] bcast_S16_S1x16_1 : (⟨S16, .f32⟩ : BufTy).Contents (Elt F) → (⟨S1x16, .f32⟩ : BufTy).Contents (Elt F)),
    unary main_v18 main_v19 (broadcastInDim S1048576x16 ![0, 1] bcast_S1x16_S1048576x16_0_1 : (⟨S1x16, .f32⟩ : BufTy).Contents (Elt F) → (⟨S1048576x16, .f32⟩ : BufTy).Contents (Elt F)),
    binary main_v17 main_v19 main_v20 (addf : (⟨S1048576x16, .f32⟩ : BufTy).Contents (Elt F) → (⟨S1048576x16, .f32⟩ : BufTy).Contents (Elt F) → (⟨S1048576x16, .f32⟩ : BufTy).Contents (Elt F)) ]

/-- Operations 34–41: the row maximum and its subtraction. -/
def opsE : List (HloOp τ sig (Elt F)) :=
  [ TRef.nullary (TRef.of (T := ⟨S_, .f32⟩) main_call6_cst) (constant S_ .f32 0xFF800000#32),
    TRef.binary (TRef.of (T := ⟨S1048576x16, .f32⟩) main_v20) (TRef.of (T := ⟨S_, .f32⟩) main_call6_cst) (TRef.of (T := ⟨S1048576, .f32⟩) main_call6_v0) (fun x v => Host.reduce FloatOps.maximumf x v reducesTo_S1048576x16_S1048576_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S1048576, .f32⟩) main_call6_v1) (broadcastInDim S1048576 ![] bcast_S_S1048576),
    TRef.binary (TRef.of (T := ⟨S1048576, .f32⟩) main_call6_v1) (TRef.of (T := ⟨S1048576, .f32⟩) main_call6_v0) (TRef.of (T := ⟨S1048576, .f32⟩) main_call6_v2) maximumf,
    TRef.unary (TRef.of (T := ⟨S1048576, .f32⟩) main_call6_v2) (TRef.of (T := ⟨S1048576x1, .f32⟩) main_call6_v3) (broadcastInDim S1048576x1 ![0] bcast_S1048576_S1048576x1_0),
    TRef.unary (TRef.of (T := ⟨S1048576x1, .f32⟩) main_call6_v3) (TRef.of (T := ⟨S1048576x16, .f32⟩) main_call6_v4) (broadcastInDim S1048576x16 ![0, 1] bcast_S1048576x1_S1048576x16_0_1),
    TRef.binary (TRef.of (T := ⟨S1048576x16, .f32⟩) main_v20) (TRef.of (T := ⟨S1048576x16, .f32⟩) main_call6_v4) (TRef.of (T := ⟨S1048576x16, .f32⟩) main_call6_v5) subf ]

/-- Operations 42–49: the exponentials' row sum, its logarithm, the second subtraction and the final reshape. -/
def opsF : List (HloOp τ sig (Elt F)) :=
  [ TRef.unary (TRef.of (T := ⟨S1048576x16, .f32⟩) main_call6_v5) (TRef.of (T := ⟨S1048576x16, .f32⟩) main_call6_v6) Host.exp,
    TRef.nullary (TRef.of (T := ⟨S_, .f32⟩) main_call6_cst_1) (constant S_ .f32 0x00000000#32),
    TRef.binary (TRef.of (T := ⟨S1048576x16, .f32⟩) main_call6_v6) (TRef.of (T := ⟨S_, .f32⟩) main_call6_cst_1) (TRef.of (T := ⟨S1048576, .f32⟩) main_call6_v7) (fun x v => Host.reduceAdd x v reducesTo_S1048576x16_S1048576_d1 h_S_),
    TRef.unary (TRef.of (T := ⟨S1048576, .f32⟩) main_call6_v7) (TRef.of (T := ⟨S1048576x1, .f32⟩) main_call6_v8) (broadcastInDim S1048576x1 ![0] bcast_S1048576_S1048576x1_0),
    TRef.unary (TRef.of (T := ⟨S1048576x1, .f32⟩) main_call6_v8) (TRef.of (T := ⟨S1048576x1, .f32⟩) main_call6_v9) Host.log,
    TRef.unary (TRef.of (T := ⟨S1048576x1, .f32⟩) main_call6_v9) (TRef.of (T := ⟨S1048576x16, .f32⟩) main_call6_v10) (broadcastInDim S1048576x16 ![0, 1] bcast_S1048576x1_S1048576x16_0_1),
    TRef.binary (TRef.of (T := ⟨S1048576x16, .f32⟩) main_call6_v5) (TRef.of (T := ⟨S1048576x16, .f32⟩) main_call6_v10) (TRef.of (T := ⟨S1048576x16, .f32⟩) main_v21) subf,
    reshape main_v21 main_v22 rfl shapeCasts_S1048576x16_S128x8192x16 ]

/-- The run of a concatenation is the run of its second part from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- The forty-nine operations are the six stretches in order. -/
theorem ops_split : (ValueP.ops : List (HloOp τ sig (Elt F))) = opsA ++ (opsB ++ (opsC ++ (opsD ++ (opsE ++ opsF)))) := rfl

/-- The whole run as the six stretches' runs, each from what the one before leaves. -/
theorem after_ops (V : Valuation τ sig (Elt F)) :
    after (ValueP.ops (F := F)) V = after opsF (after opsE (after opsD (after opsC (after opsB (after opsA V))))) := by
  rw [ops_split]; simp only [after_append]

/-! ## What each stretch leaves alone -/

/-- An operation whose one written buffer is among a list writes inside that list's buffers. -/
theorem writes_sub_of {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the first three operations write. -/
abbrev WA : List (Ref sig .tc) := [main_cst, main_call0_v0, main_v0]

theorem opsA_writes : (opsA : List (HloOp τ sig (Elt F))).Forall fun op =>
    op.writes ⊆ (WA.map (Proc.devRef (τ := τ) .tc)).toFinset :=
  ⟨writes_sub_of (nullary_writes ..) (by decide),
   writes_sub_of (unary_writes ..) (by decide),
   writes_sub_of (binary_writes ..) (by decide)⟩

/-- A buffer the first three operations do not write keeps its contents through them. -/
theorem A_keep (V : Valuation τ sig (Elt F)) (r : Ref sig .tc) (h : r ∉ WA) :
    after opsA V (Proc.devRef .tc r) = V (Proc.devRef .tc r) :=
  after_of_writes_sub opsA V opsA_writes h

/-- The buffers the fourth to fifteenth operations write. -/
abbrev WB : List (Ref sig .tc) := [main_call1_v0, main_call1_v1, main_v1, main_call2_v0, main_call2_v1, main_v2, main_call3_v0, main_call3_v1, main_v3, main_call4_v0, main_call4_v1, main_v4]

theorem opsB_writes : (opsB : List (HloOp τ sig (Elt F))).Forall fun op =>
    op.writes ⊆ (WB.map (Proc.devRef (τ := τ) .tc)).toFinset :=
  ⟨writes_sub_of (unary_writes ..) (by decide),
   writes_sub_of (unary_writes ..) (by decide),
   writes_sub_of (binary_writes ..) (by decide),
   writes_sub_of (unary_writes ..) (by decide),
   writes_sub_of (unary_writes ..) (by decide),
   writes_sub_of (binary_writes ..) (by decide),
   writes_sub_of (unary_writes ..) (by decide),
   writes_sub_of (unary_writes ..) (by decide),
   writes_sub_of (binary_writes ..) (by decide),
   writes_sub_of (unary_writes ..) (by decide),
   writes_sub_of (unary_writes ..) (by decide),
   writes_sub_of (binary_writes ..) (by decide)⟩

/-- A buffer the fourth to fifteenth operations do not write keeps its contents through them. -/
theorem B_keep (V : Valuation τ sig (Elt F)) (r : Ref sig .tc) (h : r ∉ WB) :
    after opsB V (Proc.devRef .tc r) = V (Proc.devRef .tc r) :=
  after_of_writes_sub opsB V opsB_writes h

/-- The buffers the sixteenth to twenty-second operations write. -/
abbrev WC : List (Ref sig .tc) := [main_v5, main_v6, main_v7, main_v8, main_v9, main_v10, main_v11]

theorem opsC_writes : (opsC : List (HloOp τ sig (Elt F))).Forall fun op =>
    op.writes ⊆ (WC.map (Proc.devRef (τ := τ) .tc)).toFinset :=
  ⟨writes_sub_of (unary_writes ..) (by decide),
   writes_sub_of (unary_writes ..) (by decide),
   writes_sub_of (unary_writes ..) (by decide),
   writes_sub_of (unary_writes ..) (by decide),
   writes_sub_of (nary_writes ..) (by decide),
   writes_sub_of (unary_writes ..) (by decide),
   writes_sub_of (reshape_writes ..) (by decide)⟩

/-- A buffer the sixteenth to twenty-second operations do not write keeps its contents through them. -/
theorem C_keep (V : Valuation τ sig (Elt F)) (r : Ref sig .tc) (h : r ∉ WC) :
    after opsC V (Proc.devRef .tc r) = V (Proc.devRef .tc r) :=
  after_of_writes_sub opsC V opsC_writes h

/-- The buffers the twenty-third to thirty-third operations write. -/
abbrev WD : List (Ref sig .tc) := [main_v12, main_v13, main_v14, main_v15, main_call5_cst, main_call5_v0, main_v16, main_v17, main_v18, main_v19, main_v20]

theorem opsD_writes : (opsD : List (HloOp τ sig (Elt F))).Forall fun op =>
    op.writes ⊆ (WD.map (Proc.devRef (τ := τ) .tc)).toFinset :=
  ⟨writes_sub_of (binary_writes ..) (by decide),
   writes_sub_of (unary_writes ..) (by decide),
   writes_sub_of (unary_writes ..) (by decide),
   writes_sub_of (binary_writes ..) (by decide),
   writes_sub_of (nullary_writes ..) (by decide),
   writes_sub_of (unary_writes ..) (by decide),
   writes_sub_of (binary_writes ..) (by decide),
   writes_sub_of (binary_writes ..) (by decide),
   writes_sub_of (unary_writes ..) (by decide),
   writes_sub_of (unary_writes ..) (by decide),
   writes_sub_of (binary_writes ..) (by decide)⟩

/-- A buffer the twenty-third to thirty-third operations do not write keeps its contents through them. -/
theorem D_keep (V : Valuation τ sig (Elt F)) (r : Ref sig .tc) (h : r ∉ WD) :
    after opsD V (Proc.devRef .tc r) = V (Proc.devRef .tc r) :=
  after_of_writes_sub opsD V opsD_writes h

/-- The buffers the thirty-fourth to forty-first operations write. -/
abbrev WE : List (Ref sig .tc) := [main_call6_cst, main_call6_v0, main_call6_cst_0, main_call6_v1, main_call6_v2, main_call6_v3, main_call6_v4, main_call6_v5]

theorem opsE_writes : (opsE : List (HloOp τ sig (Elt F))).Forall fun op =>
    op.writes ⊆ (WE.map (Proc.devRef (τ := τ) .tc)).toFinset :=
  ⟨writes_sub_of (nullary_writes ..) (by decide),
   writes_sub_of (binary_writes ..) (by decide),
   writes_sub_of (nullary_writes ..) (by decide),
   writes_sub_of (unary_writes ..) (by decide),
   writes_sub_of (binary_writes ..) (by decide),
   writes_sub_of (unary_writes ..) (by decide),
   writes_sub_of (unary_writes ..) (by decide),
   writes_sub_of (binary_writes ..) (by decide)⟩

/-- A buffer the thirty-fourth to forty-first operations do not write keeps its contents through them. -/
theorem E_keep (V : Valuation τ sig (Elt F)) (r : Ref sig .tc) (h : r ∉ WE) :
    after opsE V (Proc.devRef .tc r) = V (Proc.devRef .tc r) :=
  after_of_writes_sub opsE V opsE_writes h

/-- The buffers the last eight operations write. -/
abbrev WF : List (Ref sig .tc) := [main_call6_v6, main_call6_cst_1, main_call6_v7, main_call6_v8, main_call6_v9, main_call6_v10, main_v21, main_v22]

theorem opsF_writes : (opsF : List (HloOp τ sig (Elt F))).Forall fun op =>
    op.writes ⊆ (WF.map (Proc.devRef (τ := τ) .tc)).toFinset :=
  ⟨writes_sub_of (unary_writes ..) (by decide),
   writes_sub_of (nullary_writes ..) (by decide),
   writes_sub_of (binary_writes ..) (by decide),
   writes_sub_of (unary_writes ..) (by decide),
   writes_sub_of (unary_writes ..) (by decide),
   writes_sub_of (unary_writes ..) (by decide),
   writes_sub_of (binary_writes ..) (by decide),
   writes_sub_of (reshape_writes ..) (by decide)⟩

/-- A buffer the last eight operations do not write keeps its contents through them. -/
theorem F_keep (V : Valuation τ sig (Elt F)) (r : Ref sig .tc) (h : r ∉ WF) :
    after opsF V (Proc.devRef .tc r) = V (Proc.devRef .tc r) :=
  after_of_writes_sub opsF V opsF_writes h

/-! ## What each stretch computes

Each lemma is from ANY contents `V` of the buffers: if the stretch's input buffers hold the stages named, its output
buffer ends holding the next stage named. -/

/-- Rewrites a run over a literal list, read at one buffer, into the operations' results composed: the run is opened one
    operation at a time, then each operation's result is read at its own buffer as its function's value and at any
    other buffer as what was there before. -/
local macro "run_results" : tactic =>
  `(tactic|
    ((repeat rw [after_cons])
     rw [after_nil]
     repeat (first
       | rw [nullary_result] | rw [unary_result] | rw [binary_result] | rw [reshape_result] | rw [nary4_result]
       | (rw [nullary_result_ne]; rotate_left; decide)
       | (rw [unary_result_ne]; rotate_left; decide)
       | (rw [binary_result_ne]; rotate_left; decide)
       | (rw [reshape_result_ne]; rotate_left; decide)
       | (rw [nary_result_ne]; rotate_left; decide))))

/-- The padded input. -/
theorem A_out (V : Valuation τ sig (Elt F)) (x0 : (⟨S128x8192, .f32⟩ : BufTy).Contents (Elt F))
    (h0 : V (Proc.devRef .tc main_arg0) = x0) :
    after opsA V (Proc.devRef .tc main_v0) = ReadP.val_main_v0 (F := F) x0 := by
  subst h0
  unfold opsA
  run_results
  rfl

/-- Roll 1 of the padded input. -/
theorem B_out1 (V : Valuation τ sig (Elt F)) (x0 : (⟨S128x8192, .f32⟩ : BufTy).Contents (Elt F))
    (h : V (Proc.devRef .tc main_v0) = ReadP.val_main_v0 (F := F) x0) :
    after opsB V (Proc.devRef .tc main_v1) = ReadP.val_main_v1 (F := F) x0 := by
  unfold opsB
  run_results
  rw [h]
  rfl

/-- Roll 2 of the padded input. -/
theorem B_out2 (V : Valuation τ sig (Elt F)) (x0 : (⟨S128x8192, .f32⟩ : BufTy).Contents (Elt F))
    (h : V (Proc.devRef .tc main_v0) = ReadP.val_main_v0 (F := F) x0) :
    after opsB V (Proc.devRef .tc main_v2) = ReadP.val_main_v2 (F := F) x0 := by
  unfold opsB
  run_results
  rw [h]
  rfl

/-- Roll 3 of the padded input. -/
theorem B_out3 (V : Valuation τ sig (Elt F)) (x0 : (⟨S128x8192, .f32⟩ : BufTy).Contents (Elt F))
    (h : V (Proc.devRef .tc main_v0) = ReadP.val_main_v0 (F := F) x0) :
    after opsB V (Proc.devRef .tc main_v3) = ReadP.val_main_v3 (F := F) x0 := by
  unfold opsB
  run_results
  rw [h]
  rfl

/-- Roll 4 of the padded input. -/
theorem B_out4 (V : Valuation τ sig (Elt F)) (x0 : (⟨S128x8192, .f32⟩ : BufTy).Contents (Elt F))
    (h : V (Proc.devRef .tc main_v0) = ReadP.val_main_v0 (F := F) x0) :
    after opsB V (Proc.devRef .tc main_v4) = ReadP.val_main_v4 (F := F) x0 := by
  unfold opsB
  run_results
  rw [h]
  rfl

/-- The four rolls stacked, cut and flattened: the first product's left operand. -/
theorem C_out (V : Valuation τ sig (Elt F)) (x0 : (⟨S128x8192, .f32⟩ : BufTy).Contents (Elt F))
    (h1 : V (Proc.devRef .tc main_v1) = ReadP.val_main_v1 (F := F) x0)
    (h2 : V (Proc.devRef .tc main_v2) = ReadP.val_main_v2 (F := F) x0)
    (h3 : V (Proc.devRef .tc main_v3) = ReadP.val_main_v3 (F := F) x0)
    (h4 : V (Proc.devRef .tc main_v4) = ReadP.val_main_v4 (F := F) x0) :
    after opsC V (Proc.devRef .tc main_v11) = ReadP.val_main_v11 (F := F) x0 := by
  unfold opsC
  run_results
  rw [h1, h2, h3, h4]
  rfl

/-- The second layer's output. -/
theorem D_out (V : Valuation τ sig (Elt F)) (x0 : (⟨S128x8192, .f32⟩ : BufTy).Contents (Elt F)) (x1 : (⟨S4x100, .f32⟩ : BufTy).Contents (Elt F))
    (x2 : (⟨S100, .f32⟩ : BufTy).Contents (Elt F)) (x3 : (⟨S100x16, .f32⟩ : BufTy).Contents (Elt F)) (x4 : (⟨S16, .f32⟩ : BufTy).Contents (Elt F))
    (h11 : V (Proc.devRef .tc main_v11) = ReadP.val_main_v11 (F := F) x0)
    (h1 : V (Proc.devRef .tc main_arg1) = x1) (h2 : V (Proc.devRef .tc main_arg2) = x2)
    (h3 : V (Proc.devRef .tc main_arg3) = x3) (h4 : V (Proc.devRef .tc main_arg4) = x4) :
    after opsD V (Proc.devRef .tc main_v20) = ReadP.val_main_v20 (F := F) x0 x1 x2 x3 x4 := by
  subst h1 h2 h3 h4
  unfold opsD
  run_results
  rw [h11]
  rfl

/-- Reading a typed reference's buffer back at the value's type undoes storing the value there. -/
theorem ofBuf_toBuf {T : BufTy} (x : TRef sig T) (v : T.Contents (Elt F)) : x.ofBuf (x.toBuf v) = v := by
  simp only [TRef.ofBuf, TRef.toBuf, cast_cast, cast_eq]

/-- The second layer's output less its row maximum. -/
theorem E_out (V : Valuation τ sig (Elt F)) (x0 : (⟨S128x8192, .f32⟩ : BufTy).Contents (Elt F)) (x1 : (⟨S4x100, .f32⟩ : BufTy).Contents (Elt F))
    (x2 : (⟨S100, .f32⟩ : BufTy).Contents (Elt F)) (x3 : (⟨S100x16, .f32⟩ : BufTy).Contents (Elt F)) (x4 : (⟨S16, .f32⟩ : BufTy).Contents (Elt F))
    (h20 : V (Proc.devRef .tc main_v20) = ReadP.val_main_v20 (F := F) x0 x1 x2 x3 x4) :
    after opsE V (Proc.devRef .tc main_call6_v5) = ReadP.val_main_call6_v5 (F := F) x0 x1 x2 x3 x4 := by
  have h20' : (TRef.of (T := ⟨S1048576x16, .f32⟩) main_v20).ofBuf (V (Proc.devRef .tc main_v20))
      = ReadP.val_main_v20 (F := F) x0 x1 x2 x3 x4 := h20
  have strip : ∀ X : (⟨S1048576x16, .f32⟩ : BufTy).Contents (Elt F),
      (TRef.of (T := ⟨S1048576x16, .f32⟩) main_call6_v5).toBuf X = X := fun _ => rfl
  unfold opsE
  run_results
  repeat rw [ofBuf_toBuf]
  rewrite [h20']
  unfold ReadP.val_main_call6_v5 ReadP.val_main_call6_v4 ReadP.val_main_call6_v3 ReadP.val_main_call6_v2
    ReadP.val_main_call6_v1 ReadP.val_main_call6_cst_0 ReadP.val_main_call6_v0 ReadP.val_main_call6_cst
  exact strip _

/-- The result: that difference less the logarithm of its exponentials' row sum, reshaped. -/
theorem F_out (V : Valuation τ sig (Elt F)) (x0 : (⟨S128x8192, .f32⟩ : BufTy).Contents (Elt F)) (x1 : (⟨S4x100, .f32⟩ : BufTy).Contents (Elt F))
    (x2 : (⟨S100, .f32⟩ : BufTy).Contents (Elt F)) (x3 : (⟨S100x16, .f32⟩ : BufTy).Contents (Elt F)) (x4 : (⟨S16, .f32⟩ : BufTy).Contents (Elt F))
    (h5 : V (Proc.devRef .tc main_call6_v5) = ReadP.val_main_call6_v5 (F := F) x0 x1 x2 x3 x4) :
    after opsF V (Proc.devRef .tc main_v22) = ReadP.val_main_v22 (F := F) x0 x1 x2 x3 x4 := by
  unfold opsF
  run_results
  rw [h5]
  rfl

/-! ## The chain -/

/-- An argument buffer keeps its contents through the first three stretches. -/
theorem ABC_keep (V : Valuation τ sig (Elt F)) (r : Ref sig .tc) (hA : r ∉ WA) (hB : r ∉ WB) (hC : r ∉ WC) :
    after opsC (after opsB (after opsA V)) (Proc.devRef .tc r) = V (Proc.devRef .tc r) := by
  rw [C_keep _ r hC, B_keep _ r hB, A_keep _ r hA]

/-- A buffer no operation writes keeps its contents through the whole run. -/
theorem ops_keep (V : Valuation τ sig (Elt F)) (r : Ref sig .tc) (hA : r ∉ WA) (hB : r ∉ WB) (hC : r ∉ WC)
    (hD : r ∉ WD) (hE : r ∉ WE) (hF : r ∉ WF) :
    after (ValueP.ops (F := F)) V (Proc.devRef .tc r) = V (Proc.devRef .tc r) := by
  rw [after_ops, F_keep _ r hF, E_keep _ r hE, D_keep _ r hD, ABC_keep V r hA hB hC]

/-- The result buffer after the whole run, from any contents: the last stage at the arguments' contents. -/
theorem ops_result (V : Valuation τ sig (Elt F)) :
    after (ValueP.ops (F := F)) V (Proc.devRef .tc main_v22)
      = ReadP.val_main_v22 (F := F) (V (Proc.devRef .tc main_arg0)) (V (Proc.devRef .tc main_arg1))
          (V (Proc.devRef .tc main_arg2)) (V (Proc.devRef .tc main_arg3)) (V (Proc.devRef .tc main_arg4)) := by
  rw [after_ops]
  have hA := A_out V _ rfl
  have hB1 := B_out1 (after opsA V) _ hA
  have hB2 := B_out2 (after opsA V) _ hA
  have hB3 := B_out3 (after opsA V) _ hA
  have hB4 := B_out4 (after opsA V) _ hA
  have hC := C_out (after opsB (after opsA V)) _ hB1 hB2 hB3 hB4
  have hD := D_out (after opsC (after opsB (after opsA V))) _ _ _ _ _ hC
    (ABC_keep V main_arg1 (by decide) (by decide) (by decide)) (ABC_keep V main_arg2 (by decide) (by decide) (by decide))
    (ABC_keep V main_arg3 (by decide) (by decide) (by decide)) (ABC_keep V main_arg4 (by decide) (by decide) (by decide))
  exact F_out _ _ _ _ _ _ (E_out _ _ _ _ _ _ hD)

/-- The reference's run, its result named by the last stage. -/
theorem rrun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = Cert.ReferenceIdeal.ReadP.val_main_v22 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v22).trans (ops_result (launchContents m c)),
       (h c main_arg0).trans (ops_keep (launchContents m c) main_arg0 (by decide) (by decide) (by decide) (by decide) (by decide) (by decide)),
       (h c main_arg1).trans (ops_keep (launchContents m c) main_arg1 (by decide) (by decide) (by decide) (by decide) (by decide) (by decide)),
       (h c main_arg2).trans (ops_keep (launchContents m c) main_arg2 (by decide) (by decide) (by decide) (by decide) (by decide) (by decide)),
       (h c main_arg3).trans (ops_keep (launchContents m c) main_arg3 (by decide) (by decide) (by decide) (by decide) (by decide) (by decide)),
       (h c main_arg4).trans (ops_keep (launchContents m c) main_arg4 (by decide) (by decide) (by decide) (by decide) (by decide) (by decide))⟩)
    (run_seq ValueP.scopedRefs_eq ValueP.scopedSems_eq defs main (fun _ => ValueP.ops) ValueP.main_eq (fun _ => ValueP.ops_sub) m ρ)

end Cert.ReferenceIdeal.RefRun

end
-- ==== Proof.lean ====
/-
  The claim.  Both programs compute, for every row, time and class, the log-softmax of a two-layer
  perceptron's logits on the causal four-tap window of the row that ends at that time
  (Proof/Spec.lean: the function `G`).

  The reference does it as written: pad, four rolls stacked, two dot products with their biases, the
  rectifier between them, and the shifted log-softmax (Proof/RefWindow.lean, Proof/RefValue.lean over the
  program's run, Proof/RefRun.lean).

  The kernel works on eight rows per grid point and half a row per store.  It folds each bias into its
  matrix product (a row of ones under the four taps; hidden unit 127 pinned to one), pads the hidden layer
  from 100 to 128 with zero rows, takes maximum and sum over eight pairs of classes and subtracts
  `max + log sum` in one step (Proof/Chunk.lean: one chunk at an index; Proof/Pieces.lean: the sixteen stores
  of a grid point as one function of the block index; Proof/HostPre.lean: the padded weights the host
  builds; Proof/Tail.lean: the output array and the transposition after the region).

  The two arrangements agree on real inputs (Proof/Algebra.lean): the padded products are the plain ones
  plus bias (`0 · x = 0` and `b · 1 = b` hold for every extended real), and with every logit real the law
  `a - (m + l) = (a - m) - l` holds; the precondition makes every input real (Proof/Finite.lean).
  The idealization rewrote nothing, so `preserves` has no conjunct.
-/
import proofs.«149210_g33380485825013_cont_8to1_b_1249_38_alg».proof.Defs
import proofs.«149210_g33380485825013_cont_8to1_b_1249_38_alg».proof.Proof.Gen.Kernel
import proofs.«149210_g33380485825013_cont_8to1_b_1249_38_alg».proof.Proof.Gen.Kernel.Frame
import proofs.«149210_g33380485825013_cont_8to1_b_1249_38_alg».proof.Proof.Gen.KernelIdeal
import proofs.«149210_g33380485825013_cont_8to1_b_1249_38_alg».proof.Proof.Gen.KernelIdeal.Frame
import proofs.«149210_g33380485825013_cont_8to1_b_1249_38_alg».proof.Proof.Gen.ReferenceIdeal
import proofs.«149210_g33380485825013_cont_8to1_b_1249_38_alg».proof.Proof.Gen.Pre_finite_inputs
import proofs.«149210_g33380485825013_cont_8to1_b_1249_38_alg».proof.Proof.Tail
import proofs.«149210_g33380485825013_cont_8to1_b_1249_38_alg».proof.Proof.Algebra
import proofs.«149210_g33380485825013_cont_8to1_b_1249_38_alg».proof.Proof.Finite
import proofs.«149210_g33380485825013_cont_8to1_b_1249_38_alg».proof.Proof.RefValue
import proofs.«149210_g33380485825013_cont_8to1_b_1249_38_alg».proof.Proof.RefRun
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.rrun (F := Ideal) m ρ)

/-- From memories that agree on the five inputs, all real, both programs end with the function `G` of them. -/
theorem algebraic : Cert.algebraic_KernelIdeal_ReferenceIdeal := by
  intro m ρ m' ρ' hpre hagree
  refine ⟨fun c => Cert.WindowMlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Tail.krun m ρ)
    obtain ⟨h0, h1, h2, h3, h4⟩ := Cert.WindowMlp.Finite.allReal_of_pre _ _ _ _ _ (hpre c)
    exact Cert.WindowMlp.kout_eq _ _ _ _ _ h0 h1 h2 h3 h4
  · refine (θ_run Cert.ReferenceIdeal.defs _ _).mono (fun r h c => ⟨(h c).1.trans ?_, (h c).2⟩)
      (Cert.ReferenceIdeal.RefRun.rrun (F := Ideal) m' ρ')
    rw [Cert.ReferenceIdeal.RefValue.ref_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
